-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S64x64 : Shape := ⟨2, ![64, 64]⟩
abbrev S64 : Shape := ⟨1, ![64]⟩
abbrev S64x2 : Shape := ⟨2, ![64, 2]⟩
abbrev S2 : Shape := ⟨1, ![2]⟩
abbrev S1200000 : Shape := ⟨1, ![1200000]⟩
abbrev S100000 : Shape := ⟨1, ![100000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg4 : FVec F S64 .f32) (main_arg5 : FVec F S64x2 .f32) (main_arg6 : FVec F S2 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x2 .f32 := Host.absf main_arg5
  let main_cst_8 : FVec F S_ .f32 := constant S_ .f32 0x7F800000#32
  let main_v25 : FVec F S64x2 .f32 := broadcastInDim S64x2 ![] bcast_S_S64x2 main_cst_8
  let main_v26 : IVec S64x2 1 := cmpf .olt main_v24 main_v25
  let main_c_9 : IVec S_ 1 := constantI S_ 1 1#1
  let main_v27 : IVec S_ 1 := (fun x v => Host.reduce IntOp.andi x v reducesTo_S64x2_S_d0_1 h_S_) main_v26 main_c_9
  let main_v28 : IVec S_ 1 := andi main_v23 main_v27
  let main_v29 : FVec F S2 .f32 := Host.absf main_arg6
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S100000x64 .f32) (main_arg1 : FVec F S64x64 .f32) (main_arg2 : FVec F S64 .f32) (main_arg3 : FVec F S64x64 .f32) (main_arg4 : FVec F S64 .f32) (main_arg5 : FVec F S64x2 .f32) (main_arg6 : FVec F S2 .f32) (main_arg7 : IVec S1200000 32) (main_arg8 : IVec S1200000 32) (main_arg9 : IVec S100000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_v13 main_v16
-- ==== Kernel.lean ====
abbrev S100000x64 : Shape := ⟨2, ![100000, 64]⟩
abbrev S64x64 : Shape := ⟨2, ![64, 64]⟩
abbrev S64 : Shape := ⟨1, ![64]⟩
abbrev S64x2 : Shape := ⟨2, ![64, 2]⟩
abbrev S2 : Shape := ⟨1, ![2]⟩
abbrev S1200000 : Shape := ⟨1, ![1200000]⟩
abbrev S100000 : Shape := ⟨1, ![100000]⟩
abbrev S_ : Shape := ⟨0, ![]⟩
abbrev S1200000x1 : Shape := ⟨2, ![1200000, 1]⟩
abbrev S100000x1 : Shape := ⟨2, ![100000, 1]⟩
abbrev S1200000x64 : Shape := ⟨2, ![1200000, 64]⟩
abbrev S1x64 : Shape := ⟨2, ![1, 64]⟩
abbrev S10000x64 : Shape := ⟨2, ![10000, 64]⟩
abbrev S10000x1 : Shape := ⟨2, ![10000, 1]⟩
abbrev S1x2 : Shape := ⟨2, ![1, 2]⟩
abbrev S8x2 : Shape := ⟨2, ![8, 2]⟩
abbrev S8x64 : Shape := ⟨2, ![8, 64]⟩
abbrev S8x1 : Shape := ⟨2, ![8, 1]⟩
abbrev S10000x8 : Shape := ⟨2, ![10000, 8]⟩

abbrev nBuf : Space → Nat
  | .hbm => 70
  | .vmem => 19
  | .smem => 0
  | _ => 0

abbrev bufTy : (tb : Table) → Fin (tcTables nBuf tb) → BufTy
  | .hbm, ⟨0, _⟩ => ⟨S100000x64, .f32⟩
  | .hbm, ⟨1, _⟩ => ⟨S64x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x2, .f32⟩
  | .hbm, ⟨6, _⟩ => ⟨S2, .f32⟩
  | .hbm, ⟨7, _⟩ => ⟨S1200000, .i32⟩
  | .hbm, ⟨8, _⟩ => ⟨S1200000, .i32⟩
  | .hbm, ⟨9, _⟩ => ⟨S100000, .i32⟩
  | .hbm, ⟨10, _⟩ => ⟨S_, .f32⟩
  | .hbm, ⟨11, _⟩ => ⟨S1200000, .f32⟩
  | .hbm, ⟨12, _⟩ => ⟨S_, .f32⟩
  | .hbm, ⟨13, _⟩ => ⟨S100000, .f32⟩
  | .hbm, ⟨14, _⟩ => ⟨S1200000x1, .i32⟩
  | .hbm, ⟨15, _⟩ => ⟨S100000, .f32⟩
  | .hbm, ⟨16, _⟩ => ⟨S_, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S1200000x1, .i32⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000, .f32⟩
  | .hbm, ⟨31, _⟩ => ⟨S100000x1, .f32⟩
  | .hbm, ⟨32, _⟩ => ⟨S100000x64, .f32⟩
  | .hbm, ⟨33, _⟩ => ⟨S100000x64, .f32⟩
  | .hbm, ⟨34, _⟩ => ⟨S_, .i32⟩
  | .hbm, ⟨35, _⟩ => ⟨S1200000, .i32⟩
  | .hbm, ⟨36, _⟩ => ⟨S1200000, .i1⟩
  | .hbm, ⟨37, _⟩ => ⟨S_, .i32⟩
  | .hbm, ⟨38, _⟩ => ⟨S1200000, .i32⟩
  | .hbm, ⟨39, _⟩ => ⟨S1200000, .i32⟩
  | .hbm, ⟨40, _⟩ => ⟨S1200000, .i32⟩
  | .hbm, ⟨41, _⟩ => ⟨S1200000x1, .i32⟩
  | .hbm, ⟨42, _⟩ => ⟨S1200000x64, .f32⟩
  | .hbm, ⟨43, _⟩ => ⟨S_, .f32⟩
  | .hbm, ⟨44, _⟩ => ⟨S100000x64, .f32⟩
  | .hbm, ⟨45, _⟩ => ⟨S1200000x1, .i32⟩
  | .hbm, ⟨46, _⟩ => ⟨S100000x64, .f32⟩
  | .hbm, ⟨47, _⟩ => ⟨S100000x64, .f32⟩
  | .hbm, ⟨48, _⟩ => ⟨S100000x64, .f32⟩
  | .hbm, ⟨49, _⟩ => ⟨S1x64, .f32⟩
  | .hbm, ⟨50, _⟩ => ⟨S100000x64, .f32⟩
  | .hbm, ⟨51, _⟩ => ⟨S_, .i32⟩
  | .hbm, ⟨52, _⟩ => ⟨S1200000, .i32⟩
  | .hbm, ⟨53, _⟩ => ⟨S1200000, .i1⟩
  | .hbm, ⟨54, _⟩ => ⟨S_, .i32⟩
  | .hbm, ⟨55, _⟩ => ⟨S1200000, .i32⟩
  | .hbm, ⟨56, _⟩ => ⟨S1200000, .i32⟩
  | .hbm, ⟨57, _⟩ => ⟨S1200000, .i32⟩
  | .hbm, ⟨58, _⟩ => ⟨S1200000x1, .i32⟩
  | .hbm, ⟨59, _⟩ => ⟨S1200000x64, .f32⟩
  | .hbm, ⟨60, _⟩ => ⟨S_, .f32⟩
  | .hbm, ⟨61, _⟩ => ⟨S100000x64, .f32⟩
  | .hbm, ⟨62, _⟩ => ⟨S1200000x1, .i32⟩
  | .hbm, ⟨63, _⟩ => ⟨S100000x64, .f32⟩
  | .hbm, ⟨64, _⟩ => ⟨S100000x64, .f32⟩
  | .hbm, ⟨65, _⟩ => ⟨S100000x64, .f32⟩
  | .hbm, ⟨66, _⟩ => ⟨S100000x1, .i32⟩
  | .hbm, ⟨67, _⟩ => ⟨S1x64, .f32⟩
  | .hbm, ⟨68, _⟩ => ⟨S1x2, .f32⟩
  | .hbm, ⟨69, _⟩ => ⟨S8x2, .f32⟩
  | .local _ .vmem, ⟨0, _⟩ => ⟨S10000x64, .f32⟩
  | .local _ .vmem, ⟨1, _⟩ => ⟨S10000x64, .f32⟩
  | .local _ .vmem, ⟨2, _⟩ => ⟨S10000x1, .f32⟩
  | .local _ .vmem, ⟨3, _⟩ => ⟨S10000x1, .f32⟩
  | .local _ .vmem, ⟨4, _⟩ => ⟨S64x64, .f32⟩
  | .local _ .vmem, ⟨5, _⟩ => ⟨S1x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x1, .i32⟩
  | .local _ .vmem, ⟨11, _⟩ => ⟨S10000x1, .i32⟩
  | .local _ .vmem, ⟨12, _⟩ => ⟨S64x64, .f32⟩
  | .local _ .vmem, ⟨13, _⟩ => ⟨S1x64, .f32⟩
  | .local _ .vmem, ⟨14, _⟩ => ⟨S64x2, .f32⟩
  | .local _ .vmem, ⟨15, _⟩ => ⟨S1x2, .f32⟩
  | .local _ .vmem, ⟨16, _⟩ => ⟨S8x2, .f32⟩
  | .local _ .vmem, ⟨17, _⟩ => ⟨S8x64, .f32⟩
  | .local _ .vmem, ⟨18, _⟩ => ⟨S8x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_v4 : Ref sig .tc := ⟨.hbm, 19, rfl⟩
abbrev main_cst_2 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_3 : Ref sig .tc := ⟨.hbm, 24, rfl⟩
abbrev main_call1_v0 : Ref sig .tc := ⟨.hbm, 25, rfl⟩
abbrev main_call1_v1 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_c : Ref sig .tc := ⟨.hbm, 34, rfl⟩
abbrev main_v15 : Ref sig .tc := ⟨.hbm, 35, rfl⟩
abbrev main_v16 : Ref sig .tc := ⟨.hbm, 36, rfl⟩
abbrev main_c_4 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_5 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_c_6 : Ref sig .tc := ⟨.hbm, 51, rfl⟩
abbrev main_v29 : Ref sig .tc := ⟨.hbm, 52, rfl⟩
abbrev main_v30 : Ref sig .tc := ⟨.hbm, 53, rfl⟩
abbrev main_c_7 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_8 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_scratch0 : Ref sig .tc := ⟨.vmem, 17, rfl⟩
abbrev cc1_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S10000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def k1_cond2 (i : grid1.Coords) : BitVec 1 :=
  let arg0 : BitVec 32 := BitVec.ofNat 32 (i 0).val
  let c9_i32 : BitVec 32 := 9#32
  let v33 : BitVec 1 := Scalar.cmpi .eq arg0 c9_i32
  let v34 : BitVec 32 := Scalar.extui v33
  let c0_i32_20 : BitVec 32 := 0#32
  let v35 : BitVec 1 := Scalar.cmpi .ne v34 c0_i32_20
  v35

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x2 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x2 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S8x2 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

class Facts₀ : Prop where
  bcast_S_S1200000 : S_.BroadcastsInDim S1200000 (![] : Fin 0 → Fin S1200000.rank)
  bcast_S_S100000 : S_.BroadcastsInDim S100000 (![] : Fin 0 → Fin S100000.rank)
  bcast_S1200000_S1200000x1_0 : S1200000.BroadcastsInDim S1200000x1 (![0] : Fin 1 → Fin S1200000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  shapeCasts_S100000_S100000x1 : S100000.ShapeCasts S100000x1
  shapeCasts_S2_S1x2 : S2.ShapeCasts S1x2
  inb_S8x64_S8x64_0_0 : ∀ a, (![0, 0] : Fin 2 → Nat) a + S8x64.size a ≤ S8x64.size a
  h_S8x64 : 0 < S8x64.numel
  shapeCasts_S8x64_S8x64 : S8x64.ShapeCasts S8x64
  inb_S8x1_S8x1_0_0 : ∀ a, (![0, 0] : Fin 2 → Nat) a + S8x1.size a ≤ S8x1.size a
  h_S8x1 : 0 < S8x1.numel
  shapeCasts_S8x1_S8x1 : S8x1.ShapeCasts S8x1
  iota_S10000x8_d1_w32 : S10000x8.Iotas .tc 32 [1]
  broadcasts_S10000x1_S10000x8 : S10000x1.Broadcasts S10000x8
  natLt_1_32 : 1 < 32
  broadcasts_S8x1_S8x64 : S8x1.Broadcasts S8x64
  inb_S64x2_S64x2_0_0 : ∀ a, (![0, 0] : Fin 2 → Nat) a + S64x2.size a ≤ S64x2.size a
  h_S64x2 : 0 < S64x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S8x2 : S1x2.Broadcasts S8x2
  inb_S8x2_S8x2_0_0 : ∀ a, (![0, 0] : Fin 2 → Nat) a + S8x2.size a ≤ S8x2.size a
  h_S8x2 : 0 < S8x2.numel
  scatter_S100000_S1200000x1_S1200000_n_0_0_1_wf : ScatterDims.WF S100000 S1200000x1 S1200000 [] [0] [0] 1
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S10000x64_S64x64_S10000x64_1_0_0_1_n_n_wf : DotDims.WF S10000x64 S64x64 S10000x64 [1] [0] [0] [1] [] []
  dot_S10000x8_S10000x64_S8x64_0_0_1_1_n_n_wf : DotDims.WF S10000x8 S10000x64 S8x64 [0] [0] [1] [1] [] []
  dot_S10000x8_S10000x1_S8x1_0_0_1_1_n_n_wf : DotDims.WF S10000x8 S10000x1 S8x1 [0] [0] [1] [1] [] []
  dot_S8x64_S64x2_S8x2_1_0_0_1_n_n_wf : DotDims.WF S8x64 S64x2 S8x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S100000x1.size a
  hwx0_1 : ∀ i : grid0.Coords, EltTy.bits .f32 = 32 ∨ (Rect.block (s := S100000x1) S10000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x64.size a ≤ S100000x64.size a
  hwx0_4 : ∀ i : grid0.Coords, EltTy.bits .f32 = 32 ∨ (Rect.block (s := S100000x64) S10000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .i32 = 32 ∨ (Rect.block (s := S100000x1) S10000x1.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x2.size a ≤ S64x2.size a
  hwx1_4 : ∀ i : grid1.Coords, EltTy.bits .f32 = 32 ∨ (Rect.block (s := S64x2) S64x2.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x2.size a ≤ S1x2.size a
  hwx1_5 : ∀ i : grid1.Coords, EltTy.bits .f32 = 32 ∨ (Rect.block (s := S1x2) S1x2.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S8x2.size a ≤ S8x2.size a
  hwx1_6 : ∀ i : grid1.Coords, EltTy.bits .f32 = 32 ∨ (Rect.block (s := S8x2) S8x2.size (cc1_transform_6 i) (hinb1_6 i)).WholeWords (EltTy.packing .f32)

variable [Facts₀]

def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x8_S10000x64_S8x64_0_0_1_1_n_n : DotDims S10000x8 S10000x64 S8x64 where
  lhsContracting := [0]
  rhsContracting := [0]
  lhsNonContracting := [1]
  rhsNonContracting := [1]
  lhsBatch := []
  rhsBatch := []
  wf := dot_S10000x8_S10000x64_S8x64_0_0_1_1_n_n_wf
def dot_S10000x8_S10000x1_S8x1_0_0_1_1_n_n : DotDims S10000x8 S10000x1 S8x1 where
  lhsContracting := [0]
  rhsContracting := [0]
  lhsNonContracting := [1]
  rhsNonContracting := [1]
  lhsBatch := []
  rhsBatch := []
  wf := dot_S10000x8_S10000x1_S8x1_0_0_1_1_n_n_wf
def dot_S8x64_S64x2_S8x2_1_0_0_1_n_n : DotDims S8x64 S64x2 S8x2 where
  lhsContracting := [1]
  rhsContracting := [0]
  lhsNonContracting := [0]
  rhsNonContracting := [1]
  lhsBatch := []
  rhsBatch := []
  wf := dot_S8x64_S64x2_S8x2_1_0_0_1_n_n_wf

abbrev win0_0 : Pipeline.Window sig grid0 :=
  Pipeline.Window.ofSpec (Memref.whole main_v26) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v28) S10000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v40) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S64x2.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S1x2.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v44) S8x2.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

class Facts : Prop extends Facts₀ where

variable [Facts]
-- ==== ReferenceIdeal.lean ====
abbrev S100000x64 : Shape := ⟨2, ![100000, 64]⟩
abbrev S64x64 : Shape := ⟨2, ![64, 64]⟩
abbrev S64 : Shape := ⟨1, ![64]⟩
abbrev S64x2 : Shape := ⟨2, ![64, 2]⟩
abbrev S2 : Shape := ⟨1, ![2]⟩
abbrev S1200000 : Shape := ⟨1, ![1200000]⟩
abbrev S100000 : Shape := ⟨1, ![100000]⟩
abbrev S_ : Shape := ⟨0, ![]⟩
abbrev S1200000x1 : Shape := ⟨2, ![1200000, 1]⟩
abbrev S100000x1 : Shape := ⟨2, ![100000, 1]⟩
abbrev S1200000x64 : Shape := ⟨2, ![1200000, 64]⟩
abbrev S1x64 : Shape := ⟨2, ![1, 64]⟩
abbrev S8 : Shape := ⟨1, ![8]⟩
abbrev S8x64 : Shape := ⟨2, ![8, 64]⟩
abbrev S8x1 : Shape := ⟨2, ![8, 1]⟩
abbrev S8x2 : Shape := ⟨2, ![8, 2]⟩
abbrev S1x2 : Shape := ⟨2, ![1, 2]⟩

abbrev nBuf : Space → Nat
  | .hbm => 101
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S64x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x2, .f32⟩
  | .hbm, ⟨6, _⟩ => ⟨S2, .f32⟩
  | .hbm, ⟨7, _⟩ => ⟨S1200000, .i32⟩
  | .hbm, ⟨8, _⟩ => ⟨S1200000, .i32⟩
  | .hbm, ⟨9, _⟩ => ⟨S100000, .i32⟩
  | .hbm, ⟨10, _⟩ => ⟨S_, .f32⟩
  | .hbm, ⟨11, _⟩ => ⟨S1200000, .f32⟩
  | .hbm, ⟨12, _⟩ => ⟨S_, .f32⟩
  | .hbm, ⟨13, _⟩ => ⟨S100000, .f32⟩
  | .hbm, ⟨14, _⟩ => ⟨S1200000x1, .i32⟩
  | .hbm, ⟨15, _⟩ => ⟨S100000, .f32⟩
  | .hbm, ⟨16, _⟩ => ⟨S_, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S1200000x1, .i32⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000, .f32⟩
  | .hbm, ⟨31, _⟩ => ⟨S100000x1, .f32⟩
  | .hbm, ⟨32, _⟩ => ⟨S100000x64, .f32⟩
  | .hbm, ⟨33, _⟩ => ⟨S100000x64, .f32⟩
  | .hbm, ⟨34, _⟩ => ⟨S_, .i32⟩
  | .hbm, ⟨35, _⟩ => ⟨S1200000, .i32⟩
  | .hbm, ⟨36, _⟩ => ⟨S1200000, .i1⟩
  | .hbm, ⟨37, _⟩ => ⟨S_, .i32⟩
  | .hbm, ⟨38, _⟩ => ⟨S1200000, .i32⟩
  | .hbm, ⟨39, _⟩ => ⟨S1200000, .i32⟩
  | .hbm, ⟨40, _⟩ => ⟨S1200000, .i32⟩
  | .hbm, ⟨41, _⟩ => ⟨S1200000x1, .i32⟩
  | .hbm, ⟨42, _⟩ => ⟨S1200000x64, .f32⟩
  | .hbm, ⟨43, _⟩ => ⟨S_, .f32⟩
  | .hbm, ⟨44, _⟩ => ⟨S100000x64, .f32⟩
  | .hbm, ⟨45, _⟩ => ⟨S1200000x1, .i32⟩
  | .hbm, ⟨46, _⟩ => ⟨S100000x64, .f32⟩
  | .hbm, ⟨47, _⟩ => ⟨S100000x64, .f32⟩
  | .hbm, ⟨48, _⟩ => ⟨S100000x64, .f32⟩
  | .hbm, ⟨49, _⟩ => ⟨S100000x64, .f32⟩
  | .hbm, ⟨50, _⟩ => ⟨S1x64, .f32⟩
  | .hbm, ⟨51, _⟩ => ⟨S100000x64, .f32⟩
  | .hbm, ⟨52, _⟩ => ⟨S100000x64, .f32⟩
  | .hbm, ⟨53, _⟩ => ⟨S_, .f32⟩
  | .hbm, ⟨54, _⟩ => ⟨S100000x64, .f32⟩
  | .hbm, ⟨55, _⟩ => ⟨S100000x64, .f32⟩
  | .hbm, ⟨56, _⟩ => ⟨S100000x64, .f32⟩
  | .hbm, ⟨57, _⟩ => ⟨S100000x64, .f32⟩
  | .hbm, ⟨58, _⟩ => ⟨S_, .i32⟩
  | .hbm, ⟨59, _⟩ => ⟨S1200000, .i32⟩
  | .hbm, ⟨60, _⟩ => ⟨S1200000, .i1⟩
  | .hbm, ⟨61, _⟩ => ⟨S_, .i32⟩
  | .hbm, ⟨62, _⟩ => ⟨S1200000, .i32⟩
  | .hbm, ⟨63, _⟩ => ⟨S1200000, .i32⟩
  | .hbm, ⟨64, _⟩ => ⟨S1200000, .i32⟩
  | .hbm, ⟨65, _⟩ => ⟨S1200000x1, .i32⟩
  | .hbm, ⟨66, _⟩ => ⟨S1200000x64, .f32⟩
  | .hbm, ⟨67, _⟩ => ⟨S_, .f32⟩
  | .hbm, ⟨68, _⟩ => ⟨S100000x64, .f32⟩
  | .hbm, ⟨69, _⟩ => ⟨S1200000x1, .i32⟩
  | .hbm, ⟨70, _⟩ => ⟨S100000x64, .f32⟩
  | .hbm, ⟨71, _⟩ => ⟨S100000x64, .f32⟩
  | .hbm, ⟨72, _⟩ => ⟨S100000x64, .f32⟩
  | .hbm, ⟨73, _⟩ => ⟨S100000x64, .f32⟩
  | .hbm, ⟨74, _⟩ => ⟨S1x64, .f32⟩
  | .hbm, ⟨75, _⟩ => ⟨S100000x64, .f32⟩
  | .hbm, ⟨76, _⟩ => ⟨S100000x64, .f32⟩
  | .hbm, ⟨77, _⟩ => ⟨S_, .f32⟩
  | .hbm, ⟨78, _⟩ => ⟨S100000x64, .f32⟩
  | .hbm, ⟨79, _⟩ => ⟨S100000x64, .f32⟩
  | .hbm, ⟨80, _⟩ => ⟨S_, .f32⟩
  | .hbm, ⟨81, _⟩ => ⟨S100000, .f32⟩
  | .hbm, ⟨82, _⟩ => ⟨S_, .f32⟩
  | .hbm, ⟨83, _⟩ => ⟨S8, .f32⟩
  | .hbm, ⟨84, _⟩ => ⟨S100000x1, .i32⟩
  | .hbm, ⟨85, _⟩ => ⟨S8, .f32⟩
  | .hbm, ⟨86, _⟩ => ⟨S_, .f32⟩
  | .hbm, ⟨87, _⟩ => ⟨S_, .f32⟩
  | .hbm, ⟨88, _⟩ => ⟨S8, .f32⟩
  | .hbm, ⟨89, _⟩ => ⟨S8, .f32⟩
  | .hbm, ⟨90, _⟩ => ⟨S_, .f32⟩
  | .hbm, ⟨91, _⟩ => ⟨S8x64, .f32⟩
  | .hbm, ⟨92, _⟩ => ⟨S100000x1, .i32⟩
  | .hbm, ⟨93, _⟩ => ⟨S8x64, .f32⟩
  | .hbm, ⟨94, _⟩ => ⟨S8x1, .f32⟩
  | .hbm, ⟨95, _⟩ => ⟨S8x64, .f32⟩
  | .hbm, ⟨96, _⟩ => ⟨S8x64, .f32⟩
  | .hbm, ⟨97, _⟩ => ⟨S8x2, .f32⟩
  | .hbm, ⟨98, _⟩ => ⟨S1x2, .f32⟩
  | .hbm, ⟨99, _⟩ => ⟨S8x2, .f32⟩
  | .hbm, ⟨100, _⟩ => ⟨S8x2, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_v4 : Ref sig .tc := ⟨.hbm, 19, rfl⟩
abbrev main_cst_2 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_3 : Ref sig .tc := ⟨.hbm, 24, rfl⟩
abbrev main_call1_v0 : Ref sig .tc := ⟨.hbm, 25, rfl⟩
abbrev main_call1_v1 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_c : Ref sig .tc := ⟨.hbm, 34, rfl⟩
abbrev main_v15 : Ref sig .tc := ⟨.hbm, 35, rfl⟩
abbrev main_v16 : Ref sig .tc := ⟨.hbm, 36, rfl⟩
abbrev main_c_4 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_5 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_call2_cst : Ref sig .tc := ⟨.hbm, 53, rfl⟩
abbrev main_call2_v0 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_c_6 : Ref sig .tc := ⟨.hbm, 58, rfl⟩
abbrev main_v34 : Ref sig .tc := ⟨.hbm, 59, rfl⟩
abbrev main_v35 : Ref sig .tc := ⟨.hbm, 60, rfl⟩
abbrev main_c_7 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_8 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_call3_cst : Ref sig .tc := ⟨.hbm, 77, rfl⟩
abbrev main_call3_v0 : Ref sig .tc := ⟨.hbm, 78, rfl⟩
abbrev main_v50 : Ref sig .tc := ⟨.hbm, 79, rfl⟩
abbrev main_cst_9 : Ref sig .tc := ⟨.hbm, 80, rfl⟩
abbrev main_v51 : Ref sig .tc := ⟨.hbm, 81, rfl⟩
abbrev main_cst_10 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_cst_11 : Ref sig .tc := ⟨.hbm, 86, rfl⟩
abbrev main_call4_v0 : Ref sig .tc := ⟨.hbm, 87, rfl⟩
abbrev main_call4_v1 : Ref sig .tc := ⟨.hbm, 88, rfl⟩
abbrev main_v55 : Ref sig .tc := ⟨.hbm, 89, rfl⟩
abbrev main_cst_12 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩

abbrev nD : Nat := 1
abbrev τ : Topo := Topo.v7x

variable {F : FTy → Type} [FloatOps F]

class Facts₀ : Prop where
  bcast_S_S1200000 : S_.BroadcastsInDim S1200000 (![] : Fin 0 → Fin S1200000.rank)
  bcast_S_S100000 : S_.BroadcastsInDim S100000 (![] : Fin 0 → Fin S100000.rank)
  bcast_S1200000_S1200000x1_0 : S1200000.BroadcastsInDim S1200000x1 (![0] : Fin 1 → Fin S1200000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S8 : S_.BroadcastsInDim S8 (![] : Fin 0 → Fin S8.rank)
  bcast_S_S8x64 : S_.BroadcastsInDim S8x64 (![] : Fin 0 → Fin S8x64.rank)
  bcast_S8_S8x1_0 : S8.BroadcastsInDim S8x1 (![0] : Fin 1 → Fin S8x1.rank)
  bcast_S8x1_S8x64_0_1 : S8x1.BroadcastsInDim S8x64 (![0, 1] : Fin 2 → Fin S8x64.rank)
  bcast_S2_S1x2_1 : S2.BroadcastsInDim S1x2 (![1] : Fin 1 → Fin S1x2.rank)
  bcast_S1x2_S8x2_0_1 : S1x2.BroadcastsInDim S8x2 (![0, 1] : Fin 2 → Fin S8x2.rank)
  scatter_S100000_S1200000x1_S1200000_n_0_0_1_wf : ScatterDims.WF S100000 S1200000x1 S1200000 [] [0] [0] 1
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S100000x64_S64x64_S100000x64_1_0_0_1_n_n_wf : DotDims.WF S100000x64 S64x64 S100000x64 [1] [0] [0] [1] [] []
  scatter_S8_S100000x1_S100000_n_0_0_1_wf : ScatterDims.WF S8 S100000x1 S100000 [] [0] [0] 1
  scatter_S8x64_S100000x1_S100000x64_1_0_0_1_wf : ScatterDims.WF S8x64 S100000x1 S100000x64 [1] [0] [0] 1
  dot_S8x64_S64x2_S8x2_1_0_0_1_n_n_wf : DotDims.WF S8x64 S64x2 S8x2 [1] [0] [0] [1] [] []

variable [Facts₀]

def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S8_S100000x1_S100000_n_0_0_1 : ScatterDims S8 S100000x1 S100000 where
  updateWindowDims := []
  insertedWindowDims := [0]
  scatterDimsToOperandDims := [0]
  indexVectorDim := 1
  wf := scatter_S8_S100000x1_S100000_n_0_0_1_wf
def scatter_S8x64_S100000x1_S100000x64_1_0_0_1 : ScatterDims S8x64 S100000x1 S100000x64 where
  updateWindowDims := [1]
  insertedWindowDims := [0]
  scatterDimsToOperandDims := [0]
  indexVectorDim := 1
  wf := scatter_S8x64_S100000x1_S100000x64_1_0_0_1_wf
def dot_S8x64_S64x2_S8x2_1_0_0_1_n_n : DotDims S8x64 S64x2 S8x2 where
  lhsContracting := [1]
  rhsContracting := [0]
  lhsNonContracting := [0]
  rhsNonContracting := [1]
  lhsBatch := []
  rhsBatch := []
  wf := dot_S8x64_S64x2_S8x2_1_0_0_1_n_n_wf

class Facts : Prop extends Facts₀ where

variable [Facts]
-- ==== Proof.K.R0.lean ====
/-
  Region 0 (layer 1's dense epilogue, pre-scaled by the source norm), at the contents V the region is entered with:
  the windows' blocks, what the body leaves in the output window's buffer, the proof data and the body obligation.
-/
import proofs.«427144_j14688788152817_2_alg».proof.Proof.Gen.Kernel.Launch
import proofs.«427144_j14688788152817_2_alg».proof.Proof.Gen.Kernel.Skeleton
import proofs.«427144_j14688788152817_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## What the body finds in each input window's buffer

An input window's staging buffer holds, at every point, the window's block there: at a point where the block is
fetched because the fetch just wrote it, at a point where it is not (the weights and the bias row after the first
point) because the block index has not moved since the last fetch and the body leaves the buffer as it found it. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

abbrev r0_a : Rect S10000x64 := Rect.unit (s := S10000x64) ![0, 0] S10000x64.size inb_S10000x64_S10000x64_0_0
abbrev r0_n : Rect S10000x1 := Rect.unit (s := S10000x1) ![0, 0] S10000x1.size inb_S10000x1_S10000x1_0_0
abbrev r0_w : Rect S64x64 := Rect.unit (s := S64x64) ![0, 0] S64x64.size inb_S64x64_S64x64_0_0
abbrev r0_b : Rect S1x64 := Rect.unit (s := S1x64) ![0, 0] S1x64.size inb_S1x64_S1x64_0_0

/-- The output window's staging buffer after the body, from the input windows' blocks (aggregate rows x0, norm
    column x1, weights x2, bias row x3): its one whole-block store. -/
def out0_4 (x0 : Vec F S10000x64 .f32) (x1 : Vec F S10000x1 .f32) (x2 : Vec F S64x64 .f32) (x3 : Vec F S1x64 .f32) : Vec F S10000x64 .f32 :=
  View.canon [⟨r0_a, k0_pay1 (View.ld x0 r0_a) (View.ld x2 r0_w) (View.ld x3 r0_b) (View.ld x1 r0_n)⟩]

/-- The body's one store is of the whole 10000x64 block, so it covers the output buffer. -/
theorem cover0_4 (p0 : Vec F S10000x64 .f32) (y : S10000x64.Idx) :
    ∃ pc ∈ ([⟨r0_a, p0⟩] : List (View.Piece (Elt F) S10000x64 .f32)), y ∈ pc.1.set :=
  View.cover_of_tiled [⟨r0_a, p0⟩] S10000x64.size (by rfl) y

set_option maxHeartbeats 1000000 in
/-- The body's triple. On whole staging memrefs, the four inputs' holding x0 (aggregate rows), x1 (norm column),
    x2 (weights), x3 (bias row) and the output's holding anything, the body runs to a state where the inputs'
    memrefs hold what they held and the output's holds out0_4 x0 x1 x2 x3: it reads each input whole, reads the
    output block once (a value it does not use), and overwrites the whole output block with the product of
    max(x0·x2 + x3, 0) and the norm column spread along the rows. -/
theorem sound_kernel0 (c : Dev nD) (E : Set ℕ) (i : grid0.Coords)
    (arg1 : Memref sig .tc .vmem S10000x64 .f32) (harg1 : arg1.IsWhole) (arg2 : Memref sig .tc .vmem S10000x1 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S10000x64 .f32) (harg5 : arg5.IsWhole)
    (x0 : Vec F S10000x64 .f32) (x1 : Vec F S10000x1 .f32) (x2 : Vec F S64x64 .f32) (x3 : Vec F S1x64 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 x0 x1 x2 x3)) -∗ K ⟨⟩))
      ⊢ wp frame (wpE (defs₀ (F := F)) Variants.none c none) E (cc0__gconv1_kernel i arg1 harg1 arg2 harg2 arg3 harg3 arg4 harg4 arg5 harg5) K := by
  simp only [cc0__gconv1_kernel_eq_skeleton]; unfold cc0__gconv1_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-- The proof data of pipeline 0 on core c. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_4 (c : Dev nD) (t : Fin cfg0.N) :
    (dat0 V c).after 4 t = out0_4 (iblk0 V c 0 t) (iblk0 V c 1 t) (iblk0 V c 2 t) (iblk0 V c 3 t) := by dsimp only [dat0]

/-! ## The body at a point -/

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]

/-- Each input window's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is handed at point t: the invariant, the core's debts, and each window's current staging buffer, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so the body's triple applies; the invariant and
    the core's debts pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.R0

end
-- ==== Proof.K.R1Defs.lean ====
/-
  Region 1 (the second layer's dense epilogue fused with the pooled head), at the contents V the region is entered
  with: each window's block at a grid point, and what the two scratch accumulators hold after each point.

  The kernel keeps a running per-graph sum (8 x 64) and a running per-graph count (8 x 1) in scratch. At the first
  point both are reset to zero before the point's contribution is added; at every later point the contribution is
  added to what the point before left. The output block (8 x 2) is stored at the last point only, from the
  accumulators as that point leaves them.
-/
import proofs.«427144_j14688788152817_2_alg».proof.Proof.Gen.Kernel.Launch
import proofs.«427144_j14688788152817_2_alg».proof.Proof.Gen.Kernel.Skeleton
import proofs.«427144_j14688788152817_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulators (sum, count) after the body at position n: the point's one-hot products added to zero at the
    first point and to what the point before left afterwards. -/
def scAt1 (c : Dev nD) : (n : ℕ) → n < cfg1.N → Vec F S8x64 .f32 × Vec F S8x1 .f32
  | 0, hn => (k1_pay5 (iblk1 V c 0 ⟨0, hn⟩) (iblk1 V c 2 ⟨0, hn⟩) (iblk1 V c 3 ⟨0, hn⟩) (iblk1 V c 1 ⟨0, hn⟩) (k1_pay2 (F := F)),
      k1_pay6 (iblk1 V c 1 ⟨0, hn⟩) (k1_pay3 (F := F)))
  | n + 1, hn => (k1_pay5 (iblk1 V c 0 ⟨n + 1, hn⟩) (iblk1 V c 2 ⟨n + 1, hn⟩) (iblk1 V c 3 ⟨n + 1, hn⟩) (iblk1 V c 1 ⟨n + 1, hn⟩) (scAt1 c n (Nat.lt_of_succ_lt hn)).1,
      k1_pay6 (iblk1 V c 1 ⟨n + 1, hn⟩) (scAt1 c n (Nat.lt_of_succ_lt hn)).2)

theorem scAt1_zero (c : Dev nD) (hn : 0 < cfg1.N) :
    scAt1 V c 0 hn = (k1_pay5 (iblk1 V c 0 ⟨0, hn⟩) (iblk1 V c 2 ⟨0, hn⟩) (iblk1 V c 3 ⟨0, hn⟩) (iblk1 V c 1 ⟨0, hn⟩) (k1_pay2 (F := F)),
      k1_pay6 (iblk1 V c 1 ⟨0, hn⟩) (k1_pay3 (F := F))) := rfl

theorem scAt1_succ (c : Dev nD) (n : ℕ) (hn : n + 1 < cfg1.N) :
    scAt1 V c (n + 1) hn = (k1_pay5 (iblk1 V c 0 ⟨n + 1, hn⟩) (iblk1 V c 2 ⟨n + 1, hn⟩) (iblk1 V c 3 ⟨n + 1, hn⟩) (iblk1 V c 1 ⟨n + 1, hn⟩) (scAt1 V c n (Nat.lt_of_succ_lt hn)).1,
      k1_pay6 (iblk1 V c 1 ⟨n + 1, hn⟩) (scAt1 V c n (Nat.lt_of_succ_lt hn)).2) := rfl

/-- What the output window's staging buffer holds after the body at point t where the body stores it (the last
    point): the head of the accumulators as this point leaves them. At the other points the window is idle and not
    written back, and nothing reads this value. -/
def out1_6 (c : Dev nD) (t : Fin cfg1.N) : Vec F S8x2 .f32 :=
  k1_pay1 (scAt1 V c t.val t.isLt).2 (scAt1 V c t.val t.isLt).1 (iblk1 V c 4 t) (iblk1 V c 5 t)

end Cert.Kernel.R1

end
-- ==== Proof.K.R1Runs.lean ====
/-
  Region 1's kernel body: what its runs share. The two conditions on the grid point (the first point resets the
  accumulators, the last point stores the head), where the output window is idle, the staging and scratch memrefs
  at a point, and the region invariant opened into the buffers it holds.
-/
import proofs.«427144_j14688788152817_2_alg».proof.Proof.K.R1Defs

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions -/

/-- The first conditional (reset the accumulators): the grid coordinate is 0. -/
abbrev cond1_0 (i : grid1.Coords) : Prop :=
  (Scalar.cmpi .ne (Scalar.extui (Scalar.cmpi .eq (BitVec.ofNat 32 (i 0).val) 0#32)) 0#32) = 1#1
/-- It holds at the first point only. -/
theorem hcond1_0 : ∀ t : Fin cfg1.N, cond1_0 (grid1.coords t) ↔ t.val = 0 :=
  (by decide +kernel : ∀ t : Fin grid1.N, cond1_0 (grid1.coords t) ↔ t.val = 0)

/-- The second conditional (store the head): the grid coordinate is 9. -/
abbrev cond1_1 (i : grid1.Coords) : Prop := k1_cond2 i = 1#1
/-- It holds at the last point only. -/
theorem hcond1_1 : ∀ t : Fin cfg1.N, cond1_1 (grid1.coords t) ↔ t.val = 9 :=
  (by decide +kernel : ∀ t : Fin grid1.N, cond1_1 (grid1.coords t) ↔ t.val = 9)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
/-- Away from the last point the output window is idle, -/
theorem idleAt1_6 : ∀ t : Fin cfg1.N, ¬cond1_1 (grid1.coords t) → cfg1.idle 6 (grid1.coords t) = true := by decide +kernel
/-- and not written back; -/
theorem noFlush1_6 : ∀ t : Fin cfg1.N, ¬cond1_1 (grid1.coords t) → (cfg1.win 6).flush t = false := by decide +kernel
/-- at the last point it is live. -/
theorem liveAt1_6 : ∀ t : Fin cfg1.N, cond1_1 (grid1.coords t) → cfg1.idle 6 (grid1.coords t) = false := by decide +kernel

/-! ## The memrefs at a point -/

abbrev ms1_0 (t : Fin cfg1.N) : Memref sig .tc .vmem S10000x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S10000x1 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S64x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S64x2 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x2 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S8x2 .f32 := win1_6.stage (cfg1.slots t 6)
abbrev hs1_6 (t : Fin cfg1.N) : (ms1_6 t).IsWhole := hstage1_6 ((cfg1.slots t 6).cast nbuf1_6)
/-- The two accumulators: whole scoped buffers of the kernel's own. -/
abbrev scM1_0 : Memref sig .tc .vmem S8x64 .f32 := Memref.whole cc1_scratch0
abbrev scM1_1 : Memref sig .tc .vmem S8x1 .f32 := Memref.whole cc1_scratch1

/-! ## The invariant's buffers -/

/-- The core's scoped buffers that this call neither stages through nor accumulates in (the first call's staging
    buffers), each whole at some contents. -/
def rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f))

/-- The class's invariant, opened: those buffers, the two accumulators at some contents, the generator register. -/
theorem PhiA1_eq (c : Dev nD) :
    (Pipeline.ΦA spec1 c : sProp 𝕄)
      = iprop(iprop(rest1 (F := F) c ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole, rest1]
  refine BI.equiv_iff.mp ⟨?_, ?_⟩
  · show (_ : sProp 𝕄) ⊢ _
    iintro ⟨⟨H1, H2, H3, H4, H5, H6, H7, H8, HS0, HS1⟩, Hg⟩
    isplitr [Hg]
    · isplitl [H1 H2 H3 H4 H5 H6 H7 H8]
      · isplitl [H1]; · iexact H1
        isplitl [H2]; · iexact H2
        isplitl [H3]; · iexact H3
        isplitl [H4]; · iexact H4
        isplitl [H5]; · iexact H5
        isplitl [H6]; · iexact H6
        isplitl [H7]; · iexact H7
        iexact H8
      isplitl [HS0]; · iexact HS0
      iexact HS1
    iexact Hg
  · show (_ : sProp 𝕄) ⊢ _
    iintro ⟨⟨⟨H1, H2, H3, H4, H5, H6, H7, H8⟩, HS0, HS1⟩, Hg⟩
    isplitr [Hg]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      iexact HS1
    iexact Hg

end Cert.Kernel.R1

end
-- ==== Proof.K.R1Read.lean ====
/-
  Reading back whole-buffer stores and loads: a store through the whole-shape rectangle at zero offsets, last in a
  list of stores, leaves its payload whatever came before; a load through that rectangle of what one such store left
  reads the payload; a load through it of a whole memref reads the contents.
-/
import Idealize.ShloMosaic.Lib.Pipeline.Value

noncomputable section

namespace Cert.Kernel.R1

open Idealize.ShloMosaic

variable {Val : EltTy → Type} [∀ e, Nonempty (Val e)] {sig : RefSig} {κ : Kind} {sp : Space} {S : Shape} {e : EltTy}

/-- The zero offsets of rank 2 as the constant function. -/
theorem zeros2 : (![0, 0] : Fin 2 → ℕ) = fun _ => 0 := by
  funext a; fin_cases a <;> rfl

/-- What a view reads after stores of which the last is through the whole-shape rectangle: that store's payload. -/
theorem read_store_last (v : View sig κ sp S e) (f : v.ty.Contents Val) {off : Fin S.rank → ℕ} (hz : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  have hcov : ∀ y : S.Idx, ∃ p ∈ ((⟨Rect.unit off S.size inb, w⟩ : View.Piece Val S e) :: L), y ∈ p.1.set :=
    fun y => ⟨_, List.mem_cons_self, View.mem_set_unit_zero hz inb y⟩
  rw [View.read_writes_eq_canon v f _ hcov, View.canon_cons_unit_zero hz inb w L]

/-- A load through the whole-shape rectangle of what one store through it left reads the payload. -/
theorem readCov_store (v : View sig κ sp S e) {off : Fin S.rank → ℕ} (hz : off = fun _ => 0)
    (inb : ∀ a, off a + S.size a ≤ S.size a) (w : S.Idx → Val e) :
    v.readCov [(⟨Rect.unit off S.size inb, w⟩ : View.Piece Val S e)] (Rect.unit off S.size inb).toLoadRect = w :=
  View.readCov_unit_zero v hz inb w

omit [∀ e, Nonempty (Val e)] in
/-- A load through the whole-shape rectangle of a whole memref at contents x reads x. -/
theorem readAt_whole (m : Memref sig κ sp S e) (h : m.IsWhole) {off : Fin S.rank → ℕ} (hz : off = fun _ => 0)
    (inb : ∀ a, off a + S.size a ≤ S.size a) (x : S.Idx → Val e) :
    m.view.readAt Val (Rect.unit off S.size inb).toLoadRect (h.unread x) = x := by
  rw [View.readAt_eq_ld, h.read_unread, View.ld_unit_zero hz inb]

end Cert.Kernel.R1

end
-- ==== Proof.K.R1RunA.lean ====
/-
  Region 1's kernel body at the first point: both accumulators are reset to zero, then loaded, the point's one-hot
  products added, and stored back; the output window's buffer is handed back untouched.
-/
import proofs.«427144_j14688788152817_2_alg».proof.Proof.K.R1Runs
import proofs.«427144_j14688788152817_2_alg».proof.Proof.K.R1Read

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole memrefs, the inputs' at their contents, the output's at contents it hands back untouched, the two
    accumulators at anything, the body runs to the continuation with the accumulators at the update's payloads over
    the reset's zeros. -/
theorem run1_A (c : Dev nD) (i : grid1.Coords) (arg1 : Memref sig .tc .vmem S10000x64 .f32) (harg1 : arg1.IsWhole) (arg2 : Memref sig .tc .vmem S10000x1 .i32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S64x2 .f32) (harg5 : arg5.IsWhole) (arg6 : Memref sig .tc .vmem S1x2 .f32) (harg6 : arg6.IsWhole)
    (arg7 : Memref sig .tc .vmem S8x2 .f32) (harg7 : arg7.IsWhole) (arg8 : Memref sig .tc .vmem S8x64 .f32) (harg8 : arg8.IsWhole)
    (arg9 : Memref sig .tc .vmem S8x1 .f32) (harg9 : arg9.IsWhole) (hc0 : cond1_0 i) (hc1 : ¬cond1_1 i)
    (x0 : Vec F S10000x64 .f32) (x1 : Vec F S10000x1 .i32) (x2 : Vec F S64x64 .f32) (x3 : Vec F S1x64 .f32) (x4 : Vec F S64x2 .f32) (x5 : Vec F S1x2 .f32) (xi6 : Vec F S8x2 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6
            ∗ owns (c : Thread nD τ) arg8 fullShare (k1_pay5 x0 x2 x3 x1 (k1_pay2 (F := F))) ∗ owns (c : Thread nD τ) arg9 fullShare (k1_pay6 x1 (k1_pay3 (F := F)))) -∗ K ⟨⟩))
      ⊢ wp frame (wpE (defs₀ (F := F)) Variants.none c none) E (cc1__gconv2_pool_kernel i arg1 harg1 arg2 harg2 arg3 harg3 arg4 harg4 arg5 harg5 arg6 harg6 arg7 harg7 arg8 harg8 arg9 harg9) K := by
  simp only [cc1__gconv2_pool_kernel_eq_skeleton]; unfold cc1__gconv2_pool_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hf6
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [HS0]
  · iexists _; isplitr; swap; · iexact HS0
    sl_unfold_words
    ipureintro
    rw [read_store_last arg8.view _ zeros2]
    simp only [readAt_whole arg1 harg1 zeros2, readAt_whole arg2 harg2 zeros2, readAt_whole arg3 harg3 zeros2, readAt_whole arg4 harg4 zeros2,
      readAt_whole arg5 harg5 zeros2, readAt_whole arg6 harg6 zeros2,
      readCov_store arg8.view zeros2]
  iexists _; isplitr; swap; · iexact HS1
  sl_unfold_words
  ipureintro
  rw [read_store_last arg9.view _ zeros2]
  simp only [readAt_whole arg1 harg1 zeros2, readAt_whole arg2 harg2 zeros2, readAt_whole arg3 harg3 zeros2, readAt_whole arg4 harg4 zeros2,
      readAt_whole arg5 harg5 zeros2, readAt_whole arg6 harg6 zeros2,
    readCov_store arg9.view zeros2]

end Cert.Kernel.R1

end
-- ==== Proof.K.R1RunB.lean ====
/-
  Region 1's kernel body at a middle point (neither the first nor the last): the accumulators are loaded, the point's
  one-hot products added, and stored back; the output window's buffer is handed back untouched.
-/
import proofs.«427144_j14688788152817_2_alg».proof.Proof.K.R1Runs
import proofs.«427144_j14688788152817_2_alg».proof.Proof.K.R1Read

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole memrefs, the inputs' at their contents, the output's at contents it hands back untouched, the two
    accumulators at what the point before left, the body runs to the continuation with the accumulators at the
    update's payloads. -/
theorem run1_B (c : Dev nD) (i : grid1.Coords) (arg1 : Memref sig .tc .vmem S10000x64 .f32) (harg1 : arg1.IsWhole) (arg2 : Memref sig .tc .vmem S10000x1 .i32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S64x2 .f32) (harg5 : arg5.IsWhole) (arg6 : Memref sig .tc .vmem S1x2 .f32) (harg6 : arg6.IsWhole)
    (arg7 : Memref sig .tc .vmem S8x2 .f32) (harg7 : arg7.IsWhole) (arg8 : Memref sig .tc .vmem S8x64 .f32) (harg8 : arg8.IsWhole)
    (arg9 : Memref sig .tc .vmem S8x1 .f32) (harg9 : arg9.IsWhole) (hc0 : ¬cond1_0 i) (hc1 : ¬cond1_1 i)
    (x0 : Vec F S10000x64 .f32) (x1 : Vec F S10000x1 .i32) (x2 : Vec F S64x64 .f32) (x3 : Vec F S1x64 .f32) (x4 : Vec F S64x2 .f32) (x5 : Vec F S1x2 .f32) (xs0 : Vec F S8x64 .f32) (xs1 : Vec F S8x1 .f32) (xi6 : Vec F S8x2 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ owns (c : Thread nD τ) arg8 fullShare xs0 ∗ owns (c : Thread nD τ) arg9 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6
            ∗ owns (c : Thread nD τ) arg8 fullShare (k1_pay5 x0 x2 x3 x1 xs0) ∗ owns (c : Thread nD τ) arg9 fullShare (k1_pay6 x1 xs1)) -∗ K ⟨⟩))
      ⊢ wp frame (wpE (defs₀ (F := F)) Variants.none c none) E (cc1__gconv2_pool_kernel i arg1 harg1 arg2 harg2 arg3 harg3 arg4 harg4 arg5 harg5 arg6 harg6 arg7 harg7 arg8 harg8 arg9 harg9) K := by
  simp only [cc1__gconv2_pool_kernel_eq_skeleton]; unfold cc1__gconv2_pool_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hf6; obtain rfl := harg8.eq_unread hfs0; obtain rfl := harg9.eq_unread hfs1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [HS0]
  · iexists _; isplitr; swap; · iexact HS0
    ipureintro
    rw [read_store_last arg8.view _ zeros2]
    simp only [readAt_whole arg1 harg1 zeros2, readAt_whole arg2 harg2 zeros2, readAt_whole arg3 harg3 zeros2, readAt_whole arg4 harg4 zeros2,
      readAt_whole arg5 harg5 zeros2, readAt_whole arg6 harg6 zeros2,
      readAt_whole arg8 harg8 zeros2]
  iexists _; isplitr; swap; · iexact HS1
  ipureintro
  rw [read_store_last arg9.view _ zeros2]
  simp only [readAt_whole arg1 harg1 zeros2, readAt_whole arg2 harg2 zeros2, readAt_whole arg3 harg3 zeros2, readAt_whole arg4 harg4 zeros2,
      readAt_whole arg5 harg5 zeros2, readAt_whole arg6 harg6 zeros2,
    readAt_whole arg9 harg9 zeros2]

end Cert.Kernel.R1

end
-- ==== Proof.K.R1RunC.lean ====
/-
  Region 1's kernel body at the last point: the accumulators are loaded, the point's one-hot products added, and
  stored back; then the head (mean over the counts, the last dense layer) of the accumulators as just stored is
  written whole into the output window's buffer.
-/
import proofs.«427144_j14688788152817_2_alg».proof.Proof.K.R1Runs
import proofs.«427144_j14688788152817_2_alg».proof.Proof.K.R1Read

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole memrefs, the inputs' at their contents, the output's at anything, the two accumulators at what the
    point before left, the body runs to the continuation with the accumulators at the update's payloads and the
    output's buffer at the head of those. -/
theorem run1_C (c : Dev nD) (i : grid1.Coords) (arg1 : Memref sig .tc .vmem S10000x64 .f32) (harg1 : arg1.IsWhole) (arg2 : Memref sig .tc .vmem S10000x1 .i32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S64x2 .f32) (harg5 : arg5.IsWhole) (arg6 : Memref sig .tc .vmem S1x2 .f32) (harg6 : arg6.IsWhole)
    (arg7 : Memref sig .tc .vmem S8x2 .f32) (harg7 : arg7.IsWhole) (arg8 : Memref sig .tc .vmem S8x64 .f32) (harg8 : arg8.IsWhole)
    (arg9 : Memref sig .tc .vmem S8x1 .f32) (harg9 : arg9.IsWhole) (hc0 : ¬cond1_0 i) (hc1 : cond1_1 i)
    (x0 : Vec F S10000x64 .f32) (x1 : Vec F S10000x1 .i32) (x2 : Vec F S64x64 .f32) (x3 : Vec F S1x64 .f32) (x4 : Vec F S64x2 .f32) (x5 : Vec F S1x2 .f32) (xs0 : Vec F S8x64 .f32) (xs1 : Vec F S8x1 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xs0 ∗ owns (c : Thread nD τ) arg9 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (k1_pay1 (k1_pay6 x1 xs1) (k1_pay5 x0 x2 x3 x1 xs0) x4 x5)
            ∗ owns (c : Thread nD τ) arg8 fullShare (k1_pay5 x0 x2 x3 x1 xs0) ∗ owns (c : Thread nD τ) arg9 fullShare (k1_pay6 x1 xs1)) -∗ K ⟨⟩))
      ⊢ wp frame (wpE (defs₀ (F := F)) Variants.none c none) E (cc1__gconv2_pool_kernel i arg1 harg1 arg2 harg2 arg3 harg3 arg4 harg4 arg5 harg5 arg6 harg6 arg7 harg7 arg8 harg8 arg9 harg9) K := by
  simp only [cc1__gconv2_pool_kernel_eq_skeleton]; unfold cc1__gconv2_pool_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg8.eq_unread hfs0; obtain rfl := harg9.eq_unread hfs1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; swap; · iexact H6
    try sl_unfold_words
    ipureintro
    rw [read_store_last arg7.view _ zeros2]
    simp only [readAt_whole arg1 harg1 zeros2, readAt_whole arg2 harg2 zeros2, readAt_whole arg3 harg3 zeros2, readAt_whole arg4 harg4 zeros2,
      readAt_whole arg5 harg5 zeros2, readAt_whole arg6 harg6 zeros2, readAt_whole arg8 harg8 zeros2, readAt_whole arg9 harg9 zeros2,
      readCov_store arg8.view zeros2, readCov_store arg9.view zeros2]
  isplitl [HS0]
  · iexists _; isplitr; swap; · iexact HS0
    try sl_unfold_words
    ipureintro
    rw [read_store_last arg8.view _ zeros2]
    simp only [readAt_whole arg1 harg1 zeros2, readAt_whole arg2 harg2 zeros2, readAt_whole arg3 harg3 zeros2, readAt_whole arg4 harg4 zeros2,
      readAt_whole arg5 harg5 zeros2, readAt_whole arg6 harg6 zeros2, readAt_whole arg8 harg8 zeros2, readAt_whole arg9 harg9 zeros2]
  iexists _; isplitr; swap; · iexact HS1
  try sl_unfold_words
  ipureintro
  rw [read_store_last arg9.view _ zeros2]
  simp only [readAt_whole arg1 harg1 zeros2, readAt_whole arg2 harg2 zeros2, readAt_whole arg3 harg3 zeros2, readAt_whole arg4 harg4 zeros2,
      readAt_whole arg5 harg5 zeros2, readAt_whole arg6 harg6 zeros2, readAt_whole arg8 harg8 zeros2, readAt_whole arg9 harg9 zeros2]

end Cert.Kernel.R1

end
-- ==== Proof.K.R1.lean ====
/-
  Region 1's proof data and body obligation, at the contents V the region is entered with. The invariant carries the
  two scratch accumulators from point to point: before the first point they hold anything; after point n they hold
  the running sum and count of the rows seen so far.
-/
import proofs.«427144_j14688788152817_2_alg».proof.Proof.K.R1RunA
import proofs.«427144_j14688788152817_2_alg».proof.Proof.K.R1RunB
import proofs.«427144_j14688788152817_2_alg».proof.Proof.K.R1RunC

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The region invariant before position n: before the first point the class's (every scoped buffer that is no
    staging buffer of this call at anything, the generator register at some state); afterwards the same with the two
    accumulators at what the point before left in them. -/
def PhiS1 (V : (c : Dev nD) → (b : Ref sig .tc) → Buf (Elt F) ((c : Thread nD τ).loc b)) (c : Dev nD) : (n : ℕ) → n ≤ cfg1.N → sProp 𝕄
  | 0, _ => Pipeline.ΦA spec1 c
  | n + 1, hn => iprop(iprop(rest1 (F := F) c ∗ owns (c : Thread nD τ) scM1_0 fullShare (scAt1 V c n hn).1 ∗ owns (c : Thread nD τ) scM1_1 fullShare (scAt1 V c n hn).2) ∗ (∃ r, prngReg c r))

theorem PhiS1_zero (c : Dev nD) (n : ℕ) (h : n ≤ cfg1.N) (hz : n = 0) : PhiS1 V c n h = Pipeline.ΦA spec1 c := by
  subst hz; rfl

/-- After point n (before point n + 1): the accumulators at that point's contents. -/
theorem PhiS1_succ (c : Dev nD) (n : ℕ) (hn : n < cfg1.N) :
    PhiS1 V c (n + 1) hn = iprop(iprop(rest1 (F := F) c ∗ owns (c : Thread nD τ) scM1_0 fullShare (scAt1 V c n hn).1 ∗ owns (c : Thread nD τ) scM1_1 fullShare (scAt1 V c n hn).2) ∗ (∃ r, prngReg c r)) := rfl

/-- Before a point that is not the first: the accumulators at what the point before left. -/
theorem PhiS1_pos (c : Dev nD) (n : ℕ) (h : n ≤ cfg1.N) (hz : n ≠ 0) :
    PhiS1 V c n h = iprop(iprop(rest1 (F := F) c ∗ owns (c : Thread nD τ) scM1_0 fullShare (scAt1 V c (n - 1) (by omega)).1 ∗ owns (c : Thread nD τ) scM1_1 fullShare (scAt1 V c (n - 1) (by omega)).2) ∗ (∃ r, prngReg c r)) := by
  cases n with
  | zero => exact absurd rfl hz
  | succ n => rfl

/-- The accumulators after the first point: the update over the reset's zeros. -/
theorem scAt1_first (c : Dev nD) (t : Fin cfg1.N) (h0 : t.val = 0) :
    scAt1 V c t.val t.isLt = (k1_pay5 (iblk1 V c 0 t) (iblk1 V c 2 t) (iblk1 V c 3 t) (iblk1 V c 1 t) (k1_pay2 (F := F)),
      k1_pay6 (iblk1 V c 1 t) (k1_pay3 (F := F))) := by
  obtain ⟨n, hn⟩ := t
  cases n with
  | zero => rfl
  | succ n => exact absurd h0 (Nat.succ_ne_zero n)

/-- The accumulators after a later point: the update over what the point before left. -/
theorem scAt1_later (c : Dev nD) (t : Fin cfg1.N) (h0 : t.val ≠ 0) :
    scAt1 V c t.val t.isLt = (k1_pay5 (iblk1 V c 0 t) (iblk1 V c 2 t) (iblk1 V c 3 t) (iblk1 V c 1 t) (scAt1 V c (t.val - 1) (Nat.lt_of_le_of_lt (Nat.sub_le _ _) t.isLt)).1,
      k1_pay6 (iblk1 V c 1 t) (scAt1 V c (t.val - 1) (Nat.lt_of_le_of_lt (Nat.sub_le _ _) t.isLt)).2) := by
  obtain ⟨n, hn⟩ := t
  cases n with
  | zero => exact absurd rfl h0
  | succ n => rfl

/-- The proof data of pipeline 1 on core c. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 V c t := by dsimp only [dat1]

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4800000 in
/-- The body at any point: the inputs' memrefs hold their blocks; the point is the first, a middle one or the last,
    and that case's run applies; the invariant hands the body the accumulators at what the point before left
    (at anything at the first point) and takes them back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  have hN : t.val < 10 := lt_of_lt_of_eq t.isLt (show cfg1.N = 10 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  by_cases h0 : t.val = 0
  · have hc0 : cond1_0 (grid1.coords t) := (hcond1_0 t).mpr h0
    have hc1 : ¬cond1_1 (grid1.coords t) := fun h => by have := (hcond1_1 t).mp h; omega
    rw [Dat.leavesExact_idle (dat1 V c) 6 t (idleAt1_6 t hc1) (noFlush1_6 t hc1)]
    rw [scAt1_first V c t h0]; dsimp only
    rw [PhiS1_castSucc V c t, PhiS1_zero V c _ _ h0, PhiA1_eq]
    iintro ⟨⟨⟨Hr, HS0, HS1⟩, Hg⟩, Ho, ⟨%d0, H0⟩, ⟨%d1, H1⟩, ⟨%d2, H2⟩, ⟨%d3, H3⟩, ⟨%d4, H4⟩, ⟨%d5, H5⟩, ⟨%d6, H6⟩⟩
    iapply (run1_A c (grid1.coords t) _ _ _ _ _ _ _ _ _ _ _ _ _ _ _ _ _ _ hc0 hc1 (iblk1 V c 0 t) (iblk1 V c 1 t) (iblk1 V c 2 t) (iblk1 V c 3 t) (iblk1 V c 4 t) (iblk1 V c 5 t) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    iintro ⟨H0, H1, H2, H3, H4, H5, H6, HS0, HS1⟩
    isplitl [Hr HS0 HS1 Hg]
    · isplitr [Hg]
      · isplitl [Hr]; · iexact Hr
        isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · by_cases h9 : t.val = 9
    · have hc0 : ¬cond1_0 (grid1.coords t) := fun h => h0 ((hcond1_0 t).mp h)
      have hc1 : cond1_1 (grid1.coords t) := (hcond1_1 t).mpr h9
      rw [show (dat1 V c).leavesExact 6 t = owns (c : Thread nD τ) (ms1_6 t) fullShare ((dat1 V c).after 6 t) from by
        unfold Dat.leavesExact; rw [liveAt1_6 t hc1], after1_6]
      unfold out1_6
      rw [scAt1_later V c t h0]; dsimp only
      rw [PhiS1_castSucc V c t, PhiS1_pos V c _ _ h0]
      iintro ⟨⟨⟨Hr, HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply (run1_C c (grid1.coords t) _ _ _ _ _ _ _ _ _ _ _ _ _ _ _ _ _ _ hc0 hc1 (iblk1 V c 0 t) (iblk1 V c 1 t) (iblk1 V c 2 t) (iblk1 V c 3 t) (iblk1 V c 4 t) (iblk1 V c 5 t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      iintro ⟨H0, H1, H2, H3, H4, H5, H6, HS0, HS1⟩
      isplitl [Hr HS0 HS1 Hg]
      · isplitr [Hg]
        · isplitl [Hr]; · iexact Hr
          isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hc0 : ¬cond1_0 (grid1.coords t) := fun h => h0 ((hcond1_0 t).mp h)
      have hc1 : ¬cond1_1 (grid1.coords t) := fun h => h9 ((hcond1_1 t).mp h)
      rw [Dat.leavesExact_idle (dat1 V c) 6 t (idleAt1_6 t hc1) (noFlush1_6 t hc1)]
      rw [scAt1_later V c t h0]; dsimp only
      rw [PhiS1_castSucc V c t, PhiS1_pos V c _ _ h0]
      iintro ⟨⟨⟨Hr, HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply (run1_B c (grid1.coords t) _ _ _ _ _ _ _ _ _ _ _ _ _ _ _ _ _ _ hc0 hc1 (iblk1 V c 0 t) (iblk1 V c 1 t) (iblk1 V c 2 t) (iblk1 V c 3 t) (iblk1 V c 4 t) (iblk1 V c 5 t) _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [Hr HS0 HS1 Hg]
      · isplitr [Hg]
        · isplitl [Hr]; · iexact Hr
          isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After any point but the first the invariant gives the class's back: the accumulators' named contents are forgotten. -/
theorem Phi1_out (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨Hr, HS0, HS1⟩, Hg⟩
  isplitr [Hg]
  · isplitl [Hr]; · iexact Hr
    isplitl [HS0]; · iexists _; iexact HS0
    iexists _; iexact HS1
  iexact Hg

/-- After the last point the invariant gives the class's back: the accumulators' named contents are forgotten. -/
theorem hout1 (c : Dev nD) : (dat1 V c).Φ (Fin.last cfg1.N) ⊢ Pipeline.ΦA spec1 c :=
  Phi1_out V c _ (by rw [Fin.val_last]; have : cfg1.N = 10 := N_1; omega)

end Cert.Kernel.R1

end
-- ==== Proof.K.Run.lean ====
/-
  The launch. @main is five stretches of host operations, the first pallas_call, one more stretch, the second
  pallas_call. The buffer contents at each boundary are a fold from the launch memory: a stretch applies its
  operations; a region leaves its windows' arrays at what its write-backs leave (an input array as entered) and
  every other buffer as entered. Over these thread states the library's theorem for a list of segments gives: every
  weakly fair execution terminates, nothing faults, and every unscoped buffer ends at the last boundary's contents.
  The frame claim reads the argument arrays off that, each walked back through the fold to the launch memory.
-/
import proofs.«427144_j14688788152817_2_alg».proof.Proof.K.R0
import proofs.«427144_j14688788152817_2_alg».proof.Proof.K.R1
import proofs.«427144_j14688788152817_2_alg».proof.Proof.Gen.Kernel.Regions

set_option maxRecDepth 16384

noncomputable section

namespace Cert.Kernel.Run

open Cert.Kernel Cert.Kernel.Gen Cert.Kernel.R0 Cert.Kernel.R1
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at the boundaries after the host prefix (the prefix's are the generated V0 … V5) -/

/-- Region 0's entry contents read at the TensorCore's references. -/
abbrev E5 : (c : Dev nD) → (b : Ref sig .tc) → Buf (Elt F) ((c : Thread nD τ).loc b) := fun c b => V5 m c b
/-- At region 0's exit. -/
def W6 (c : Dev nD) : Valuation τ sig (Elt F) :=
  Pipeline.withArrays spec0 c (V5 m c) fun w => (dat0 (E5 m) c).arrAt w cfg0.N
theorem W6_arr (c : Dev nD) (w : Fin cfg0.W) :
    W6 m c (Proc.devRef .tc (Pipeline.arrRef spec0 w)) = (dat0 (E5 m) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m c (Proc.devRef .tc b) = V5 m c (Proc.devRef .tc b) := by
  unfold W6; exact Pipeline.withArrays_of_ne spec0 c _ _ b hb
abbrev E6 : (c : Dev nD) → (b : Ref sig .tc) → Buf (Elt F) ((c : Thread nD τ).loc b) := fun c b => W6 m c b
theorem hF0 (c : Dev nD) (w : Fin cfg0.W) : (dat0 (E5 m) c).arrAt w cfg0.N = E6 m c (Pipeline.arrRef spec0 w) :=
  (W6_arr m c w).symm
theorem hrest0 (c : Dev nD) : ∀ b, b ∉ Finset.univ.image (Pipeline.arrRef spec0) → E6 m c b = E5 m c b :=
  fun b hb => W6_of_ne m c b fun w e => hb (Finset.mem_image.mpr ⟨w, Finset.mem_univ _, e⟩)

/-- After the stretch between the regions (region 1's entry). -/
abbrev W7 : Dev nD → Valuation τ sig (Elt F) := fun c => StableHlo.after hostOps1 (W6 m c)
abbrev E7 : (c : Dev nD) → (b : Ref sig .tc) → Buf (Elt F) ((c : Thread nD τ).loc b) := fun c b => W7 m c b
/-- At region 1's exit. -/
def W8 (c : Dev nD) : Valuation τ sig (Elt F) :=
  Pipeline.withArrays spec1 c (W7 m c) fun w => (dat1 (E7 m) c).arrAt w cfg1.N
theorem W8_arr (c : Dev nD) (w : Fin cfg1.W) :
    W8 m c (Proc.devRef .tc (Pipeline.arrRef spec1 w)) = (dat1 (E7 m) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m c (Proc.devRef .tc b) = W7 m c (Proc.devRef .tc b) := by
  unfold W8; exact Pipeline.withArrays_of_ne spec1 c _ _ b hb
abbrev E8 : (c : Dev nD) → (b : Ref sig .tc) → Buf (Elt F) ((c : Thread nD τ).loc b) := fun c b => W8 m c b
theorem hF1 (c : Dev nD) (w : Fin cfg1.W) : (dat1 (E7 m) c).arrAt w cfg1.N = E8 m c (Pipeline.arrRef spec1 w) :=
  (W8_arr m c w).symm
theorem hrest1 (c : Dev nD) : ∀ b, b ∉ Finset.univ.image (Pipeline.arrRef spec1) → E8 m c b = E7 m c b :=
  fun b hb => W8_of_ne m c b fun w e => hb (Finset.mem_image.mpr ⟨w, Finset.mem_univ _, e⟩)

/-! ## The arguments end as launched -/

theorem W8_main_arg0 (c : Dev nD) : W8 m c (Proc.devRef .tc main_arg0) = m ((c : Thread nD τ).loc main_arg0) :=
  (W8_of_ne m c main_arg0 (by decide)).trans <| (StableHlo.after_of_writes_sub hostOps1 _ hostOps1_writes (by decide : main_arg0 ∉ hostOps1_W)).trans <|
  (W6_of_ne m c main_arg0 (by decide)).trans <| (V5_of m c main_arg0 (by decide)).trans <| (V4_of m c main_arg0 (by decide)).trans <|
  (V3_of m c main_arg0 (by decide)).trans <| (V2_of m c main_arg0 (by decide)).trans <| (V1_of m c main_arg0 (by decide)).trans rfl
theorem W8_main_arg1 (c : Dev nD) : W8 m c (Proc.devRef .tc main_arg1) = m ((c : Thread nD τ).loc main_arg1) :=
  (W8_of_ne m c main_arg1 (by decide)).trans <| (StableHlo.after_of_writes_sub hostOps1 _ hostOps1_writes (by decide : main_arg1 ∉ hostOps1_W)).trans <|
  ((W6_arr m c 2).trans (((dat0 (E5 m) c).arrAt_in 2 rfl _).trans (A_eq0 (E5 m) c 2))).trans <| (V5_of m c main_arg1 (by decide)).trans <| (V4_of m c main_arg1 (by decide)).trans <|
  (V3_of m c main_arg1 (by decide)).trans <| (V2_of m c main_arg1 (by decide)).trans <| (V1_of m c main_arg1 (by decide)).trans rfl
theorem W8_main_arg2 (c : Dev nD) : W8 m c (Proc.devRef .tc main_arg2) = m ((c : Thread nD τ).loc main_arg2) :=
  (W8_of_ne m c main_arg2 (by decide)).trans <| (StableHlo.after_of_writes_sub hostOps1 _ hostOps1_writes (by decide : main_arg2 ∉ hostOps1_W)).trans <|
  (W6_of_ne m c main_arg2 (by decide)).trans <| (V5_of m c main_arg2 (by decide)).trans <| (V4_of m c main_arg2 (by decide)).trans <|
  (V3_of m c main_arg2 (by decide)).trans <| (V2_of m c main_arg2 (by decide)).trans <| (V1_of m c main_arg2 (by decide)).trans rfl
theorem W8_main_arg3 (c : Dev nD) : W8 m c (Proc.devRef .tc main_arg3) = m ((c : Thread nD τ).loc main_arg3) :=
  ((W8_arr m c 2).trans (((dat1 (E7 m) c).arrAt_in 2 rfl _).trans (A_eq1 (E7 m) c 2))).trans <| (StableHlo.after_of_writes_sub hostOps1 _ hostOps1_writes (by decide : main_arg3 ∉ hostOps1_W)).trans <|
  (W6_of_ne m c main_arg3 (by decide)).trans <| (V5_of m c main_arg3 (by decide)).trans <| (V4_of m c main_arg3 (by decide)).trans <|
  (V3_of m c main_arg3 (by decide)).trans <| (V2_of m c main_arg3 (by decide)).trans <| (V1_of m c main_arg3 (by decide)).trans rfl
theorem W8_main_arg4 (c : Dev nD) : W8 m c (Proc.devRef .tc main_arg4) = m ((c : Thread nD τ).loc main_arg4) :=
  (W8_of_ne m c main_arg4 (by decide)).trans <| (StableHlo.after_of_writes_sub hostOps1 _ hostOps1_writes (by decide : main_arg4 ∉ hostOps1_W)).trans <|
  (W6_of_ne m c main_arg4 (by decide)).trans <| (V5_of m c main_arg4 (by decide)).trans <| (V4_of m c main_arg4 (by decide)).trans <|
  (V3_of m c main_arg4 (by decide)).trans <| (V2_of m c main_arg4 (by decide)).trans <| (V1_of m c main_arg4 (by decide)).trans rfl
theorem W8_main_arg5 (c : Dev nD) : W8 m c (Proc.devRef .tc main_arg5) = m ((c : Thread nD τ).loc main_arg5) :=
  ((W8_arr m c 4).trans (((dat1 (E7 m) c).arrAt_in 4 rfl _).trans (A_eq1 (E7 m) c 4))).trans <| (StableHlo.after_of_writes_sub hostOps1 _ hostOps1_writes (by decide : main_arg5 ∉ hostOps1_W)).trans <|
  (W6_of_ne m c main_arg5 (by decide)).trans <| (V5_of m c main_arg5 (by decide)).trans <| (V4_of m c main_arg5 (by decide)).trans <|
  (V3_of m c main_arg5 (by decide)).trans <| (V2_of m c main_arg5 (by decide)).trans <| (V1_of m c main_arg5 (by decide)).trans rfl
theorem W8_main_arg6 (c : Dev nD) : W8 m c (Proc.devRef .tc main_arg6) = m ((c : Thread nD τ).loc main_arg6) :=
  (W8_of_ne m c main_arg6 (by decide)).trans <| (StableHlo.after_of_writes_sub hostOps1 _ hostOps1_writes (by decide : main_arg6 ∉ hostOps1_W)).trans <|
  (W6_of_ne m c main_arg6 (by decide)).trans <| (V5_of m c main_arg6 (by decide)).trans <| (V4_of m c main_arg6 (by decide)).trans <|
  (V3_of m c main_arg6 (by decide)).trans <| (V2_of m c main_arg6 (by decide)).trans <| (V1_of m c main_arg6 (by decide)).trans rfl
theorem W8_main_arg7 (c : Dev nD) : W8 m c (Proc.devRef .tc main_arg7) = m ((c : Thread nD τ).loc main_arg7) :=
  (W8_of_ne m c main_arg7 (by decide)).trans <| (StableHlo.after_of_writes_sub hostOps1 _ hostOps1_writes (by decide : main_arg7 ∉ hostOps1_W)).trans <|
  (W6_of_ne m c main_arg7 (by decide)).trans <| (V5_of m c main_arg7 (by decide)).trans <| (V4_of m c main_arg7 (by decide)).trans <|
  (V3_of m c main_arg7 (by decide)).trans <| (V2_of m c main_arg7 (by decide)).trans <| (V1_of m c main_arg7 (by decide)).trans rfl
theorem W8_main_arg8 (c : Dev nD) : W8 m c (Proc.devRef .tc main_arg8) = m ((c : Thread nD τ).loc main_arg8) :=
  (W8_of_ne m c main_arg8 (by decide)).trans <| (StableHlo.after_of_writes_sub hostOps1 _ hostOps1_writes (by decide : main_arg8 ∉ hostOps1_W)).trans <|
  (W6_of_ne m c main_arg8 (by decide)).trans <| (V5_of m c main_arg8 (by decide)).trans <| (V4_of m c main_arg8 (by decide)).trans <|
  (V3_of m c main_arg8 (by decide)).trans <| (V2_of m c main_arg8 (by decide)).trans <| (V1_of m c main_arg8 (by decide)).trans rfl
theorem W8_main_arg9 (c : Dev nD) : W8 m c (Proc.devRef .tc main_arg9) = m ((c : Thread nD τ).loc main_arg9) :=
  (W8_of_ne m c main_arg9 (by decide)).trans <| (StableHlo.after_of_writes_sub hostOps1 _ hostOps1_writes (by decide : main_arg9 ∉ hostOps1_W)).trans <|
  (W6_of_ne m c main_arg9 (by decide)).trans <| (V5_of m c main_arg9 (by decide)).trans <| (V4_of m c main_arg9 (by decide)).trans <|
  (V3_of m c main_arg9 (by decide)).trans <| (V2_of m c main_arg9 (by decide)).trans <| (V1_of m c main_arg9 (by decide)).trans rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E5 m) c
  | ⟨1, _⟩ => fun c => dat1 (E7 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W8 m c) ∗ ∃ r, prngReg c r)

/-! ## The regions as segments -/

set_option backward.isDefEq.respectTransparency.types false in
/-- Region 0 over the thread state: entered with every unscoped buffer at the boundary's contents, left with its
    arrays at what the write-backs leave and every other buffer as entered; the generator register goes into the
    invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E5 m) c).loose
  hwaits := Pipeline.hwaits_of_owed_zero _ _ _ _ L lv 0 fun _ _ => rfl
  pre c := iprop(StableHlo.held (c : Thread nD τ) (Pipeline.ucRefs τ sig) (V5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec0 c (E5 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E5 m c) (E6 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the boundary's contents, left with its
    arrays at what the write-backs leave and every other buffer as entered; the generator register goes into the
    invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E7 m) c).loose
  hwaits := Pipeline.hwaits_of_owed_zero _ _ _ _ L lv 1 fun _ _ => rfl
  pre c := iprop(StableHlo.held (c : Thread nD τ) (Pipeline.ucRefs τ sig) (W7 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E7 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 1).pre c (fun _ => fullShare) (adm (F := F) 1).1
          ∗ Pipeline.scopedRest spec1 c) ⊢ (Pipeline.ΦA spec1 c : sProp 𝕄) := by
      unfold Pipeline.ΦA
      iintro ⟨Hp, -, Hr⟩
      isplitl [Hr]; · iexact Hr
      iexact Hp
    exact h.trans (hin1 (E7 m) c)
  hout c := by
    rw [Pipeline.ownSems0_none]
    have h : (Pipeline.ΦA spec1 c : sProp 𝕄) ⊢ iprop((∃ r, prngReg c r) ∗ BI.emp ∗ Pipeline.scopedRest spec1 c) := by
      unfold Pipeline.ΦA
      iintro ⟨Hr, Hp⟩
      isplitl [Hp]; · iexact Hp
      isplitr; · iempintro
      iexact Hr
    exact (hout1 (E7 m) c).trans h
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E7 m c) (E8 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (V0 m)),
    .host (hseg hostOps0_1 hostOps0_1_sub hostOps0_1_fresh (V1 m)),
    .host (hseg hostOps0_2 hostOps0_2_sub hostOps0_2_fresh (V2 m)),
    .host (hseg hostOps0_3 hostOps0_3_sub hostOps0_3_fresh (V3 m)),
    .host (hseg hostOps0_4 hostOps0_4_sub hostOps0_4_fresh (V4 m)),
    .region (reg0 m),
    .host (hseg hostOps1 hostOps1_sub hostOps1_fresh (W6 m)),
    .region (reg1 m) ]

theorem main_run (c : Dev nD) : main (F := F) c = Pipeline.Seg.run (segs m) := (main_chain c).trans (by chain_rfl)

set_option backward.isDefEq.respectTransparency.types false in
/-- THE RUN: from any memory with zero counters every weakly fair execution of @main terminates, nothing faulting,
    and every unscoped buffer ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h c => h c)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c _ (mem_uc main_arg0 (by decide))).trans (W8_main_arg0 m c),
    (h c _ (mem_uc main_arg1 (by decide))).trans (W8_main_arg1 m c),
    (h c _ (mem_uc main_arg2 (by decide))).trans (W8_main_arg2 m c),
    (h c _ (mem_uc main_arg3 (by decide))).trans (W8_main_arg3 m c),
    (h c _ (mem_uc main_arg4 (by decide))).trans (W8_main_arg4 m c),
    (h c _ (mem_uc main_arg5 (by decide))).trans (W8_main_arg5 m c),
    (h c _ (mem_uc main_arg6 (by decide))).trans (W8_main_arg6 m c),
    (h c _ (mem_uc main_arg7 (by decide))).trans (W8_main_arg7 m c),
    (h c _ (mem_uc main_arg8 (by decide))).trans (W8_main_arg8 m c),
    (h c _ (mem_uc main_arg9 (by decide))).trans (W8_main_arg9 m c)⟩) (run_all m ρ)

/-- The result array after the run: what region 1's write-back leaves. -/
theorem run_result : θ_run defs (onTc (τ := τ) (main (F := F))) ⟨m, fun _ => 0, ρ⟩ (fun r => ∀ c : Dev nD,
      r.2.mem ((c.tc : Thread nD τ).loc main_v44) = (dat1 (E7 m) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c _ (mem_uc main_v44 (by decide))).trans (W8_arr m c 6),
    (h c _ (mem_uc main_arg0 (by decide))).trans (W8_main_arg0 m c),
    (h c _ (mem_uc main_arg1 (by decide))).trans (W8_main_arg1 m c),
    (h c _ (mem_uc main_arg2 (by decide))).trans (W8_main_arg2 m c),
    (h c _ (mem_uc main_arg3 (by decide))).trans (W8_main_arg3 m c),
    (h c _ (mem_uc main_arg4 (by decide))).trans (W8_main_arg4 m c),
    (h c _ (mem_uc main_arg5 (by decide))).trans (W8_main_arg5 m c),
    (h c _ (mem_uc main_arg6 (by decide))).trans (W8_main_arg6 m c),
    (h c _ (mem_uc main_arg7 (by decide))).trans (W8_main_arg7 m c),
    (h c _ (mem_uc main_arg8 (by decide))).trans (W8_main_arg8 m c),
    (h c _ (mem_uc main_arg9 (by decide))).trans (W8_main_arg9 m c)⟩) (run_all m ρ)

end Cert.Kernel.Run

end
-- ==== Proof.KI.R0.lean ====
/-
  Region 0 (layer 1's dense epilogue, pre-scaled by the source norm), at the contents V the region is entered with:
  the windows' blocks, what the body leaves in the output window's buffer, the proof data and the body obligation.
-/
import proofs.«427144_j14688788152817_2_alg».proof.Proof.Gen.KernelIdeal.Launch
import proofs.«427144_j14688788152817_2_alg».proof.Proof.Gen.KernelIdeal.Skeleton
import proofs.«427144_j14688788152817_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## What the body finds in each input window's buffer

An input window's staging buffer holds, at every point, the window's block there: at a point where the block is
fetched because the fetch just wrote it, at a point where it is not (the weights and the bias row after the first
point) because the block index has not moved since the last fetch and the body leaves the buffer as it found it. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

abbrev r0_a : Rect S10000x64 := Rect.unit (s := S10000x64) ![0, 0] S10000x64.size inb_S10000x64_S10000x64_0_0
abbrev r0_n : Rect S10000x1 := Rect.unit (s := S10000x1) ![0, 0] S10000x1.size inb_S10000x1_S10000x1_0_0
abbrev r0_w : Rect S64x64 := Rect.unit (s := S64x64) ![0, 0] S64x64.size inb_S64x64_S64x64_0_0
abbrev r0_b : Rect S1x64 := Rect.unit (s := S1x64) ![0, 0] S1x64.size inb_S1x64_S1x64_0_0

/-- The output window's staging buffer after the body, from the input windows' blocks (aggregate rows x0, norm
    column x1, weights x2, bias row x3): its one whole-block store. -/
def out0_4 (x0 : Vec F S10000x64 .f32) (x1 : Vec F S10000x1 .f32) (x2 : Vec F S64x64 .f32) (x3 : Vec F S1x64 .f32) : Vec F S10000x64 .f32 :=
  View.canon [⟨r0_a, k0_pay1 (View.ld x0 r0_a) (View.ld x2 r0_w) (View.ld x3 r0_b) (View.ld x1 r0_n)⟩]

/-- The body's one store is of the whole 10000x64 block, so it covers the output buffer. -/
theorem cover0_4 (p0 : Vec F S10000x64 .f32) (y : S10000x64.Idx) :
    ∃ pc ∈ ([⟨r0_a, p0⟩] : List (View.Piece (Elt F) S10000x64 .f32)), y ∈ pc.1.set :=
  View.cover_of_tiled [⟨r0_a, p0⟩] S10000x64.size (by rfl) y

set_option maxHeartbeats 1000000 in
/-- The body's triple. On whole staging memrefs, the four inputs' holding x0 (aggregate rows), x1 (norm column),
    x2 (weights), x3 (bias row) and the output's holding anything, the body runs to a state where the inputs'
    memrefs hold what they held and the output's holds out0_4 x0 x1 x2 x3: it reads each input whole, reads the
    output block once (a value it does not use), and overwrites the whole output block with the product of
    max(x0·x2 + x3, 0) and the norm column spread along the rows. -/
theorem sound_kernel0 (c : Dev nD) (E : Set ℕ) (i : grid0.Coords)
    (arg1 : Memref sig .tc .vmem S10000x64 .f32) (harg1 : arg1.IsWhole) (arg2 : Memref sig .tc .vmem S10000x1 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S10000x64 .f32) (harg5 : arg5.IsWhole)
    (x0 : Vec F S10000x64 .f32) (x1 : Vec F S10000x1 .f32) (x2 : Vec F S64x64 .f32) (x3 : Vec F S1x64 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 x0 x1 x2 x3)) -∗ K ⟨⟩))
      ⊢ wp frame (wpE (defs₀ (F := F)) Variants.none c none) E (cc0__gconv1_kernel i arg1 harg1 arg2 harg2 arg3 harg3 arg4 harg4 arg5 harg5) K := by
  simp only [cc0__gconv1_kernel_eq_skeleton]; unfold cc0__gconv1_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-- The proof data of pipeline 0 on core c. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_4 (c : Dev nD) (t : Fin cfg0.N) :
    (dat0 V c).after 4 t = out0_4 (iblk0 V c 0 t) (iblk0 V c 1 t) (iblk0 V c 2 t) (iblk0 V c 3 t) := by dsimp only [dat0]

/-! ## The body at a point -/

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]

/-- Each input window's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is handed at point t: the invariant, the core's debts, and each window's current staging buffer, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so the body's triple applies; the invariant and
    the core's debts pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.R0

end
-- ==== Proof.KI.R1Defs.lean ====
/-
  Region 1 (the second layer's dense epilogue fused with the pooled head), at the contents V the region is entered
  with: each window's block at a grid point, and what the two scratch accumulators hold after each point.

  The kernel keeps a running per-graph sum (8 x 64) and a running per-graph count (8 x 1) in scratch. At the first
  point both are reset to zero before the point's contribution is added; at every later point the contribution is
  added to what the point before left. The output block (8 x 2) is stored at the last point only, from the
  accumulators as that point leaves them.
-/
import proofs.«427144_j14688788152817_2_alg».proof.Proof.Gen.KernelIdeal.Launch
import proofs.«427144_j14688788152817_2_alg».proof.Proof.Gen.KernelIdeal.Skeleton
import proofs.«427144_j14688788152817_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulators (sum, count) after the body at position n: the point's one-hot products added to zero at the
    first point and to what the point before left afterwards. -/
def scAt1 (c : Dev nD) : (n : ℕ) → n < cfg1.N → Vec F S8x64 .f32 × Vec F S8x1 .f32
  | 0, hn => (k1_pay5 (iblk1 V c 0 ⟨0, hn⟩) (iblk1 V c 2 ⟨0, hn⟩) (iblk1 V c 3 ⟨0, hn⟩) (iblk1 V c 1 ⟨0, hn⟩) (k1_pay2 (F := F)),
      k1_pay6 (iblk1 V c 1 ⟨0, hn⟩) (k1_pay3 (F := F)))
  | n + 1, hn => (k1_pay5 (iblk1 V c 0 ⟨n + 1, hn⟩) (iblk1 V c 2 ⟨n + 1, hn⟩) (iblk1 V c 3 ⟨n + 1, hn⟩) (iblk1 V c 1 ⟨n + 1, hn⟩) (scAt1 c n (Nat.lt_of_succ_lt hn)).1,
      k1_pay6 (iblk1 V c 1 ⟨n + 1, hn⟩) (scAt1 c n (Nat.lt_of_succ_lt hn)).2)

theorem scAt1_zero (c : Dev nD) (hn : 0 < cfg1.N) :
    scAt1 V c 0 hn = (k1_pay5 (iblk1 V c 0 ⟨0, hn⟩) (iblk1 V c 2 ⟨0, hn⟩) (iblk1 V c 3 ⟨0, hn⟩) (iblk1 V c 1 ⟨0, hn⟩) (k1_pay2 (F := F)),
      k1_pay6 (iblk1 V c 1 ⟨0, hn⟩) (k1_pay3 (F := F))) := rfl

theorem scAt1_succ (c : Dev nD) (n : ℕ) (hn : n + 1 < cfg1.N) :
    scAt1 V c (n + 1) hn = (k1_pay5 (iblk1 V c 0 ⟨n + 1, hn⟩) (iblk1 V c 2 ⟨n + 1, hn⟩) (iblk1 V c 3 ⟨n + 1, hn⟩) (iblk1 V c 1 ⟨n + 1, hn⟩) (scAt1 V c n (Nat.lt_of_succ_lt hn)).1,
      k1_pay6 (iblk1 V c 1 ⟨n + 1, hn⟩) (scAt1 V c n (Nat.lt_of_succ_lt hn)).2) := rfl

/-- What the output window's staging buffer holds after the body at point t where the body stores it (the last
    point): the head of the accumulators as this point leaves them. At the other points the window is idle and not
    written back, and nothing reads this value. -/
def out1_6 (c : Dev nD) (t : Fin cfg1.N) : Vec F S8x2 .f32 :=
  k1_pay1 (scAt1 V c t.val t.isLt).2 (scAt1 V c t.val t.isLt).1 (iblk1 V c 4 t) (iblk1 V c 5 t)

end Cert.KernelIdeal.R1

end
-- ==== Proof.KI.R1Runs.lean ====
/-
  Region 1's kernel body: what its runs share. The two conditions on the grid point (the first point resets the
  accumulators, the last point stores the head), where the output window is idle, the staging and scratch memrefs
  at a point, and the region invariant opened into the buffers it holds.
-/
import proofs.«427144_j14688788152817_2_alg».proof.Proof.KI.R1Defs

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions -/

/-- The first conditional (reset the accumulators): the grid coordinate is 0. -/
abbrev cond1_0 (i : grid1.Coords) : Prop :=
  (Scalar.cmpi .ne (Scalar.extui (Scalar.cmpi .eq (BitVec.ofNat 32 (i 0).val) 0#32)) 0#32) = 1#1
/-- It holds at the first point only. -/
theorem hcond1_0 : ∀ t : Fin cfg1.N, cond1_0 (grid1.coords t) ↔ t.val = 0 :=
  (by decide +kernel : ∀ t : Fin grid1.N, cond1_0 (grid1.coords t) ↔ t.val = 0)

/-- The second conditional (store the head): the grid coordinate is 9. -/
abbrev cond1_1 (i : grid1.Coords) : Prop := k1_cond2 i = 1#1
/-- It holds at the last point only. -/
theorem hcond1_1 : ∀ t : Fin cfg1.N, cond1_1 (grid1.coords t) ↔ t.val = 9 :=
  (by decide +kernel : ∀ t : Fin grid1.N, cond1_1 (grid1.coords t) ↔ t.val = 9)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
/-- Away from the last point the output window is idle, -/
theorem idleAt1_6 : ∀ t : Fin cfg1.N, ¬cond1_1 (grid1.coords t) → cfg1.idle 6 (grid1.coords t) = true := by decide +kernel
/-- and not written back; -/
theorem noFlush1_6 : ∀ t : Fin cfg1.N, ¬cond1_1 (grid1.coords t) → (cfg1.win 6).flush t = false := by decide +kernel
/-- at the last point it is live. -/
theorem liveAt1_6 : ∀ t : Fin cfg1.N, cond1_1 (grid1.coords t) → cfg1.idle 6 (grid1.coords t) = false := by decide +kernel

/-! ## The memrefs at a point -/

abbrev ms1_0 (t : Fin cfg1.N) : Memref sig .tc .vmem S10000x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S10000x1 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S64x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S64x2 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x2 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S8x2 .f32 := win1_6.stage (cfg1.slots t 6)
abbrev hs1_6 (t : Fin cfg1.N) : (ms1_6 t).IsWhole := hstage1_6 ((cfg1.slots t 6).cast nbuf1_6)
/-- The two accumulators: whole scoped buffers of the kernel's own. -/
abbrev scM1_0 : Memref sig .tc .vmem S8x64 .f32 := Memref.whole cc1_scratch0
abbrev scM1_1 : Memref sig .tc .vmem S8x1 .f32 := Memref.whole cc1_scratch1

/-! ## The invariant's buffers -/

/-- The core's scoped buffers that this call neither stages through nor accumulates in (the first call's staging
    buffers), each whole at some contents. -/
def rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f))

/-- The class's invariant, opened: those buffers, the two accumulators at some contents, the generator register. -/
theorem PhiA1_eq (c : Dev nD) :
    (Pipeline.ΦA spec1 c : sProp 𝕄)
      = iprop(iprop(rest1 (F := F) c ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole, rest1]
  refine BI.equiv_iff.mp ⟨?_, ?_⟩
  · show (_ : sProp 𝕄) ⊢ _
    iintro ⟨⟨H1, H2, H3, H4, H5, H6, H7, H8, HS0, HS1⟩, Hg⟩
    isplitr [Hg]
    · isplitl [H1 H2 H3 H4 H5 H6 H7 H8]
      · isplitl [H1]; · iexact H1
        isplitl [H2]; · iexact H2
        isplitl [H3]; · iexact H3
        isplitl [H4]; · iexact H4
        isplitl [H5]; · iexact H5
        isplitl [H6]; · iexact H6
        isplitl [H7]; · iexact H7
        iexact H8
      isplitl [HS0]; · iexact HS0
      iexact HS1
    iexact Hg
  · show (_ : sProp 𝕄) ⊢ _
    iintro ⟨⟨⟨H1, H2, H3, H4, H5, H6, H7, H8⟩, HS0, HS1⟩, Hg⟩
    isplitr [Hg]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      iexact HS1
    iexact Hg

end Cert.KernelIdeal.R1

end
-- ==== Proof.KI.R1Read.lean ====
/-
  Reading back whole-buffer stores and loads: a store through the whole-shape rectangle at zero offsets, last in a
  list of stores, leaves its payload whatever came before; a load through that rectangle of what one such store left
  reads the payload; a load through it of a whole memref reads the contents.
-/
import Idealize.ShloMosaic.Lib.Pipeline.Value

noncomputable section

namespace Cert.KernelIdeal.R1

open Idealize.ShloMosaic

variable {Val : EltTy → Type} [∀ e, Nonempty (Val e)] {sig : RefSig} {κ : Kind} {sp : Space} {S : Shape} {e : EltTy}

/-- The zero offsets of rank 2 as the constant function. -/
theorem zeros2 : (![0, 0] : Fin 2 → ℕ) = fun _ => 0 := by
  funext a; fin_cases a <;> rfl

/-- What a view reads after stores of which the last is through the whole-shape rectangle: that store's payload. -/
theorem read_store_last (v : View sig κ sp S e) (f : v.ty.Contents Val) {off : Fin S.rank → ℕ} (hz : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  have hcov : ∀ y : S.Idx, ∃ p ∈ ((⟨Rect.unit off S.size inb, w⟩ : View.Piece Val S e) :: L), y ∈ p.1.set :=
    fun y => ⟨_, List.mem_cons_self, View.mem_set_unit_zero hz inb y⟩
  rw [View.read_writes_eq_canon v f _ hcov, View.canon_cons_unit_zero hz inb w L]

/-- A load through the whole-shape rectangle of what one store through it left reads the payload. -/
theorem readCov_store (v : View sig κ sp S e) {off : Fin S.rank → ℕ} (hz : off = fun _ => 0)
    (inb : ∀ a, off a + S.size a ≤ S.size a) (w : S.Idx → Val e) :
    v.readCov [(⟨Rect.unit off S.size inb, w⟩ : View.Piece Val S e)] (Rect.unit off S.size inb).toLoadRect = w :=
  View.readCov_unit_zero v hz inb w

omit [∀ e, Nonempty (Val e)] in
/-- A load through the whole-shape rectangle of a whole memref at contents x reads x. -/
theorem readAt_whole (m : Memref sig κ sp S e) (h : m.IsWhole) {off : Fin S.rank → ℕ} (hz : off = fun _ => 0)
    (inb : ∀ a, off a + S.size a ≤ S.size a) (x : S.Idx → Val e) :
    m.view.readAt Val (Rect.unit off S.size inb).toLoadRect (h.unread x) = x := by
  rw [View.readAt_eq_ld, h.read_unread, View.ld_unit_zero hz inb]

end Cert.KernelIdeal.R1

end
-- ==== Proof.KI.R1RunA.lean ====
/-
  Region 1's kernel body at the first point: both accumulators are reset to zero, then loaded, the point's one-hot
  products added, and stored back; the output window's buffer is handed back untouched.
-/
import proofs.«427144_j14688788152817_2_alg».proof.Proof.KI.R1Runs
import proofs.«427144_j14688788152817_2_alg».proof.Proof.KI.R1Read

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole memrefs, the inputs' at their contents, the output's at contents it hands back untouched, the two
    accumulators at anything, the body runs to the continuation with the accumulators at the update's payloads over
    the reset's zeros. -/
theorem run1_A (c : Dev nD) (i : grid1.Coords) (arg1 : Memref sig .tc .vmem S10000x64 .f32) (harg1 : arg1.IsWhole) (arg2 : Memref sig .tc .vmem S10000x1 .i32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S64x2 .f32) (harg5 : arg5.IsWhole) (arg6 : Memref sig .tc .vmem S1x2 .f32) (harg6 : arg6.IsWhole)
    (arg7 : Memref sig .tc .vmem S8x2 .f32) (harg7 : arg7.IsWhole) (arg8 : Memref sig .tc .vmem S8x64 .f32) (harg8 : arg8.IsWhole)
    (arg9 : Memref sig .tc .vmem S8x1 .f32) (harg9 : arg9.IsWhole) (hc0 : cond1_0 i) (hc1 : ¬cond1_1 i)
    (x0 : Vec F S10000x64 .f32) (x1 : Vec F S10000x1 .i32) (x2 : Vec F S64x64 .f32) (x3 : Vec F S1x64 .f32) (x4 : Vec F S64x2 .f32) (x5 : Vec F S1x2 .f32) (xi6 : Vec F S8x2 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6
            ∗ owns (c : Thread nD τ) arg8 fullShare (k1_pay5 x0 x2 x3 x1 (k1_pay2 (F := F))) ∗ owns (c : Thread nD τ) arg9 fullShare (k1_pay6 x1 (k1_pay3 (F := F)))) -∗ K ⟨⟩))
      ⊢ wp frame (wpE (defs₀ (F := F)) Variants.none c none) E (cc1__gconv2_pool_kernel i arg1 harg1 arg2 harg2 arg3 harg3 arg4 harg4 arg5 harg5 arg6 harg6 arg7 harg7 arg8 harg8 arg9 harg9) K := by
  simp only [cc1__gconv2_pool_kernel_eq_skeleton]; unfold cc1__gconv2_pool_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hf6
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [HS0]
  · iexists _; isplitr; swap; · iexact HS0
    sl_unfold_words
    ipureintro
    rw [read_store_last arg8.view _ zeros2]
    simp only [readAt_whole arg1 harg1 zeros2, readAt_whole arg2 harg2 zeros2, readAt_whole arg3 harg3 zeros2, readAt_whole arg4 harg4 zeros2,
      readAt_whole arg5 harg5 zeros2, readAt_whole arg6 harg6 zeros2,
      readCov_store arg8.view zeros2]
  iexists _; isplitr; swap; · iexact HS1
  sl_unfold_words
  ipureintro
  rw [read_store_last arg9.view _ zeros2]
  simp only [readAt_whole arg1 harg1 zeros2, readAt_whole arg2 harg2 zeros2, readAt_whole arg3 harg3 zeros2, readAt_whole arg4 harg4 zeros2,
      readAt_whole arg5 harg5 zeros2, readAt_whole arg6 harg6 zeros2,
    readCov_store arg9.view zeros2]

end Cert.KernelIdeal.R1

end
-- ==== Proof.KI.R1RunB.lean ====
/-
  Region 1's kernel body at a middle point (neither the first nor the last): the accumulators are loaded, the point's
  one-hot products added, and stored back; the output window's buffer is handed back untouched.
-/
import proofs.«427144_j14688788152817_2_alg».proof.Proof.KI.R1Runs
import proofs.«427144_j14688788152817_2_alg».proof.Proof.KI.R1Read

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole memrefs, the inputs' at their contents, the output's at contents it hands back untouched, the two
    accumulators at what the point before left, the body runs to the continuation with the accumulators at the
    update's payloads. -/
theorem run1_B (c : Dev nD) (i : grid1.Coords) (arg1 : Memref sig .tc .vmem S10000x64 .f32) (harg1 : arg1.IsWhole) (arg2 : Memref sig .tc .vmem S10000x1 .i32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S64x2 .f32) (harg5 : arg5.IsWhole) (arg6 : Memref sig .tc .vmem S1x2 .f32) (harg6 : arg6.IsWhole)
    (arg7 : Memref sig .tc .vmem S8x2 .f32) (harg7 : arg7.IsWhole) (arg8 : Memref sig .tc .vmem S8x64 .f32) (harg8 : arg8.IsWhole)
    (arg9 : Memref sig .tc .vmem S8x1 .f32) (harg9 : arg9.IsWhole) (hc0 : ¬cond1_0 i) (hc1 : ¬cond1_1 i)
    (x0 : Vec F S10000x64 .f32) (x1 : Vec F S10000x1 .i32) (x2 : Vec F S64x64 .f32) (x3 : Vec F S1x64 .f32) (x4 : Vec F S64x2 .f32) (x5 : Vec F S1x2 .f32) (xs0 : Vec F S8x64 .f32) (xs1 : Vec F S8x1 .f32) (xi6 : Vec F S8x2 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ owns (c : Thread nD τ) arg8 fullShare xs0 ∗ owns (c : Thread nD τ) arg9 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6
            ∗ owns (c : Thread nD τ) arg8 fullShare (k1_pay5 x0 x2 x3 x1 xs0) ∗ owns (c : Thread nD τ) arg9 fullShare (k1_pay6 x1 xs1)) -∗ K ⟨⟩))
      ⊢ wp frame (wpE (defs₀ (F := F)) Variants.none c none) E (cc1__gconv2_pool_kernel i arg1 harg1 arg2 harg2 arg3 harg3 arg4 harg4 arg5 harg5 arg6 harg6 arg7 harg7 arg8 harg8 arg9 harg9) K := by
  simp only [cc1__gconv2_pool_kernel_eq_skeleton]; unfold cc1__gconv2_pool_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hf6; obtain rfl := harg8.eq_unread hfs0; obtain rfl := harg9.eq_unread hfs1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [HS0]
  · iexists _; isplitr; swap; · iexact HS0
    ipureintro
    rw [read_store_last arg8.view _ zeros2]
    simp only [readAt_whole arg1 harg1 zeros2, readAt_whole arg2 harg2 zeros2, readAt_whole arg3 harg3 zeros2, readAt_whole arg4 harg4 zeros2,
      readAt_whole arg5 harg5 zeros2, readAt_whole arg6 harg6 zeros2,
      readAt_whole arg8 harg8 zeros2]
  iexists _; isplitr; swap; · iexact HS1
  ipureintro
  rw [read_store_last arg9.view _ zeros2]
  simp only [readAt_whole arg1 harg1 zeros2, readAt_whole arg2 harg2 zeros2, readAt_whole arg3 harg3 zeros2, readAt_whole arg4 harg4 zeros2,
      readAt_whole arg5 harg5 zeros2, readAt_whole arg6 harg6 zeros2,
    readAt_whole arg9 harg9 zeros2]

end Cert.KernelIdeal.R1

end
-- ==== Proof.KI.R1RunC.lean ====
/-
  Region 1's kernel body at the last point: the accumulators are loaded, the point's one-hot products added, and
  stored back; then the head (mean over the counts, the last dense layer) of the accumulators as just stored is
  written whole into the output window's buffer.
-/
import proofs.«427144_j14688788152817_2_alg».proof.Proof.KI.R1Runs
import proofs.«427144_j14688788152817_2_alg».proof.Proof.KI.R1Read

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole memrefs, the inputs' at their contents, the output's at anything, the two accumulators at what the
    point before left, the body runs to the continuation with the accumulators at the update's payloads and the
    output's buffer at the head of those. -/
theorem run1_C (c : Dev nD) (i : grid1.Coords) (arg1 : Memref sig .tc .vmem S10000x64 .f32) (harg1 : arg1.IsWhole) (arg2 : Memref sig .tc .vmem S10000x1 .i32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S64x2 .f32) (harg5 : arg5.IsWhole) (arg6 : Memref sig .tc .vmem S1x2 .f32) (harg6 : arg6.IsWhole)
    (arg7 : Memref sig .tc .vmem S8x2 .f32) (harg7 : arg7.IsWhole) (arg8 : Memref sig .tc .vmem S8x64 .f32) (harg8 : arg8.IsWhole)
    (arg9 : Memref sig .tc .vmem S8x1 .f32) (harg9 : arg9.IsWhole) (hc0 : ¬cond1_0 i) (hc1 : cond1_1 i)
    (x0 : Vec F S10000x64 .f32) (x1 : Vec F S10000x1 .i32) (x2 : Vec F S64x64 .f32) (x3 : Vec F S1x64 .f32) (x4 : Vec F S64x2 .f32) (x5 : Vec F S1x2 .f32) (xs0 : Vec F S8x64 .f32) (xs1 : Vec F S8x1 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xs0 ∗ owns (c : Thread nD τ) arg9 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (k1_pay1 (k1_pay6 x1 xs1) (k1_pay5 x0 x2 x3 x1 xs0) x4 x5)
            ∗ owns (c : Thread nD τ) arg8 fullShare (k1_pay5 x0 x2 x3 x1 xs0) ∗ owns (c : Thread nD τ) arg9 fullShare (k1_pay6 x1 xs1)) -∗ K ⟨⟩))
      ⊢ wp frame (wpE (defs₀ (F := F)) Variants.none c none) E (cc1__gconv2_pool_kernel i arg1 harg1 arg2 harg2 arg3 harg3 arg4 harg4 arg5 harg5 arg6 harg6 arg7 harg7 arg8 harg8 arg9 harg9) K := by
  simp only [cc1__gconv2_pool_kernel_eq_skeleton]; unfold cc1__gconv2_pool_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg8.eq_unread hfs0; obtain rfl := harg9.eq_unread hfs1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; swap; · iexact H6
    try sl_unfold_words
    ipureintro
    rw [read_store_last arg7.view _ zeros2]
    simp only [readAt_whole arg1 harg1 zeros2, readAt_whole arg2 harg2 zeros2, readAt_whole arg3 harg3 zeros2, readAt_whole arg4 harg4 zeros2,
      readAt_whole arg5 harg5 zeros2, readAt_whole arg6 harg6 zeros2, readAt_whole arg8 harg8 zeros2, readAt_whole arg9 harg9 zeros2,
      readCov_store arg8.view zeros2, readCov_store arg9.view zeros2]
  isplitl [HS0]
  · iexists _; isplitr; swap; · iexact HS0
    try sl_unfold_words
    ipureintro
    rw [read_store_last arg8.view _ zeros2]
    simp only [readAt_whole arg1 harg1 zeros2, readAt_whole arg2 harg2 zeros2, readAt_whole arg3 harg3 zeros2, readAt_whole arg4 harg4 zeros2,
      readAt_whole arg5 harg5 zeros2, readAt_whole arg6 harg6 zeros2, readAt_whole arg8 harg8 zeros2, readAt_whole arg9 harg9 zeros2]
  iexists _; isplitr; swap; · iexact HS1
  try sl_unfold_words
  ipureintro
  rw [read_store_last arg9.view _ zeros2]
  simp only [readAt_whole arg1 harg1 zeros2, readAt_whole arg2 harg2 zeros2, readAt_whole arg3 harg3 zeros2, readAt_whole arg4 harg4 zeros2,
      readAt_whole arg5 harg5 zeros2, readAt_whole arg6 harg6 zeros2, readAt_whole arg8 harg8 zeros2, readAt_whole arg9 harg9 zeros2]

end Cert.KernelIdeal.R1

end
-- ==== Proof.KI.R1.lean ====
/-
  Region 1's proof data and body obligation, at the contents V the region is entered with. The invariant carries the
  two scratch accumulators from point to point: before the first point they hold anything; after point n they hold
  the running sum and count of the rows seen so far.
-/
import proofs.«427144_j14688788152817_2_alg».proof.Proof.KI.R1RunA
import proofs.«427144_j14688788152817_2_alg».proof.Proof.KI.R1RunB
import proofs.«427144_j14688788152817_2_alg».proof.Proof.KI.R1RunC

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The region invariant before position n: before the first point the class's (every scoped buffer that is no
    staging buffer of this call at anything, the generator register at some state); afterwards the same with the two
    accumulators at what the point before left in them. -/
def PhiS1 (V : (c : Dev nD) → (b : Ref sig .tc) → Buf (Elt F) ((c : Thread nD τ).loc b)) (c : Dev nD) : (n : ℕ) → n ≤ cfg1.N → sProp 𝕄
  | 0, _ => Pipeline.ΦA spec1 c
  | n + 1, hn => iprop(iprop(rest1 (F := F) c ∗ owns (c : Thread nD τ) scM1_0 fullShare (scAt1 V c n hn).1 ∗ owns (c : Thread nD τ) scM1_1 fullShare (scAt1 V c n hn).2) ∗ (∃ r, prngReg c r))

theorem PhiS1_zero (c : Dev nD) (n : ℕ) (h : n ≤ cfg1.N) (hz : n = 0) : PhiS1 V c n h = Pipeline.ΦA spec1 c := by
  subst hz; rfl

/-- After point n (before point n + 1): the accumulators at that point's contents. -/
theorem PhiS1_succ (c : Dev nD) (n : ℕ) (hn : n < cfg1.N) :
    PhiS1 V c (n + 1) hn = iprop(iprop(rest1 (F := F) c ∗ owns (c : Thread nD τ) scM1_0 fullShare (scAt1 V c n hn).1 ∗ owns (c : Thread nD τ) scM1_1 fullShare (scAt1 V c n hn).2) ∗ (∃ r, prngReg c r)) := rfl

/-- Before a point that is not the first: the accumulators at what the point before left. -/
theorem PhiS1_pos (c : Dev nD) (n : ℕ) (h : n ≤ cfg1.N) (hz : n ≠ 0) :
    PhiS1 V c n h = iprop(iprop(rest1 (F := F) c ∗ owns (c : Thread nD τ) scM1_0 fullShare (scAt1 V c (n - 1) (by omega)).1 ∗ owns (c : Thread nD τ) scM1_1 fullShare (scAt1 V c (n - 1) (by omega)).2) ∗ (∃ r, prngReg c r)) := by
  cases n with
  | zero => exact absurd rfl hz
  | succ n => rfl

/-- The accumulators after the first point: the update over the reset's zeros. -/
theorem scAt1_first (c : Dev nD) (t : Fin cfg1.N) (h0 : t.val = 0) :
    scAt1 V c t.val t.isLt = (k1_pay5 (iblk1 V c 0 t) (iblk1 V c 2 t) (iblk1 V c 3 t) (iblk1 V c 1 t) (k1_pay2 (F := F)),
      k1_pay6 (iblk1 V c 1 t) (k1_pay3 (F := F))) := by
  obtain ⟨n, hn⟩ := t
  cases n with
  | zero => rfl
  | succ n => exact absurd h0 (Nat.succ_ne_zero n)

/-- The accumulators after a later point: the update over what the point before left. -/
theorem scAt1_later (c : Dev nD) (t : Fin cfg1.N) (h0 : t.val ≠ 0) :
    scAt1 V c t.val t.isLt = (k1_pay5 (iblk1 V c 0 t) (iblk1 V c 2 t) (iblk1 V c 3 t) (iblk1 V c 1 t) (scAt1 V c (t.val - 1) (Nat.lt_of_le_of_lt (Nat.sub_le _ _) t.isLt)).1,
      k1_pay6 (iblk1 V c 1 t) (scAt1 V c (t.val - 1) (Nat.lt_of_le_of_lt (Nat.sub_le _ _) t.isLt)).2) := by
  obtain ⟨n, hn⟩ := t
  cases n with
  | zero => exact absurd rfl h0
  | succ n => rfl

/-- The proof data of pipeline 1 on core c. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 V c t := by dsimp only [dat1]

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4800000 in
/-- The body at any point: the inputs' memrefs hold their blocks; the point is the first, a middle one or the last,
    and that case's run applies; the invariant hands the body the accumulators at what the point before left
    (at anything at the first point) and takes them back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  have hN : t.val < 10 := lt_of_lt_of_eq t.isLt (show cfg1.N = 10 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  by_cases h0 : t.val = 0
  · have hc0 : cond1_0 (grid1.coords t) := (hcond1_0 t).mpr h0
    have hc1 : ¬cond1_1 (grid1.coords t) := fun h => by have := (hcond1_1 t).mp h; omega
    rw [Dat.leavesExact_idle (dat1 V c) 6 t (idleAt1_6 t hc1) (noFlush1_6 t hc1)]
    rw [scAt1_first V c t h0]; dsimp only
    rw [PhiS1_castSucc V c t, PhiS1_zero V c _ _ h0, PhiA1_eq]
    iintro ⟨⟨⟨Hr, HS0, HS1⟩, Hg⟩, Ho, ⟨%d0, H0⟩, ⟨%d1, H1⟩, ⟨%d2, H2⟩, ⟨%d3, H3⟩, ⟨%d4, H4⟩, ⟨%d5, H5⟩, ⟨%d6, H6⟩⟩
    iapply (run1_A c (grid1.coords t) _ _ _ _ _ _ _ _ _ _ _ _ _ _ _ _ _ _ hc0 hc1 (iblk1 V c 0 t) (iblk1 V c 1 t) (iblk1 V c 2 t) (iblk1 V c 3 t) (iblk1 V c 4 t) (iblk1 V c 5 t) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    iintro ⟨H0, H1, H2, H3, H4, H5, H6, HS0, HS1⟩
    isplitl [Hr HS0 HS1 Hg]
    · isplitr [Hg]
      · isplitl [Hr]; · iexact Hr
        isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · by_cases h9 : t.val = 9
    · have hc0 : ¬cond1_0 (grid1.coords t) := fun h => h0 ((hcond1_0 t).mp h)
      have hc1 : cond1_1 (grid1.coords t) := (hcond1_1 t).mpr h9
      rw [show (dat1 V c).leavesExact 6 t = owns (c : Thread nD τ) (ms1_6 t) fullShare ((dat1 V c).after 6 t) from by
        unfold Dat.leavesExact; rw [liveAt1_6 t hc1], after1_6]
      unfold out1_6
      rw [scAt1_later V c t h0]; dsimp only
      rw [PhiS1_castSucc V c t, PhiS1_pos V c _ _ h0]
      iintro ⟨⟨⟨Hr, HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply (run1_C c (grid1.coords t) _ _ _ _ _ _ _ _ _ _ _ _ _ _ _ _ _ _ hc0 hc1 (iblk1 V c 0 t) (iblk1 V c 1 t) (iblk1 V c 2 t) (iblk1 V c 3 t) (iblk1 V c 4 t) (iblk1 V c 5 t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      iintro ⟨H0, H1, H2, H3, H4, H5, H6, HS0, HS1⟩
      isplitl [Hr HS0 HS1 Hg]
      · isplitr [Hg]
        · isplitl [Hr]; · iexact Hr
          isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hc0 : ¬cond1_0 (grid1.coords t) := fun h => h0 ((hcond1_0 t).mp h)
      have hc1 : ¬cond1_1 (grid1.coords t) := fun h => h9 ((hcond1_1 t).mp h)
      rw [Dat.leavesExact_idle (dat1 V c) 6 t (idleAt1_6 t hc1) (noFlush1_6 t hc1)]
      rw [scAt1_later V c t h0]; dsimp only
      rw [PhiS1_castSucc V c t, PhiS1_pos V c _ _ h0]
      iintro ⟨⟨⟨Hr, HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply (run1_B c (grid1.coords t) _ _ _ _ _ _ _ _ _ _ _ _ _ _ _ _ _ _ hc0 hc1 (iblk1 V c 0 t) (iblk1 V c 1 t) (iblk1 V c 2 t) (iblk1 V c 3 t) (iblk1 V c 4 t) (iblk1 V c 5 t) _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [Hr HS0 HS1 Hg]
      · isplitr [Hg]
        · isplitl [Hr]; · iexact Hr
          isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After any point but the first the invariant gives the class's back: the accumulators' named contents are forgotten. -/
theorem Phi1_out (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨Hr, HS0, HS1⟩, Hg⟩
  isplitr [Hg]
  · isplitl [Hr]; · iexact Hr
    isplitl [HS0]; · iexists _; iexact HS0
    iexists _; iexact HS1
  iexact Hg

/-- After the last point the invariant gives the class's back: the accumulators' named contents are forgotten. -/
theorem hout1 (c : Dev nD) : (dat1 V c).Φ (Fin.last cfg1.N) ⊢ Pipeline.ΦA spec1 c :=
  Phi1_out V c _ (by rw [Fin.val_last]; have : cfg1.N = 10 := N_1; omega)

end Cert.KernelIdeal.R1

end
-- ==== Proof.KI.Run.lean ====
/-
  The launch. @main is five stretches of host operations, the first pallas_call, one more stretch, the second
  pallas_call. The buffer contents at each boundary are a fold from the launch memory: a stretch applies its
  operations; a region leaves its windows' arrays at what its write-backs leave (an input array as entered) and
  every other buffer as entered. Over these thread states the library's theorem for a list of segments gives: every
  weakly fair execution terminates, nothing faults, and every unscoped buffer ends at the last boundary's contents.
  The frame claim reads the argument arrays off that, each walked back through the fold to the launch memory.
-/
import proofs.«427144_j14688788152817_2_alg».proof.Proof.KI.R0
import proofs.«427144_j14688788152817_2_alg».proof.Proof.KI.R1
import proofs.«427144_j14688788152817_2_alg».proof.Proof.Gen.KernelIdeal.Regions

set_option maxRecDepth 16384

noncomputable section

namespace Cert.KernelIdeal.Run

open Cert.KernelIdeal Cert.KernelIdeal.Gen Cert.KernelIdeal.R0 Cert.KernelIdeal.R1
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at the boundaries after the host prefix (the prefix's are the generated V0 … V5) -/

/-- Region 0's entry contents read at the TensorCore's references. -/
abbrev E5 : (c : Dev nD) → (b : Ref sig .tc) → Buf (Elt F) ((c : Thread nD τ).loc b) := fun c b => V5 m c b
/-- At region 0's exit. -/
def W6 (c : Dev nD) : Valuation τ sig (Elt F) :=
  Pipeline.withArrays spec0 c (V5 m c) fun w => (dat0 (E5 m) c).arrAt w cfg0.N
theorem W6_arr (c : Dev nD) (w : Fin cfg0.W) :
    W6 m c (Proc.devRef .tc (Pipeline.arrRef spec0 w)) = (dat0 (E5 m) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m c (Proc.devRef .tc b) = V5 m c (Proc.devRef .tc b) := by
  unfold W6; exact Pipeline.withArrays_of_ne spec0 c _ _ b hb
abbrev E6 : (c : Dev nD) → (b : Ref sig .tc) → Buf (Elt F) ((c : Thread nD τ).loc b) := fun c b => W6 m c b
theorem hF0 (c : Dev nD) (w : Fin cfg0.W) : (dat0 (E5 m) c).arrAt w cfg0.N = E6 m c (Pipeline.arrRef spec0 w) :=
  (W6_arr m c w).symm
theorem hrest0 (c : Dev nD) : ∀ b, b ∉ Finset.univ.image (Pipeline.arrRef spec0) → E6 m c b = E5 m c b :=
  fun b hb => W6_of_ne m c b fun w e => hb (Finset.mem_image.mpr ⟨w, Finset.mem_univ _, e⟩)

/-- After the stretch between the regions (region 1's entry). -/
abbrev W7 : Dev nD → Valuation τ sig (Elt F) := fun c => StableHlo.after hostOps1 (W6 m c)
abbrev E7 : (c : Dev nD) → (b : Ref sig .tc) → Buf (Elt F) ((c : Thread nD τ).loc b) := fun c b => W7 m c b
/-- At region 1's exit. -/
def W8 (c : Dev nD) : Valuation τ sig (Elt F) :=
  Pipeline.withArrays spec1 c (W7 m c) fun w => (dat1 (E7 m) c).arrAt w cfg1.N
theorem W8_arr (c : Dev nD) (w : Fin cfg1.W) :
    W8 m c (Proc.devRef .tc (Pipeline.arrRef spec1 w)) = (dat1 (E7 m) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m c (Proc.devRef .tc b) = W7 m c (Proc.devRef .tc b) := by
  unfold W8; exact Pipeline.withArrays_of_ne spec1 c _ _ b hb
abbrev E8 : (c : Dev nD) → (b : Ref sig .tc) → Buf (Elt F) ((c : Thread nD τ).loc b) := fun c b => W8 m c b
theorem hF1 (c : Dev nD) (w : Fin cfg1.W) : (dat1 (E7 m) c).arrAt w cfg1.N = E8 m c (Pipeline.arrRef spec1 w) :=
  (W8_arr m c w).symm
theorem hrest1 (c : Dev nD) : ∀ b, b ∉ Finset.univ.image (Pipeline.arrRef spec1) → E8 m c b = E7 m c b :=
  fun b hb => W8_of_ne m c b fun w e => hb (Finset.mem_image.mpr ⟨w, Finset.mem_univ _, e⟩)

/-! ## The arguments end as launched -/

theorem W8_main_arg0 (c : Dev nD) : W8 m c (Proc.devRef .tc main_arg0) = m ((c : Thread nD τ).loc main_arg0) :=
  (W8_of_ne m c main_arg0 (by decide)).trans <| (StableHlo.after_of_writes_sub hostOps1 _ hostOps1_writes (by decide : main_arg0 ∉ hostOps1_W)).trans <|
  (W6_of_ne m c main_arg0 (by decide)).trans <| (V5_of m c main_arg0 (by decide)).trans <| (V4_of m c main_arg0 (by decide)).trans <|
  (V3_of m c main_arg0 (by decide)).trans <| (V2_of m c main_arg0 (by decide)).trans <| (V1_of m c main_arg0 (by decide)).trans rfl
theorem W8_main_arg1 (c : Dev nD) : W8 m c (Proc.devRef .tc main_arg1) = m ((c : Thread nD τ).loc main_arg1) :=
  (W8_of_ne m c main_arg1 (by decide)).trans <| (StableHlo.after_of_writes_sub hostOps1 _ hostOps1_writes (by decide : main_arg1 ∉ hostOps1_W)).trans <|
  ((W6_arr m c 2).trans (((dat0 (E5 m) c).arrAt_in 2 rfl _).trans (A_eq0 (E5 m) c 2))).trans <| (V5_of m c main_arg1 (by decide)).trans <| (V4_of m c main_arg1 (by decide)).trans <|
  (V3_of m c main_arg1 (by decide)).trans <| (V2_of m c main_arg1 (by decide)).trans <| (V1_of m c main_arg1 (by decide)).trans rfl
theorem W8_main_arg2 (c : Dev nD) : W8 m c (Proc.devRef .tc main_arg2) = m ((c : Thread nD τ).loc main_arg2) :=
  (W8_of_ne m c main_arg2 (by decide)).trans <| (StableHlo.after_of_writes_sub hostOps1 _ hostOps1_writes (by decide : main_arg2 ∉ hostOps1_W)).trans <|
  (W6_of_ne m c main_arg2 (by decide)).trans <| (V5_of m c main_arg2 (by decide)).trans <| (V4_of m c main_arg2 (by decide)).trans <|
  (V3_of m c main_arg2 (by decide)).trans <| (V2_of m c main_arg2 (by decide)).trans <| (V1_of m c main_arg2 (by decide)).trans rfl
theorem W8_main_arg3 (c : Dev nD) : W8 m c (Proc.devRef .tc main_arg3) = m ((c : Thread nD τ).loc main_arg3) :=
  ((W8_arr m c 2).trans (((dat1 (E7 m) c).arrAt_in 2 rfl _).trans (A_eq1 (E7 m) c 2))).trans <| (StableHlo.after_of_writes_sub hostOps1 _ hostOps1_writes (by decide : main_arg3 ∉ hostOps1_W)).trans <|
  (W6_of_ne m c main_arg3 (by decide)).trans <| (V5_of m c main_arg3 (by decide)).trans <| (V4_of m c main_arg3 (by decide)).trans <|
  (V3_of m c main_arg3 (by decide)).trans <| (V2_of m c main_arg3 (by decide)).trans <| (V1_of m c main_arg3 (by decide)).trans rfl
theorem W8_main_arg4 (c : Dev nD) : W8 m c (Proc.devRef .tc main_arg4) = m ((c : Thread nD τ).loc main_arg4) :=
  (W8_of_ne m c main_arg4 (by decide)).trans <| (StableHlo.after_of_writes_sub hostOps1 _ hostOps1_writes (by decide : main_arg4 ∉ hostOps1_W)).trans <|
  (W6_of_ne m c main_arg4 (by decide)).trans <| (V5_of m c main_arg4 (by decide)).trans <| (V4_of m c main_arg4 (by decide)).trans <|
  (V3_of m c main_arg4 (by decide)).trans <| (V2_of m c main_arg4 (by decide)).trans <| (V1_of m c main_arg4 (by decide)).trans rfl
theorem W8_main_arg5 (c : Dev nD) : W8 m c (Proc.devRef .tc main_arg5) = m ((c : Thread nD τ).loc main_arg5) :=
  ((W8_arr m c 4).trans (((dat1 (E7 m) c).arrAt_in 4 rfl _).trans (A_eq1 (E7 m) c 4))).trans <| (StableHlo.after_of_writes_sub hostOps1 _ hostOps1_writes (by decide : main_arg5 ∉ hostOps1_W)).trans <|
  (W6_of_ne m c main_arg5 (by decide)).trans <| (V5_of m c main_arg5 (by decide)).trans <| (V4_of m c main_arg5 (by decide)).trans <|
  (V3_of m c main_arg5 (by decide)).trans <| (V2_of m c main_arg5 (by decide)).trans <| (V1_of m c main_arg5 (by decide)).trans rfl
theorem W8_main_arg6 (c : Dev nD) : W8 m c (Proc.devRef .tc main_arg6) = m ((c : Thread nD τ).loc main_arg6) :=
  (W8_of_ne m c main_arg6 (by decide)).trans <| (StableHlo.after_of_writes_sub hostOps1 _ hostOps1_writes (by decide : main_arg6 ∉ hostOps1_W)).trans <|
  (W6_of_ne m c main_arg6 (by decide)).trans <| (V5_of m c main_arg6 (by decide)).trans <| (V4_of m c main_arg6 (by decide)).trans <|
  (V3_of m c main_arg6 (by decide)).trans <| (V2_of m c main_arg6 (by decide)).trans <| (V1_of m c main_arg6 (by decide)).trans rfl
theorem W8_main_arg7 (c : Dev nD) : W8 m c (Proc.devRef .tc main_arg7) = m ((c : Thread nD τ).loc main_arg7) :=
  (W8_of_ne m c main_arg7 (by decide)).trans <| (StableHlo.after_of_writes_sub hostOps1 _ hostOps1_writes (by decide : main_arg7 ∉ hostOps1_W)).trans <|
  (W6_of_ne m c main_arg7 (by decide)).trans <| (V5_of m c main_arg7 (by decide)).trans <| (V4_of m c main_arg7 (by decide)).trans <|
  (V3_of m c main_arg7 (by decide)).trans <| (V2_of m c main_arg7 (by decide)).trans <| (V1_of m c main_arg7 (by decide)).trans rfl
theorem W8_main_arg8 (c : Dev nD) : W8 m c (Proc.devRef .tc main_arg8) = m ((c : Thread nD τ).loc main_arg8) :=
  (W8_of_ne m c main_arg8 (by decide)).trans <| (StableHlo.after_of_writes_sub hostOps1 _ hostOps1_writes (by decide : main_arg8 ∉ hostOps1_W)).trans <|
  (W6_of_ne m c main_arg8 (by decide)).trans <| (V5_of m c main_arg8 (by decide)).trans <| (V4_of m c main_arg8 (by decide)).trans <|
  (V3_of m c main_arg8 (by decide)).trans <| (V2_of m c main_arg8 (by decide)).trans <| (V1_of m c main_arg8 (by decide)).trans rfl
theorem W8_main_arg9 (c : Dev nD) : W8 m c (Proc.devRef .tc main_arg9) = m ((c : Thread nD τ).loc main_arg9) :=
  (W8_of_ne m c main_arg9 (by decide)).trans <| (StableHlo.after_of_writes_sub hostOps1 _ hostOps1_writes (by decide : main_arg9 ∉ hostOps1_W)).trans <|
  (W6_of_ne m c main_arg9 (by decide)).trans <| (V5_of m c main_arg9 (by decide)).trans <| (V4_of m c main_arg9 (by decide)).trans <|
  (V3_of m c main_arg9 (by decide)).trans <| (V2_of m c main_arg9 (by decide)).trans <| (V1_of m c main_arg9 (by decide)).trans rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E5 m) c
  | ⟨1, _⟩ => fun c => dat1 (E7 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W8 m c) ∗ ∃ r, prngReg c r)

/-! ## The regions as segments -/

set_option backward.isDefEq.respectTransparency.types false in
/-- Region 0 over the thread state: entered with every unscoped buffer at the boundary's contents, left with its
    arrays at what the write-backs leave and every other buffer as entered; the generator register goes into the
    invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E5 m) c).loose
  hwaits := Pipeline.hwaits_of_owed_zero _ _ _ _ L lv 0 fun _ _ => rfl
  pre c := iprop(StableHlo.held (c : Thread nD τ) (Pipeline.ucRefs τ sig) (V5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec0 c (E5 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E5 m c) (E6 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the boundary's contents, left with its
    arrays at what the write-backs leave and every other buffer as entered; the generator register goes into the
    invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E7 m) c).loose
  hwaits := Pipeline.hwaits_of_owed_zero _ _ _ _ L lv 1 fun _ _ => rfl
  pre c := iprop(StableHlo.held (c : Thread nD τ) (Pipeline.ucRefs τ sig) (W7 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E7 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 1).pre c (fun _ => fullShare) (adm (F := F) 1).1
          ∗ Pipeline.scopedRest spec1 c) ⊢ (Pipeline.ΦA spec1 c : sProp 𝕄) := by
      unfold Pipeline.ΦA
      iintro ⟨Hp, -, Hr⟩
      isplitl [Hr]; · iexact Hr
      iexact Hp
    exact h.trans (hin1 (E7 m) c)
  hout c := by
    rw [Pipeline.ownSems0_none]
    have h : (Pipeline.ΦA spec1 c : sProp 𝕄) ⊢ iprop((∃ r, prngReg c r) ∗ BI.emp ∗ Pipeline.scopedRest spec1 c) := by
      unfold Pipeline.ΦA
      iintro ⟨Hr, Hp⟩
      isplitl [Hp]; · iexact Hp
      isplitr; · iempintro
      iexact Hr
    exact (hout1 (E7 m) c).trans h
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E7 m c) (E8 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (V0 m)),
    .host (hseg hostOps0_1 hostOps0_1_sub hostOps0_1_fresh (V1 m)),
    .host (hseg hostOps0_2 hostOps0_2_sub hostOps0_2_fresh (V2 m)),
    .host (hseg hostOps0_3 hostOps0_3_sub hostOps0_3_fresh (V3 m)),
    .host (hseg hostOps0_4 hostOps0_4_sub hostOps0_4_fresh (V4 m)),
    .region (reg0 m),
    .host (hseg hostOps1 hostOps1_sub hostOps1_fresh (W6 m)),
    .region (reg1 m) ]

theorem main_run (c : Dev nD) : main (F := F) c = Pipeline.Seg.run (segs m) := (main_chain c).trans (by chain_rfl)

set_option backward.isDefEq.respectTransparency.types false in
/-- THE RUN: from any memory with zero counters every weakly fair execution of @main terminates, nothing faulting,
    and every unscoped buffer ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h c => h c)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c _ (mem_uc main_arg0 (by decide))).trans (W8_main_arg0 m c),
    (h c _ (mem_uc main_arg1 (by decide))).trans (W8_main_arg1 m c),
    (h c _ (mem_uc main_arg2 (by decide))).trans (W8_main_arg2 m c),
    (h c _ (mem_uc main_arg3 (by decide))).trans (W8_main_arg3 m c),
    (h c _ (mem_uc main_arg4 (by decide))).trans (W8_main_arg4 m c),
    (h c _ (mem_uc main_arg5 (by decide))).trans (W8_main_arg5 m c),
    (h c _ (mem_uc main_arg6 (by decide))).trans (W8_main_arg6 m c),
    (h c _ (mem_uc main_arg7 (by decide))).trans (W8_main_arg7 m c),
    (h c _ (mem_uc main_arg8 (by decide))).trans (W8_main_arg8 m c),
    (h c _ (mem_uc main_arg9 (by decide))).trans (W8_main_arg9 m c)⟩) (run_all m ρ)

/-- The result array after the run: what region 1's write-back leaves. -/
theorem run_result : θ_run defs (onTc (τ := τ) (main (F := F))) ⟨m, fun _ => 0, ρ⟩ (fun r => ∀ c : Dev nD,
      r.2.mem ((c.tc : Thread nD τ).loc main_v44) = (dat1 (E7 m) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c _ (mem_uc main_v44 (by decide))).trans (W8_arr m c 6),
    (h c _ (mem_uc main_arg0 (by decide))).trans (W8_main_arg0 m c),
    (h c _ (mem_uc main_arg1 (by decide))).trans (W8_main_arg1 m c),
    (h c _ (mem_uc main_arg2 (by decide))).trans (W8_main_arg2 m c),
    (h c _ (mem_uc main_arg3 (by decide))).trans (W8_main_arg3 m c),
    (h c _ (mem_uc main_arg4 (by decide))).trans (W8_main_arg4 m c),
    (h c _ (mem_uc main_arg5 (by decide))).trans (W8_main_arg5 m c),
    (h c _ (mem_uc main_arg6 (by decide))).trans (W8_main_arg6 m c),
    (h c _ (mem_uc main_arg7 (by decide))).trans (W8_main_arg7 m c),
    (h c _ (mem_uc main_arg8 (by decide))).trans (W8_main_arg8 m c),
    (h c _ (mem_uc main_arg9 (by decide))).trans (W8_main_arg9 m c)⟩) (run_all m ρ)

end Cert.KernelIdeal.Run

end
-- ==== Proof.Spec.lean ====
/-
  What both programs compute, as functions on the extended reals over plain coordinates.

  A GraphConv layer's dense epilogue is a rectified affine map of each row: row r of the output is
  max (a r · W + b) 0.  Layer 1's output is then scaled row by row by the source-degree norm.  The pooled head takes,
  for each of the 8 graphs g, the sum of the rows whose graph id is g (a row counts when its id WORD is the word of g;
  any other id is dropped), divides by the larger of one and the number of such rows, and projects through Wp, bp.
  The one-hot factor is written as a product with 1 or 0, which on the extended reals kills or keeps its term at
  the infinities too, and the count is the same sum with the single-precision word of one in place of a row entry.
-/
import Idealize.ShloMosaic.PureOps.Ideal
import Idealize.ShloMosaic.PureOps.Ideal.Laws
import Idealize.ShloMosaic.Lib.ValueIdx

noncomputable section

open scoped BigOperators
open Idealize.ShloMosaic Idealize.ShloMosaic.ValueIdx

namespace Cert.Gnn

/-- The zero word and the word of one, read as extended reals (never evaluated: the same words stand on both sides). -/
def zero : EReal := Ideal.ofBits .f32 0x00000000#32
def one : EReal := Ideal.ofBits .f32 0x3F800000#32

/-- The dense epilogue of a layer on N rows: entry (r, k) is max (∑ j, a r j * W j k + b k) 0. -/
def dense {N : ℕ} (a : (⟨2, ![N, 64]⟩ : Shape).Idx → EReal) (W : (⟨2, ![64, 64]⟩ : Shape).Idx → EReal) (b : Fin 64 → EReal) :
    (⟨2, ![N, 64]⟩ : Shape).Idx → EReal := fun i =>
  max ((∑ j : Fin 64, a (ix2 (i 0) j) * W (ix2 j (i 1))) + b (i 1)) zero

/-- Rows scaled by a column: entry (r, k) times the column's entry r. -/
def scaleRows {N : ℕ} (h : (⟨2, ![N, 64]⟩ : Shape).Idx → EReal) (n : (⟨2, ![N, 1]⟩ : Shape).Idx → EReal) :
    (⟨2, ![N, 64]⟩ : Shape).Idx → EReal := fun i => h i * n (ix2 (i 0) ⟨0, Nat.one_pos⟩)

/-- Layer 1's output as layer 2 gathers it: the dense epilogue scaled by the source norm column. -/
def hidden1 {N : ℕ} (a : (⟨2, ![N, 64]⟩ : Shape).Idx → EReal) (n : (⟨2, ![N, 1]⟩ : Shape).Idx → EReal)
    (W : (⟨2, ![64, 64]⟩ : Shape).Idx → EReal) (b : Fin 64 → EReal) : (⟨2, ![N, 64]⟩ : Shape).Idx → EReal :=
  scaleRows (dense a W b) n

/-- A dense epilogue reads only the row it is asked for. -/
theorem dense_row {N N' : ℕ} (a : (⟨2, ![N, 64]⟩ : Shape).Idx → EReal) (a' : (⟨2, ![N', 64]⟩ : Shape).Idx → EReal)
    (W : (⟨2, ![64, 64]⟩ : Shape).Idx → EReal) (b : Fin 64 → EReal) (r : Fin N) (r' : Fin N') (k : Fin 64)
    (h : ∀ j : Fin 64, a (ix2 r j) = a' (ix2 r' j)) : dense a W b (ix2 r k) = dense a' W b (ix2 r' k) := by
  unfold dense
  have : (∑ j : Fin 64, a (ix2 r j) * W (ix2 j k)) = ∑ j : Fin 64, a' (ix2 r' j) * W (ix2 j k) :=
    Finset.sum_congr rfl fun j _ => by rw [h j]
  exact congrArg (fun s => max (s + b k) zero) this

/-- The sum of the rows of graph g: entry (g, d). -/
def segSum (h : (⟨2, ![100000, 64]⟩ : Shape).Idx → EReal) (gid : IVec ⟨2, ![100000, 1]⟩ 32) :
    (⟨2, ![8, 64]⟩ : Shape).Idx → EReal := fun i =>
  ∑ n : Fin 100000, (if gid (ix2 n ⟨0, Nat.one_pos⟩) = BitVec.ofNat 32 (i 0).val then (1 : EReal) else 0) * h (ix2 n (i 1))

/-- The number of rows of graph g, as a sum of the word of one. -/
def segCnt (gid : IVec ⟨2, ![100000, 1]⟩ 32) : Fin 8 → EReal := fun g =>
  ∑ n : Fin 100000, (if gid (ix2 n ⟨0, Nat.one_pos⟩) = BitVec.ofNat 32 g.val then (1 : EReal) else 0) * one

/-- The pooled head: the mean of each graph's rows (an empty graph divides by one), projected. -/
def head (h : (⟨2, ![100000, 64]⟩ : Shape).Idx → EReal) (gid : IVec ⟨2, ![100000, 1]⟩ 32)
    (Wp : (⟨2, ![64, 2]⟩ : Shape).Idx → EReal) (bp : Fin 2 → EReal) : (⟨2, ![8, 2]⟩ : Shape).Idx → EReal := fun i =>
  (∑ d : Fin 64, Ideal.div (segSum h gid (ix2 (i 0) d)) (max one (segCnt gid (i 0))) * Wp (ix2 d (i 1))) + bp (i 1)

end Cert.Gnn

end
-- ==== Proof.LibMlp.lean ====
/-
  One dense stage of a graph network's per-node perceptron, as a function on the extended reals, index by index:
  a matrix product, a bias, and an evaluation-mode batch normalisation  (a - m) * rsqrt (v + eps) * g + b , optionally
  followed by a rectifier  max a 0 .  Written over PLAIN coordinates (`Fin`) so that a kernel's row block and the
  whole array are the same function of their rows, and read off the two spellings a program may give it: the
  vector dialect's (a matrix-unit product into a zero accumulator, row vectors broadcast down the rows) and the
  host's (a `dot_general`, vectors broadcast in two steps).
-/
import Idealize.ShloMosaic.PureOps.Ideal
import Idealize.ShloMosaic.PureOps.Ideal.Laws
import Idealize.ShloMosaic.Lib.ValueIdx
import Idealize.ShloMosaic.Lib.Pipeline.Value

noncomputable section

open Idealize.ShloMosaic Idealize.ShloMosaic.ValueIdx

namespace Cert.Mlp

/-- The variance offset of the normalisation: the single-precision word nearest 1e-5, read as an extended real. -/
def eps : EReal := Ideal.ofBits .f32 0x3727C5AC#32
/-- The rectifier's floor: the zero word. -/
def zero : EReal := Ideal.ofBits .f32 0x00000000#32

/-- Evaluation-mode batch normalisation of one value. -/
def bn (a m v g b : EReal) : EReal := (a - m) * Ideal.rsqrt (v + eps) * g + b

/-- A dense stage: row `i 0` of `a` against column `i 1` of `W`, plus the bias, normalised. -/
def lin {N K H : ℕ} (a : (⟨2, ![N, K]⟩ : Shape).Idx → EReal) (W : (⟨2, ![K, H]⟩ : Shape).Idx → EReal)
    (b g be m v : Fin H → EReal) : (⟨2, ![N, H]⟩ : Shape).Idx → EReal := fun i =>
  bn ((∑ k : Fin K, a (ix2 (i 0) k) * W (ix2 k (i 1))) + b (i 1)) (m (i 1)) (v (i 1)) (g (i 1)) (be (i 1))

/-- A one-row matrix read as a vector of its entries. -/
def row {H : ℕ} (x : (⟨2, ![1, H]⟩ : Shape).Idx → EReal) : Fin H → EReal := fun h => x (ix2 0 h)
/-- A rank-one array read as a vector of its entries. -/
def vec {H : ℕ} (x : (⟨1, ![H]⟩ : Shape).Idx → EReal) : Fin H → EReal := fun h => x (ix1 h)

/-- A vector reshaped to one row and read back as a vector is the vector. -/
theorem row_shapeCast {H : ℕ} (y : (⟨1, ![H]⟩ : Shape).Idx → EReal) (h : (⟨1, ![H]⟩ : Shape).ShapeCasts ⟨2, ![1, H]⟩) :
    row (shapeCast (⟨2, ![1, H]⟩ : Shape) y h) = vec y := by
  funext q
  show shapeCast (⟨2, ![1, H]⟩ : Shape) y h (ix2 0 q) = y (ix1 q)
  exact shapeCast_apply y h (ix2 0 q) (ix1 q) (by
    rw [Shape.rowMajor_val_two, Shape.rowMajor_val_one]; show q.val = 0 * H + q.val; omega)

/-- The rectifier, entry by entry. -/
def relu {S : Shape} (a : S.Idx → EReal) : S.Idx → EReal := fun i => max (a i) zero

/-- A dense stage reads only the row it is asked for: two inputs that agree on a row give the same row. -/
theorem lin_row {N N' K H : ℕ} (a : (⟨2, ![N, K]⟩ : Shape).Idx → EReal) (a' : (⟨2, ![N', K]⟩ : Shape).Idx → EReal)
    (W : (⟨2, ![K, H]⟩ : Shape).Idx → EReal) (b g be m v : Fin H → EReal) (r : Fin N) (r' : Fin N') (j : Fin H)
    (h : ∀ k : Fin K, a (ix2 r k) = a' (ix2 r' k)) :
    lin a W b g be m v (ix2 r j) = lin a' W b g be m v (ix2 r' j) := by
  unfold lin
  have : (∑ k : Fin K, a (ix2 r k) * W (ix2 k j)) = ∑ k : Fin K, a' (ix2 r' k) * W (ix2 k j) :=
    Finset.sum_congr rfl fun k _ => by rw [h k]
  exact congrArg (fun s => bn (s + b j) (m j) (v j) (g j) (be j)) this

/-- Two dense stages with a rectifier between them: one layer's perceptron and its outer normalisation. -/
def layer {N K H D : ℕ} (z : (⟨2, ![N, K]⟩ : Shape).Idx → EReal) (W1 : (⟨2, ![K, H]⟩ : Shape).Idx → EReal)
    (b1 g1 be1 m1 v1 : Fin H → EReal) (W2 : (⟨2, ![H, D]⟩ : Shape).Idx → EReal) (b2 g2 be2 m2 v2 : Fin D → EReal) :
    (⟨2, ![N, D]⟩ : Shape).Idx → EReal :=
  lin (relu (lin z W1 b1 g1 be1 m1 v1)) W2 b2 g2 be2 m2 v2

/-- A layer reads only the row it is asked for. -/
theorem layer_row {N N' K H D : ℕ} (z : (⟨2, ![N, K]⟩ : Shape).Idx → EReal) (z' : (⟨2, ![N', K]⟩ : Shape).Idx → EReal)
    (W1 : (⟨2, ![K, H]⟩ : Shape).Idx → EReal) (b1 g1 be1 m1 v1 : Fin H → EReal)
    (W2 : (⟨2, ![H, D]⟩ : Shape).Idx → EReal) (b2 g2 be2 m2 v2 : Fin D → EReal) (r : Fin N) (r' : Fin N') (j : Fin D)
    (h : ∀ k : Fin K, z (ix2 r k) = z' (ix2 r' k)) :
    layer z W1 b1 g1 be1 m1 v1 W2 b2 g2 be2 m2 v2 (ix2 r j) = layer z' W1 b1 g1 be1 m1 v1 W2 b2 g2 be2 m2 v2 (ix2 r' j) :=
  lin_row _ _ W2 b2 g2 be2 m2 v2 r r' j fun k => by
    show max (lin z W1 b1 g1 be1 m1 v1 (ix2 r k)) zero = max (lin z' W1 b1 g1 be1 m1 v1 (ix2 r' k)) zero
    rw [lin_row z z' W1 b1 g1 be1 m1 v1 r r' k h]

/-! ## A plain product's contraction is a sum over the middle coordinate -/

/-- For the dimension numbers of an M×K by K×N product, the sum over the contraction index is the sum over `Fin K` of
    row entry times column entry. -/
theorem plain_sum {M K N : ℕ} (l : (⟨2, ![M, K]⟩ : Shape).Idx → EReal) (r : (⟨2, ![K, N]⟩ : Shape).Idx → EReal)
    (j : (⟨2, ![M, N]⟩ : Shape).Idx) :
    (∑ k : (DotDims.plain M K N).contr.Idx, l ((DotDims.plain M K N).lhsIdx j k) * r ((DotDims.plain M K N).rhsIdx j k))
      = ∑ k : Fin K, l (ix2 (j 0) k) * r (ix2 k (j 1)) := by
  refine (Equiv.sum_comp (contrEquiv1 (DotDims.plain M K N) K rfl rfl).symm _).symm.trans (Finset.sum_congr rfl fun k _ => ?_)
  have hl : (DotDims.plain M K N).lhsIdx j ((contrEquiv1 (DotDims.plain M K N) K rfl rfl).symm k) = ix2 (j 0) k := by
    funext a; apply Fin.ext
    match a with
    | ⟨0, _⟩ => rfl
    | ⟨1, _⟩ => exact contrEquiv1_symm_val (DotDims.plain M K N) K rfl rfl k
  have hr : (DotDims.plain M K N).rhsIdx j ((contrEquiv1 (DotDims.plain M K N) K rfl rfl).symm k) = ix2 k (j 1) := by
    funext a; apply Fin.ext
    match a with
    | ⟨0, _⟩ => exact contrEquiv1_symm_val (DotDims.plain M K N) K rfl rfl k
    | ⟨1, _⟩ => rfl
  exact congrArg₂ (fun x y => l x * r y) hl hr

/-! ## The two spellings of the rectifier -/

theorem vec_relu {S : Shape} (x : FVec Ideal S .f32) :
    maximumf x (broadcast S (Scalar.ofBits .f32 0x00000000#32)) = relu x := rfl

theorem host_relu {S : Shape} (h0 : (⟨0, ![]⟩ : Shape).BroadcastsInDim S ![]) (x : FVec Ideal S .f32) :
    maximumf x (broadcastInDim S ![] h0 (constant (⟨0, ![]⟩ : Shape) .f32 0x00000000#32)) = relu x := rfl

/-! ## The vector dialect's spelling of a dense stage -/

/-- A row vector broadcast down the rows, read at (p, q), is its entry q. -/
theorem bcast_row {N H : ℕ} (hb : (⟨2, ![1, H]⟩ : Shape).Broadcasts ⟨2, ![N, H]⟩) (x : (⟨2, ![1, H]⟩ : Shape).Idx → EReal)
    (p : Fin N) (q : Fin H) : broadcastTo (⟨2, ![N, H]⟩ : Shape) x hb (ix2 p q) = x (ix2 0 q) := by
  refine broadcastTo_apply x hb (ix2 p q) (ix2 0 q) fun a => ?_
  match a with
  | ⟨0, _⟩ => simp
  | ⟨1, _⟩ =>
    show q.val = if H = 1 then 0 else q.val
    split
    · rename_i h; have := q.isLt; omega
    · rfl

theorem vec_lin {N K H : ℕ} {φa φw : FTy} (d : DotDims ⟨2, ![N, K]⟩ ⟨2, ![K, H]⟩ ⟨2, ![N, H]⟩) (hd : d = DotDims.plain N K H)
    (hb : (⟨2, ![1, H]⟩ : Shape).Broadcasts ⟨2, ![N, H]⟩)
    (a : FVec Ideal ⟨2, ![N, K]⟩ φa) (W : FVec Ideal ⟨2, ![K, H]⟩ φw) (b g be m v : FVec Ideal ⟨2, ![1, H]⟩ .f32) :
    addf (mulf (mulf (subf (addf (matmul d none a W (constant ⟨2, ![N, H]⟩ .f32 0x00000000#32)) (broadcastTo ⟨2, ![N, H]⟩ b hb))
        (broadcastTo ⟨2, ![N, H]⟩ m hb))
        (broadcastTo ⟨2, ![N, H]⟩ (rsqrt (addf v (broadcast ⟨2, ![1, H]⟩ (Scalar.ofBits .f32 0x3727C5AC#32)))) hb))
        (broadcastTo ⟨2, ![N, H]⟩ g hb)) (broadcastTo ⟨2, ![N, H]⟩ be hb)
      = lin a W (row b) (row g) (row be) (row m) (row v) := by
  subst hd
  funext i
  obtain ⟨p, q, rfl⟩ : ∃ (p : Fin N) (q : Fin H), i = ix2 p q := ⟨i 0, i 1, eq_ix2 i⟩
  simp only [addf_apply, mulf_apply, subf_apply]
  have hm : matmul (DotDims.plain N K H) none a W (constant ⟨2, ![N, H]⟩ .f32 0x00000000#32) (ix2 p q)
      = ∑ k : Fin K, a (ix2 p k) * W (ix2 k q) := by
    rw [show matmul (DotDims.plain N K H) none a W (constant ⟨2, ![N, H]⟩ .f32 0x00000000#32) (ix2 p q) = _ from
      Ideal.matmul_constant_zero_apply (DotDims.plain N K H) none a W (ix2 p q)]
    exact plain_sum a W (ix2 p q)
  rw [bcast_row hb b p q, bcast_row hb m p q, bcast_row hb g p q, bcast_row hb be p q, bcast_row hb _ p q, hm]
  rfl

/-! ## The host's spelling of a dense stage -/

/-- A vector broadcast to a one-row matrix and then down the rows, read at (p, q), is its entry q. -/
theorem bcast_two {N H : ℕ} (h1 : (⟨1, ![H]⟩ : Shape).BroadcastsInDim ⟨2, ![1, H]⟩ ![1])
    (h2 : (⟨2, ![1, H]⟩ : Shape).BroadcastsInDim ⟨2, ![N, H]⟩ ![0, 1]) (x : (⟨1, ![H]⟩ : Shape).Idx → EReal) (p : Fin N) (q : Fin H) :
    broadcastInDim (⟨2, ![N, H]⟩ : Shape) ![0, 1] h2 (broadcastInDim (⟨2, ![1, H]⟩ : Shape) ![1] h1 x) (ix2 p q) = x (ix1 q) := by
  refine (broadcastInDim_apply ![0, 1] h2 _ (ix2 p q) (ix2 0 q) fun a => ?_).trans
    (broadcastInDim_apply ![1] h1 x (ix2 0 q) (ix1 q) fun a => ?_)
  · match a with
    | ⟨0, _⟩ => simp
    | ⟨1, _⟩ =>
      show q.val = if H = 1 then 0 else q.val
      split
      · rename_i h; have := q.isLt; omega
      · rfl
  · match a with
    | ⟨0, _⟩ =>
      show q.val = if H = 1 then 0 else q.val
      split
      · rename_i h; have := q.isLt; omega
      · rfl

theorem host_lin {N K H : ℕ} {φa φw : FTy} (d : DotDims ⟨2, ![N, K]⟩ ⟨2, ![K, H]⟩ ⟨2, ![N, H]⟩) (hd : d = DotDims.plain N K H)
    (h0 : (⟨0, ![]⟩ : Shape).BroadcastsInDim ⟨1, ![H]⟩ ![])
    (h1 : (⟨1, ![H]⟩ : Shape).BroadcastsInDim ⟨2, ![1, H]⟩ ![1])
    (h2 : (⟨2, ![1, H]⟩ : Shape).BroadcastsInDim ⟨2, ![N, H]⟩ ![0, 1])
    (a : FVec Ideal ⟨2, ![N, K]⟩ φa) (W : FVec Ideal ⟨2, ![K, H]⟩ φw) (b g be m v : FVec Ideal ⟨1, ![H]⟩ .f32) :
    addf (mulf (mulf (subf (addf (Host.dotGeneral d none a W)
          (broadcastInDim (⟨2, ![N, H]⟩ : Shape) ![0, 1] h2 (broadcastInDim (⟨2, ![1, H]⟩ : Shape) ![1] h1 b)))
          (broadcastInDim (⟨2, ![N, H]⟩ : Shape) ![0, 1] h2 (broadcastInDim (⟨2, ![1, H]⟩ : Shape) ![1] h1 m)))
          (broadcastInDim (⟨2, ![N, H]⟩ : Shape) ![0, 1] h2 (broadcastInDim (⟨2, ![1, H]⟩ : Shape) ![1] h1
            (Host.rsqrt (addf v (broadcastInDim (⟨1, ![H]⟩ : Shape) ![] h0 (constant (⟨0, ![]⟩ : Shape) .f32 0x3727C5AC#32)))))))
          (broadcastInDim (⟨2, ![N, H]⟩ : Shape) ![0, 1] h2 (broadcastInDim (⟨2, ![1, H]⟩ : Shape) ![1] h1 g)))
          (broadcastInDim (⟨2, ![N, H]⟩ : Shape) ![0, 1] h2 (broadcastInDim (⟨2, ![1, H]⟩ : Shape) ![1] h1 be))
      = lin a W (vec b) (vec g) (vec be) (vec m) (vec v) := by
  subst hd
  funext i
  obtain ⟨p, q, rfl⟩ : ∃ (p : Fin N) (q : Fin H), i = ix2 p q := ⟨i 0, i 1, eq_ix2 i⟩
  simp only [addf_apply, mulf_apply, subf_apply]
  have hm : Host.dotGeneral (DotDims.plain N K H) none a W (ix2 p q) = ∑ k : Fin K, a (ix2 p k) * W (ix2 k q) := by
    rw [show Host.dotGeneral (DotDims.plain N K H) none a W (ix2 p q) = _ from
      Ideal.dotGeneral_apply (DotDims.plain N K H) none .single a W (ix2 p q)]
    exact plain_sum a W (ix2 p q)
  rw [bcast_two h1 h2 b p q, bcast_two h1 h2 m p q, bcast_two h1 h2 g p q, bcast_two h1 h2 be p q, bcast_two h1 h2 _ p q, hm]
  rfl

end Cert.Mlp

end
-- ==== Proof.LibColumn.lean ====
/-
  A vector kept as a column and spread along its rows: the two layout steps a row statistic (a row's maximum,
  a row's sum) goes through before it meets the `[a, b]` array it was taken from. A length-`a` vector cast to
  `[a, 1]` reads, at `(p, 0)`, entry `p`; an `[a, 1]` column broadcast to `[a, b]` reads, at `(p, s)`, the
  column's entry `(p, 0)`, whatever `s` is.
-/
import Idealize.ShloMosaic.Lib.Pipeline.Value
import Idealize.ShloMosaic.Lib.ValueIdx

noncomputable section

namespace Cert.Attn.Column

open Idealize.ShloMosaic Idealize.ShloMosaic.ValueIdx

variable {α : Type}

/-- A length-`a` vector cast to an `[a, 1]` column reads, at `(p, u)`, the vector at `p`: both sit at row-major
    position `p`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_one, Shape.rowMajor_val_two]
    show p.val = p.val * 1 + u.val
    rw [hu, Nat.mul_one, Nat.add_zero])

/-- An `[a, 1]` column broadcast to `[a, b]` reads, at `(p, s)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (s : Fin b) :
    broadcastTo ⟨2, ![a, b]⟩ v h (ix2 p s) = v (ix2 p (0 : Fin 1)) := by
  refine broadcastTo_apply v h (ix2 p s) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else s.val
    rw [if_pos rfl]

end Cert.Attn.Column

end
-- ==== Proof.KI.Val0.lean ====
/-
  Region 0's value at the ideal instance, and the two "blocks to the whole array" facts.

  One block of layer 1's output is the spec's function of the block's rows: the rectified affine map of each row,
  scaled by the row's norm entry. Since that function reads only the row it is asked for, the blocks the grid's
  points write back are the restrictions of ONE function of the whole arrays, and the ten row blocks tile the
  output array. Region 1's output array is written back once, at the last point, and that one block is the array.
-/
import proofs.«427144_j14688788152817_2_alg».proof.Proof.KI.R0
import proofs.«427144_j14688788152817_2_alg».proof.Proof.KI.R1
import proofs.«427144_j14688788152817_2_alg».proof.Proof.Spec
import proofs.«427144_j14688788152817_2_alg».proof.Proof.LibMlp
import proofs.«427144_j14688788152817_2_alg».proof.Proof.LibColumn
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Val

open Cert.KernelIdeal Cert.KernelIdeal.Gen Cert.KernelIdeal.R0 Cert.KernelIdeal.R1
open Idealize.ShloMosaic Idealize.ShloMosaic.ValueIdx Idealize.ShloMosaic.TcCoe
open Idealize.ShloMosaic.Pipeline (Dat)

theorem hz : (![0, 0] : Fin 2 → Nat) = fun _ => 0 := funext fun a => by fin_cases a <;> rfl

set_option maxHeartbeats 400000 in
/-- The block's payload at a coordinate: the rectified affine map of the row, times the row's norm entry. -/
theorem pay1_apply (x0 : Vec Ideal S10000x64 .f32) (x1 : Vec Ideal S10000x1 .f32) (x2 : Vec Ideal S64x64 .f32) (x3 : Vec Ideal S1x64 .f32)
    (p : Fin 10000) (q : Fin 64) :
    (k0_pay1 (F := Ideal) x0 x2 x3 x1 : S10000x64.Idx → EReal) (ix2 p q)
      = max ((∑ j : Fin 64, (x0 : S10000x64.Idx → EReal) (ix2 p j) * (x2 : S64x64.Idx → EReal) (ix2 j q)) + (x3 : S1x64.Idx → EReal) (ix2 0 q)) Cert.Gnn.zero
        * (x1 : S10000x1.Idx → EReal) (ix2 p (0 : Fin 1)) := by
  have hm : matmul (F := Ideal) (φ₁ := .f32) (φ₂ := .f32) dot_S10000x64_S64x64_S10000x64_1_0_0_1_n_n none x0 x2 (constant S10000x64 .f32 0x00000000#32) (ix2 p q)
      = ∑ k : Fin 64, (x0 : S10000x64.Idx → EReal) (ix2 p k) * (x2 : S64x64.Idx → EReal) (ix2 k q) := by
    refine (Ideal.matmul_constant_zero_apply (DotDims.plain 10000 64 64) none x0 x2 (ix2 p q)).trans ?_
    exact Cert.Mlp.plain_sum x0 x2 (ix2 p q)
  unfold k0_pay1
  simp only [shapeCast_self]
  simp only [mulf_apply]
  rw [Cert.Attn.Column.broadcastTo_a1_ab_apply x1 broadcasts_S10000x1_S10000x64 p q]
  refine congrArg (· * (x1 : S10000x1.Idx → EReal) (ix2 p (0 : Fin 1))) ?_
  rw [Cert.Mlp.vec_relu]
  simp only [Cert.Mlp.relu, addf_apply]
  rw [Cert.Mlp.bcast_row broadcasts_S1x64_S10000x64 x3 p q, hm]
  rfl

/-- one block's payload is the spec's function of the block's rows -/
theorem out0_4_eq (x0 : Vec Ideal S10000x64 .f32) (x1 : Vec Ideal S10000x1 .f32) (x2 : Vec Ideal S64x64 .f32) (x3 : Vec Ideal S1x64 .f32) :
    (out0_4 (F := Ideal) x0 x1 x2 x3 : S10000x64.Idx → EReal) = Cert.Gnn.hidden1 (N := 10000) x0 x1 x2 (Cert.Mlp.row x3) := by
  unfold out0_4
  rw [View.canon_unit_zero hz]
  simp only [View.ld_unit_zero (S := S10000x64) hz, View.ld_unit_zero (S := S10000x1) hz, View.ld_unit_zero (S := S64x64) hz, View.ld_unit_zero (S := S1x64) hz]
  funext i
  obtain ⟨p, q, rfl⟩ : ∃ (p : Fin 10000) (q : Fin 64), i = ix2 p q := ⟨i 0, i 1, eq_ix2 i⟩
  rw [pay1_apply]
  rfl

/-! ## From the blocks to the whole array -/

section
variable (V : (c : Dev nD) → (b : Ref sig .tc) → Buf (Elt Ideal) ((c : Thread nD τ).loc b))

/-- The spec's function at a row of a block is the function of the whole arrays at the row the block's row sits at:
    it reads its own row of the aggregate and its own entry of the norm column, and nothing else. -/
theorem hidden1_row (a : S100000x64.Idx → EReal) (n : S100000x1.Idx → EReal) (a' : S10000x64.Idx → EReal) (n' : S10000x1.Idx → EReal)
    (W : S64x64.Idx → EReal) (b : Fin 64 → EReal) (r : Fin 100000) (r' : Fin 10000) (k : Fin 64)
    (ha : ∀ j : Fin 64, a' (ix2 r' j) = a (ix2 r j)) (hn : n' (ix2 r' ⟨0, Nat.one_pos⟩) = n (ix2 r ⟨0, Nat.one_pos⟩)) :
    Cert.Gnn.hidden1 (N := 10000) a' n' W b (ix2 r' k) = Cert.Gnn.hidden1 (N := 100000) a n W b (ix2 r k) := by
  show Cert.Gnn.dense a' W b (ix2 r' k) * n' (ix2 r' ⟨0, Nat.one_pos⟩) = Cert.Gnn.dense a W b (ix2 r k) * n (ix2 r ⟨0, Nat.one_pos⟩)
  rw [Cert.Gnn.dense_row a' a W b r' r k ha, hn]

/-- The printed index maps, decided over the grid: the row-blocked windows sit at block (t, 0), the weights and the
    bias row at block (0, 0). -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The aggregate's block at point t is rows 10000 t … 10000 t + 9999 of the aggregate. -/
theorem iblk0_0_apply (c : Dev nD) (t : Fin cfg0.N) (r' : Fin 10000) (j : Fin 64) (r : Fin 100000) (hr : r.val = t.val * 10000 + r'.val) :
    (iblk0 (F := Ideal) V c 0 t : S10000x64.Idx → EReal) (ix2 r' j) = (V c main_v26 : S100000x64.Idx → EReal) (ix2 r j) := by
  obtain ⟨e0, e1, -⟩ := idx_facts0 t
  show (V c main_v26 : S100000x64.Idx → EReal) (((cfg0.win 0).blk t).view.emb (ix2 r' j)) = (V c main_v26 : S100000x64.Idx → EReal) (ix2 r j)
  congr 1
  funext a; apply Fin.ext
  match a with
  | ⟨0, _⟩ => show win0_0.index t (0 : Fin 2) * 10000 + 1 * r'.val = r.val; rw [e0, hr]; omega
  | ⟨1, _⟩ => show win0_0.index t (1 : Fin 2) * 64 + 1 * j.val = j.val; rw [e1]; omega

/-- The norm column's block at point t is the same rows of the norm column. -/
theorem iblk0_1_apply (c : Dev nD) (t : Fin cfg0.N) (r' : Fin 10000) (u : Fin 1) (r : Fin 100000) (hr : r.val = t.val * 10000 + r'.val) :
    (iblk0 (F := Ideal) V c 1 t : S10000x1.Idx → EReal) (ix2 r' u) = (V c main_v10 : S100000x1.Idx → EReal) (ix2 r u) := by
  obtain ⟨-, -, e0, e1, -⟩ := idx_facts0 t
  show (V c main_v10 : S100000x1.Idx → EReal) (((cfg0.win 1).blk t).view.emb (ix2 r' u)) = (V c main_v10 : S100000x1.Idx → EReal) (ix2 r u)
  congr 1
  funext a; apply Fin.ext
  match a with
  | ⟨0, _⟩ => show win0_1.index t (0 : Fin 2) * 10000 + 1 * r'.val = r.val; rw [e0, hr]; omega
  | ⟨1, _⟩ => show win0_1.index t (1 : Fin 2) * 1 + 1 * u.val = u.val; rw [e1]; omega

/-- The weights' block is the weights, at every point. -/
theorem iblk0_2_eq (c : Dev nD) (t : Fin cfg0.N) :
    (iblk0 (F := Ideal) V c 2 t : S64x64.Idx → EReal) = (V c main_arg1 : S64x64.Idx → EReal) := by
  obtain ⟨-, -, -, -, e0, e1, -⟩ := idx_facts0 t
  funext y
  show (V c main_arg1 : S64x64.Idx → EReal) (((cfg0.win 2).blk t).view.emb y) = (V c main_arg1 : S64x64.Idx → EReal) y
  congr 1
  funext a; apply Fin.ext
  match a with
  | ⟨0, _⟩ => show win0_2.index t (0 : Fin 2) * 64 + 1 * (y 0).val = (y 0).val; rw [e0]; omega
  | ⟨1, _⟩ => show win0_2.index t (1 : Fin 2) * 64 + 1 * (y 1).val = (y 1).val; rw [e1]; omega

/-- The bias row's block is the bias row, at every point. -/
theorem iblk0_3_eq (c : Dev nD) (t : Fin cfg0.N) :
    (iblk0 (F := Ideal) V c 3 t : S1x64.Idx → EReal) = (V c main_v27 : S1x64.Idx → EReal) := by
  obtain ⟨-, -, -, -, -, -, e0, e1, -⟩ := idx_facts0 t
  funext y
  show (V c main_v27 : S1x64.Idx → EReal) (((cfg0.win 3).blk t).view.emb y) = (V c main_v27 : S1x64.Idx → EReal) y
  congr 1
  funext a; apply Fin.ext
  match a with
  | ⟨0, _⟩ => show win0_3.index t (0 : Fin 2) * 1 + 1 * (y 0).val = (y 0).val; rw [e0]; omega
  | ⟨1, _⟩ => show win0_3.index t (1 : Fin 2) * 64 + 1 * (y 1).val = (y 1).val; rw [e1]; omega

/-- Layer 1's output as the spec's function of the whole arrays the region is entered with. -/
abbrev G0 (c : Dev nD) : S100000x64.Idx → EReal :=
  Cert.Gnn.hidden1 (N := 100000) (V c main_v26) (V c main_v10) (V c main_arg1) (Cert.Mlp.row (V c main_v27))

/-- What point t writes back is block t of that function. -/
theorem flushed0_eq (c : Dev nD) (t : Fin cfg0.N) :
    (dat0 (F := Ideal) V c).flushed 4 t = ((cfg0.win 4).blk t).view.read (Elt Ideal) (G0 V c) := by
  show (cfg0.win 4).cut (grid0.coords t) ((dat0 (F := Ideal) V c).after 4 t) = _
  rw [after0_4]
  obtain ⟨-, -, -, -, -, -, -, -, e0, e1⟩ := idx_facts0 t
  funext y
  obtain ⟨p, q, rfl⟩ : ∃ (p : Fin 10000) (q : Fin 64), y = ix2 p q := ⟨y 0, y 1, eq_ix2 y⟩
  have hp : p.val < 10000 := p.isLt
  have ht : t.val < 10 := lt_of_lt_of_eq t.isLt N_0
  show (out0_4 (F := Ideal) (iblk0 V c 0 t) (iblk0 V c 1 t) (iblk0 V c 2 t) (iblk0 V c 3 t) : S10000x64.Idx → EReal) (ix2 p q)
      = G0 V c (((cfg0.win 4).blk t).view.emb (ix2 p q))
  have hemb : ((cfg0.win 4).blk t).view.emb (ix2 p q) = (ix2 (⟨t.val * 10000 + p.val, by omega⟩ : Fin 100000) q : S100000x64.Idx) := by
    funext a; apply Fin.ext
    match a with
    | ⟨0, _⟩ => show win0_4.index t (0 : Fin 2) * 10000 + 1 * p.val = t.val * 10000 + p.val; rw [e0]; omega
    | ⟨1, _⟩ => show win0_4.index t (1 : Fin 2) * 64 + 1 * q.val = q.val; rw [e1]; omega
  rw [hemb]
  refine (congrFun (out0_4_eq (iblk0 V c 0 t) (iblk0 V c 1 t) (iblk0 V c 2 t) (iblk0 V c 3 t)) (ix2 p q)).trans ?_
  rw [iblk0_2_eq V c t, iblk0_3_eq V c t]
  exact hidden1_row (V c main_v26) (V c main_v10) (iblk0 V c 0 t) (iblk0 V c 1 t) (V c main_arg1) (Cert.Mlp.row (V c main_v27))
    ⟨t.val * 10000 + p.val, by omega⟩ p q (fun j => iblk0_0_apply V c t p j _ rfl) (iblk0_1_apply V c t p _ _ rfl)

/-- An index of the output array is in point t's block iff each coordinate is in the block's range on its axis. -/
theorem mem_blk0 (t : Fin cfg0.N) (i : S100000x64.Idx) :
    i ∈ ((cfg0.win 4).blk t).view.set ↔ ∀ a : Fin 2, win0_4.index t a * S10000x64.size a ≤ (i a).val ∧ (i a).val < win0_4.index t a * S10000x64.size a + S10000x64.size a := by
  show i ∈ ((View.whole main_v28).slice (win0_4.rect t)).set ↔ _
  rw [View.set_slice_whole, Rect.mem_set_unit]
  exact Iff.rfl

/-- Row r of the output array is covered by point r / 10000. -/
theorem cover0 (i : S100000x64.Idx) : ∃ t : Fin cfg0.N, (cfg0.win 4).flush t = true ∧ i ∈ ((cfg0.win 4).blk t).view.set := by
  have hi0 : (i 0).val < 100000 := (i 0).isLt
  have hi1 : (i 1).val < 64 := (i 1).isLt
  let t : Fin cfg0.N := ⟨(i 0).val / 10000, by rw [show cfg0.N = 10 from N_0]; omega⟩
  obtain ⟨-, -, -, -, -, -, -, -, e0, e1⟩ := idx_facts0 t
  have e0' : win0_4.index t (0 : Fin 2) = (i 0).val / 10000 := e0
  refine ⟨t, flush0_4 t, ?_⟩
  rw [mem_blk0]
  intro a
  match a with
  | ⟨0, _⟩ => show win0_4.index t (0 : Fin 2) * 10000 ≤ (i 0).val ∧ (i 0).val < win0_4.index t (0 : Fin 2) * 10000 + 10000; rw [e0']; omega
  | ⟨1, _⟩ => show win0_4.index t (1 : Fin 2) * 64 ≤ (i 1).val ∧ (i 1).val < win0_4.index t (1 : Fin 2) * 64 + 64; rw [e1]; omega

/-- region 0's output array after the region: the spec's function of the WHOLE arrays the region was entered with -/
theorem arr0_final (c : Dev nD) :
    ((dat0 (F := Ideal) V c).arrAt 4 cfg0.N : S100000x64.Idx → EReal)
      = Cert.Gnn.hidden1 (N := 100000) (V c main_v26) (V c main_v10) (V c main_arg1) (Cert.Mlp.row (V c main_v27)) :=
  (dat0 (F := Ideal) V c).arrAt_eq_of_cover 4 (G0 V c) (fun t _ => flushed0_eq V c t) cover0

end

section
variable (V : (c : Dev nD) → (b : Ref sig .tc) → Buf (Elt Ideal) ((c : Thread nD τ).loc b))

/-- The pooled head's output window sits at block (0, 0) at every point: its one block is the whole [8, 2] array. -/
theorem idx_facts1 : ∀ t : Fin cfg1.N, win1_6.index t (0 : Fin 2) = 0 ∧ win1_6.index t (1 : Fin 2) = 0 :=
  (by decide +kernel : ∀ t : Fin grid1.N, _)

/-- The output window's block, read off any contents of the [8, 2] array, is those contents. -/
theorem blk1_6_read (t : Fin cfg1.N) (G : Vec Ideal S8x2 .f32) :
    ((cfg1.win 6).blk t).view.read (Elt Ideal) G = G := by
  obtain ⟨e0, e1⟩ := idx_facts1 t
  have hz' : (fun a => win1_6.index t a * main_v44.ty.shape.size a) = fun _ => 0 := funext fun a => by
    match a with
    | ⟨0, _⟩ => show win1_6.index t (0 : Fin 2) * 8 = 0; rw [e0]
    | ⟨1, _⟩ => show win1_6.index t (1 : Fin 2) * 2 = 0; rw [e1]
  exact Memref.read_access_unit_zero (Elt Ideal) main_v44 hz' (fun a => by rw [congrFun hz' a]; simp) G

/-- Every index of the [8, 2] array is in that block. -/
theorem mem_blk1_6 (t : Fin cfg1.N) (i : S8x2.Idx) : i ∈ ((cfg1.win 6).blk t).view.set := by
  obtain ⟨e0, e1⟩ := idx_facts1 t
  show i ∈ ((View.whole main_v44).slice (win1_6.rect t)).set
  rw [View.set_slice_whole, Rect.mem_set_unit]
  intro a
  have h0 : (i 0 : Nat) < 8 := (i 0).isLt
  have h1 : (i 1 : Nat) < 2 := (i 1).isLt
  match a with
  | ⟨0, _⟩ => show win1_6.index t (0 : Fin 2) * 8 ≤ (i 0 : Nat) ∧ (i 0 : Nat) < win1_6.index t (0 : Fin 2) * 8 + 8; rw [e0]; omega
  | ⟨1, _⟩ => show win1_6.index t (1 : Fin 2) * 2 ≤ (i 1 : Nat) ∧ (i 1 : Nat) < win1_6.index t (1 : Fin 2) * 2 + 2; rw [e1]; omega

/-- The array after the region is whatever the one flushing point, the last, left in the staging buffer. -/
theorem arr1_of (c : Dev nD) (h9 : 9 < cfg1.N) (G : Vec Ideal S8x2 .f32)
    (hG : (dat1 (F := Ideal) V c).after 6 ⟨9, h9⟩ = G) : (dat1 (F := Ideal) V c).arrAt 6 cfg1.N = G := by
  refine (dat1 (F := Ideal) V c).arrAt_eq_of_cover 6 G (fun t hf => ?_)
    (fun i => ⟨⟨9, h9⟩, (flush1_6 _).mpr rfl, mem_blk1_6 _ i⟩)
  have h1 : t.val = 9 := by
    have h := (flush1_6 t).mp hf
    have hlt : t.val < 10 := lt_of_lt_of_eq t.isLt N_1
    omega
  obtain rfl : t = ⟨9, h9⟩ := Fin.ext h1
  show (cfg1.win 6).cut (grid1.coords ⟨9, h9⟩) ((dat1 (F := Ideal) V c).after 6 ⟨9, h9⟩) = _
  rw [hG]
  exact (blk1_6_read ⟨9, h9⟩ G).symm

/-- region 1's output array after the region is what its last point stored -/
theorem arr1_final (c : Dev nD) (h9 : 9 < cfg1.N) :
    (dat1 (F := Ideal) V c).arrAt 6 cfg1.N = out1_6 (F := Ideal) V c ⟨9, h9⟩ :=
  arr1_of V c h9 _ (after1_6 V c ⟨9, h9⟩)

end

end Cert.KernelIdeal.Val

end
-- ==== Proof.LibSegSum.lean ====
/-
  SEGMENT SUMS: a one-hot matrix product against a scatter-add.

  A segment sum takes rows `x n` (`n` below `N`) and a segment id `b n` for each, and adds up, for each segment `g`,
  the rows whose id is `g`.  Two programs for it meet here.

  The dense one forms the one-hot matrix of the ids, `O n g = 1` when `b n = g` and `0` otherwise, and multiplies its
  transpose into the rows: entry `(g, h)` of the product is `∑ n, O n g * x n h`.  Over the extended reals a zero
  factor kills its term whatever the other factor is, infinite or not, so that sum is the sum of `x n h` over the `n`
  with `b n = g` and nothing else: no finiteness of the rows is needed.

  The sparse one is the host's scatter with an `add` body, at the dimension numbers that send update `(n, h)` to
  operand element `(b n, h)`: update window axis 1, inserted window axis 0, the one component of the start index
  mapped to operand axis 0, the index vector on axis 1 of the ids `[N, 1]`.  The id is read as a signed integer and not
  clamped; an update whose row is not a row of the operand is dropped.  Read at `(g, h)` it is the operand there plus
  the sum of `x n h` over the `n` whose id, read signed, is `g`.

  The two agree because a 32-bit word read signed is a natural `g` below `2^31` exactly when it is the word of `g`.
  Ids outside the operand's rows contribute to neither: the scatter drops them and no column of the one-hot matrix
  matches them (or the column they match is never read).

  The dense program is usually run a block of rows at a time, its partial products added up; a sum over `B * T` rows
  is the sum over `B` blocks of the sums over each block's `T` rows (`sum_blocks`), in whatever order the blocks are
  added, sums of extended reals being commutative and associative.

  Contents: `sum_onehot_mul` (the one-hot sum); `segDims` and `hostScatterAdd_seg` (the scatter read at an element);
  `toInt_eq_natCast_iff` (word against signed reading); `sum_blocks`; `ohDot` and `ohDot_sum` (the contraction of a
  product whose two operands are both contracted on their row axis, re-indexed by the row); `blocks_onehot_eq_scatter`
  (the law).
-/
import Idealize.ShloMosaic.PureOps.Ideal
import Idealize.ShloMosaic.PureOps.Ideal.Laws
import Idealize.ShloMosaic.Lib.ValueIdx

noncomputable section

open scoped BigOperators

namespace Cert.Lib.SegSum

open Idealize.ShloMosaic Idealize.ShloMosaic.ValueIdx

/-! ## The one-hot sum -/

/-- A sum of terms each multiplied by `1` or `0` is the sum of the terms multiplied by `1`: on the extended reals
    `0 * x = 0` at the infinities too. -/
theorem sum_onehot_mul {ι : Type*} [Fintype ι] (p : ι → Prop) [DecidablePred p] (x : ι → EReal) :
    ∑ n, (if p n then (1 : EReal) else 0) * x n = ∑ n ∈ Finset.univ.filter p, x n := by
  rw [Finset.sum_filter]
  exact Finset.sum_congr rfl fun n _ => by split_ifs <;> simp

/-! ## The segment scatter read at an element -/

/-- The dimension numbers of a segment scatter: operand `[G, H]`, ids `[N, 1]`, updates `[N, H]`; their conditions
    `wf` are decided on a program's literal shapes. -/
abbrev segDims (G N H : Nat) (wf : ScatterDims.WF ⟨2, ![G, H]⟩ ⟨2, ![N, 1]⟩ ⟨2, ![N, H]⟩ [1] [0] [0] 1) :
    ScatterDims ⟨2, ![G, H]⟩ ⟨2, ![N, 1]⟩ ⟨2, ![N, H]⟩ where
  updateWindowDims := [1]
  insertedWindowDims := [0]
  scatterDimsToOperandDims := [0]
  indexVectorDim := 1
  wf := wf

variable {G N H w : Nat} (wf : ScatterDims.WF ⟨2, ![G, H]⟩ ⟨2, ![N, 1]⟩ ⟨2, ![N, H]⟩ [1] [0] [0] 1)

/-- The window coordinate on the operand's row axis is zero: that axis is inserted. -/
theorem seg_window0 (j : (⟨2, ![N, H]⟩ : Shape).Idx) : (segDims G N H wf).window j 0 = 0 := rfl
/-- The window coordinate on the operand's column axis is the update's column. -/
theorem seg_window1 (j : (⟨2, ![N, H]⟩ : Shape).Idx) : (segDims G N H wf).window j 1 = (j 1).val := rfl
/-- The window starts at column zero: no component of the start index names the column axis. -/
theorem seg_start1 (j : (⟨2, ![N, H]⟩ : Shape).Idx) (idx : IVec ⟨2, ![N, 1]⟩ w) : (segDims G N H wf).start j idx 1 = 0 := rfl
/-- The window starts at the row the update's id names, read signed. -/
theorem seg_start0 (j : (⟨2, ![N, H]⟩ : Shape).Idx) (idx : IVec ⟨2, ![N, 1]⟩ w) :
    (segDims G N H wf).start j idx 0 = (idx (ix2 (j 0) ⟨0, Nat.one_pos⟩)).toInt := by
  unfold ScatterDims.start
  rw [dif_pos (show (0 : Fin 2) ∈ (segDims G N H wf).scatterDimsToOperandDims from List.mem_singleton.mpr rfl)]
  congr 2
  funext b
  match b with
  | ⟨0, _⟩ => rfl
  | ⟨1, _⟩ => rfl

/-- Where update `(n, h)` lands: at row `idx[n, 0]`, read signed, and column `h`, when that row exists. -/
theorem seg_resultIdx?_eq_some (j : (⟨2, ![N, H]⟩ : Shape).Idx) (idx : IVec ⟨2, ![N, 1]⟩ w) (i : (⟨2, ![G, H]⟩ : Shape).Idx) :
    (segDims G N H wf).resultIdx? j idx = some i
      ↔ (idx (ix2 (j 0) ⟨0, Nat.one_pos⟩)).toInt = ((i 0).val : Int) ∧ (j 1).val = (i 1).val := by
  have hi0 : (i 0).val < G := (i 0).isLt
  have hi1 : (i 1).val < H := (i 1).isLt
  have hj1 : (j 1).val < H := (j 1).isLt
  unfold ScatterDims.resultIdx?
  split_ifs with h
  · rw [Option.some.injEq]
    have h0 := (h 0).1
    rw [seg_start0, seg_window0] at h0
    constructor
    · rintro rfl
      refine ⟨?_, ?_⟩
      · show _ = (((((segDims G N H wf).start j idx 0 + ((segDims G N H wf).window j 0 : Nat)).toNat : Nat)) : Int)
        rw [seg_start0, seg_window0]; omega
      · show _ = ((segDims G N H wf).start j idx 1 + ((segDims G N H wf).window j 1 : Nat)).toNat
        rw [seg_start1, seg_window1]; omega
    · rintro ⟨e0, e1⟩
      funext a
      refine Fin.ext ?_
      match a with
      | ⟨0, _⟩ =>
        show ((segDims G N H wf).start j idx 0 + ((segDims G N H wf).window j 0 : Nat)).toNat = (i 0).val
        rw [seg_start0, seg_window0]; omega
      | ⟨1, _⟩ =>
        show ((segDims G N H wf).start j idx 1 + ((segDims G N H wf).window j 1 : Nat)).toNat = (i 1).val
        rw [seg_start1, seg_window1]; omega
  · refine iff_of_false (by simp) ?_
    rintro ⟨e0, e1⟩
    refine h fun a => ?_
    match a with
    | ⟨0, _⟩ =>
      show 0 ≤ (segDims G N H wf).start j idx 0 + ((segDims G N H wf).window j 0 : Nat)
        ∧ (segDims G N H wf).start j idx 0 + ((segDims G N H wf).window j 0 : Nat) < (G : Int)
      rw [seg_start0, seg_window0]; omega
    | ⟨1, _⟩ =>
      show 0 ≤ (segDims G N H wf).start j idx 1 + ((segDims G N H wf).window j 1 : Nat)
        ∧ (segDims G N H wf).start j idx 1 + ((segDims G N H wf).window j 1 : Nat) < (H : Int)
      rw [seg_start1, seg_window1]; omega

/-- THE SEGMENT SCATTER-ADD READ AT `(g, h)`: the operand there plus the sum, over the rows `n` whose segment id is
    `g`, of the update's `(n, h)`. Rows whose id is no row of the operand match no `g` and are dropped. -/
theorem hostScatterAdd_seg (x : (⟨2, ![G, H]⟩ : Shape).Idx → EReal) (idx : IVec ⟨2, ![N, 1]⟩ w)
    (upd : (⟨2, ![N, H]⟩ : Shape).Idx → EReal) (i : (⟨2, ![G, H]⟩ : Shape).Idx) :
    Ideal.hostScatterAdd (segDims G N H wf) x idx upd i
      = x i + ∑ n : Fin N, if (idx (ix2 n ⟨0, Nat.one_pos⟩)).toInt = ((i 0).val : Int) then upd (ix2 n (i 1)) else 0 := by
  unfold Ideal.hostScatterAdd
  congr 1
  rw [Finset.sum_filter, sum_idx2]
  refine Finset.sum_congr rfl fun n _ => ?_
  have key : ∀ b : Fin H, (if (segDims G N H wf).resultIdx? (ix2 n b) idx = some i then upd (ix2 n b) else 0)
      = if (idx (ix2 n ⟨0, Nat.one_pos⟩)).toInt = ((i 0).val : Int) ∧ b.val = (i 1).val then upd (ix2 n b) else 0 :=
    fun b => if_congr (seg_resultIdx?_eq_some wf (ix2 n b) idx i) rfl rfl
  refine (Finset.sum_congr rfl fun b _ => key b).trans ?_
  by_cases hc : (idx (ix2 n ⟨0, Nat.one_pos⟩)).toInt = ((i 0).val : Int)
  · rw [if_pos hc]
    refine (Finset.sum_eq_single (i 1) ?_ ?_).trans ?_
    · intro b _ hb
      exact if_neg fun hh => hb (Fin.ext hh.2)
    · intro hh; exact absurd (Finset.mem_univ _) hh
    · exact if_pos ⟨hc, rfl⟩
  · rw [if_neg hc]
    exact Finset.sum_eq_zero fun b _ => if_neg fun hh => hc hh.1

/-! ## Words and blocks -/

/-- A 32-bit word read signed is the natural `g`, for `g` below `2^31`, exactly when it is the word of `g`. -/
theorem toInt_eq_natCast_iff (v : BitVec 32) (g : Nat) (hg : g < 2 ^ 31) : v.toInt = (g : Int) ↔ v = BitVec.ofNat 32 g := by
  have hg' : (BitVec.ofNat 32 g).toInt = (g : Int) := by
    have hn : (BitVec.ofNat 32 g).toNat = g := by
      rw [BitVec.toNat_ofNat]; exact Nat.mod_eq_of_lt (by omega)
    rw [BitVec.toInt_eq_toNat_of_lt (by rw [hn]; omega), hn]
  constructor
  · intro h; exact BitVec.eq_of_toInt_eq (h.trans hg'.symm)
  · rintro rfl; exact hg'

/-- A sum over `B * T` rows is the sum over the `B` blocks of `T` rows of each block's sum. -/
theorem sum_blocks {M : Type*} [AddCommMonoid M] (B T : Nat) (f : Fin (B * T) → M) :
    ∑ n, f n = ∑ t : Fin B, ∑ r : Fin T, f ⟨t.val * T + r.val, by
      have := t.isLt; have := r.isLt
      calc t.val * T + r.val < t.val * T + T := by omega
        _ = (t.val + 1) * T := by ring
        _ ≤ B * T := Nat.mul_le_mul_right T (by omega)⟩ := by
  rw [← Equiv.sum_comp finProdFinEquiv f, Fintype.sum_prod_type]
  refine Finset.sum_congr rfl fun t _ => Finset.sum_congr rfl fun r _ => congrArg f (Fin.ext ?_)
  show r.val + T * t.val = t.val * T + r.val
  ring

/-! ## The contraction of a product of two operands contracted on their row axis -/

/-- The dimension numbers of `Lᵀ · R` for `L : [T, G]` and `R : [T, H]`: both operands contracted on axis 0, their
    column axes kept, no batch axis; their conditions `wf` are decided on a program's literal shapes. -/
abbrev ohDot (T G H : Nat) (wf : DotDims.WF ⟨2, ![T, G]⟩ ⟨2, ![T, H]⟩ ⟨2, ![G, H]⟩ [0] [0] [1] [1] [] []) :
    DotDims ⟨2, ![T, G]⟩ ⟨2, ![T, H]⟩ ⟨2, ![G, H]⟩ where
  lhsContracting := [0]
  rhsContracting := [0]
  lhsNonContracting := [1]
  rhsNonContracting := [1]
  lhsBatch := []
  rhsBatch := []
  wf := wf

/-- That contraction, re-indexed by the row: entry `(g, h)` sums `L r g * R r h` over the rows `r`. -/
theorem ohDot_sum {T G H : Nat} (wf : DotDims.WF ⟨2, ![T, G]⟩ ⟨2, ![T, H]⟩ ⟨2, ![G, H]⟩ [0] [0] [1] [1] [] [])
    (L : (⟨2, ![T, G]⟩ : Shape).Idx → EReal) (R : (⟨2, ![T, H]⟩ : Shape).Idx → EReal) (j : (⟨2, ![G, H]⟩ : Shape).Idx) :
    ∑ k : (ohDot T G H wf).contr.Idx, L ((ohDot T G H wf).lhsIdx j k) * R ((ohDot T G H wf).rhsIdx j k)
      = ∑ r : Fin T, L (ix2 r (j 0)) * R (ix2 r (j 1)) := by
  rw [← Equiv.sum_comp (contrEquiv1 (ohDot T G H wf) T rfl rfl).symm]
  refine Finset.sum_congr rfl fun r _ => ?_
  have hl : (ohDot T G H wf).lhsIdx j ((contrEquiv1 (ohDot T G H wf) T rfl rfl).symm r) = ix2 r (j 0) := by
    funext a
    match a with
    | ⟨0, _⟩ => rfl
    | ⟨1, _⟩ => rfl
  have hr : (ohDot T G H wf).rhsIdx j ((contrEquiv1 (ohDot T G H wf) T rfl rfl).symm r) = ix2 r (j 1) := by
    funext a
    match a with
    | ⟨0, _⟩ => rfl
    | ⟨1, _⟩ => rfl
  exact congrArg₂ (· * ·) (congrArg L hl) (congrArg R hr)

/-! ## The law -/

/-- THE LAW. The one-hot products of the `B` blocks of `T` rows, added up, are the segment scatter-add of the rows
    into zeros: at segment `g` (a row of the scatter's operand, below `2^31`) and column `h`, the sum over the blocks
    `t` and the rows `r` of a block of `[b (t·T + r) = g] * x (t·T + r) h` is the scatter-add read at `(g, h)`. -/
theorem blocks_onehot_eq_scatter {B T G N H : Nat} (hN : N = B * T)
    (wf : ScatterDims.WF ⟨2, ![G, H]⟩ ⟨2, ![N, 1]⟩ ⟨2, ![N, H]⟩ [1] [0] [0] 1)
    (bat : IVec ⟨2, ![N, 1]⟩ 32) (x : (⟨2, ![N, H]⟩ : Shape).Idx → EReal) (i : (⟨2, ![G, H]⟩ : Shape).Idx) (hG : G ≤ 2 ^ 31)
    (row : Fin B → Fin T → Fin N) (hrow : ∀ t r, (row t r).val = t.val * T + r.val) :
    ∑ t : Fin B, ∑ r : Fin T,
        (if bat (ix2 (row t r) ⟨0, Nat.one_pos⟩) = BitVec.ofNat 32 (i 0).val then (1 : EReal) else 0) * x (ix2 (row t r) (i 1))
      = Ideal.hostScatterAdd (segDims G N H wf) (fun _ => 0) bat x i := by
  subst hN
  have hi0 : (i 0).val < G := (i 0).isLt
  rw [hostScatterAdd_seg, zero_add, sum_blocks]
  refine Finset.sum_congr rfl fun t _ => Finset.sum_congr rfl fun r _ => ?_
  have hr : row t r = ⟨t.val * T + r.val, (hrow t r) ▸ (row t r).isLt⟩ := Fin.ext (hrow t r)
  rw [← hr]
  by_cases hc : bat (ix2 (row t r) ⟨0, Nat.one_pos⟩) = BitVec.ofNat 32 (i 0).val
  · rw [if_pos hc, if_pos ((toInt_eq_natCast_iff _ _ (by omega)).2 hc), one_mul]
  · rw [if_neg hc, if_neg (fun h => hc ((toInt_eq_natCast_iff _ _ (by omega)).1 h)), zero_mul]

end Cert.Lib.SegSum

end
-- ==== Proof.KI.Val1.lean ====
/-
  Region 1's value: what the pooled head stores at the last grid point, as a function of the arrays the region
  is entered with.

  Each grid point t sees rows t·10000 … t·10000 + 9999 of the node array and of the graph-id column; the weights and
  biases are seen whole at every point. A point forms the dense epilogue of its rows, max (x·W + b) 0, and the one-hot
  matrix of its ids (entry (p, g) is 1 when row p's id word is the word of g, else 0), and adds to the running
  per-graph sum the transposed product of the one-hot matrix with the epilogue, and to the running per-graph count the
  transposed product with a column of ones. So after point n the sum at (g, d) is the sum over the rows r below
  (n+1)·10000 of [id r = g] · dense r d, and the count at g the same sum of [id r = g] · one. After the last point these
  run over all 100000 rows: the segment sum and the segment count. The head divides the first by the larger of one
  and the second and projects through Wp, bp.

  Sums of extended reals commute and associate, and 0 · x = 0, 1 · x = x hold at the infinities: no finiteness is used.
-/
import proofs.«427144_j14688788152817_2_alg».proof.Proof.KI.R1Defs
import proofs.«427144_j14688788152817_2_alg».proof.Proof.Spec
import proofs.«427144_j14688788152817_2_alg».proof.Proof.LibMlp
import proofs.«427144_j14688788152817_2_alg».proof.Proof.LibSegSum
import proofs.«427144_j14688788152817_2_alg».proof.Proof.LibColumn
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open scoped BigOperators

namespace Cert.KernelIdeal.R1

open Cert.KernelIdeal Cert.KernelIdeal.Gen
open Idealize.ShloMosaic Idealize.ShloMosaic.ValueIdx Idealize.ShloMosaic.TcCoe
open Idealize.ShloMosaic.Pipeline (Dat Cfg Window)

/-! ## The payloads at an index -/

/-- The one-hot factor of a row: 1 when the row's id word is the word of graph g, else 0. -/
def oh (w : BitVec 32) (g : ℕ) : EReal := if w = BitVec.ofNat 32 g then 1 else 0

/-- A compare bit, zero-extended and read as a signed integer, is 1 or 0 as the two words are equal or not. -/
theorem onehot_word (a b : BitVec 32) :
    (FloatOps.sitofp (F := Ideal) .f32 ((IntOp.cmpi .eq a b).setWidth 32) : EReal) = if a = b then 1 else 0 := by
  by_cases h : a = b
  · rw [if_pos h]
    have e : IntOp.cmpi .eq a b = 1#1 := by simp [IntOp.cmpi, h]
    rw [e]
    show (((((1#1 : BitVec 1).setWidth 32).toInt : ℝ)) : EReal) = 1
    have e2 : ((1#1 : BitVec 1).setWidth 32).toInt = 1 := by decide
    rw [e2]; simp
  · rw [if_neg h]
    have e : IntOp.cmpi .eq a b = 0#1 := by
      show BitVec.ofBool (a == b) = 0#1
      rw [beq_eq_false_iff_ne.mpr h]; rfl
    rw [e]
    show (((((0#1 : BitVec 1).setWidth 32).toInt : ℝ)) : EReal) = 0
    have e2 : ((0#1 : BitVec 1).setWidth 32).toInt = 0 := by decide
    rw [e2]; simp

/-- The one-hot matrix of a block's ids at (p, g). -/
theorem pay4_apply (gid : IVec S10000x1 32) (p : Fin 10000) (g : Fin 8) :
    k1_pay4 (F := Ideal) gid (ix2 p g) = oh (gid (ix2 p ⟨0, Nat.one_pos⟩)) g.val := by
  unfold k1_pay4 oh
  show FloatOps.sitofp (F := Ideal) .f32 ((IntOp.cmpi .eq
      (broadcastTo S10000x8 (shapeCast S10000x1 gid shapeCasts_S10000x1_S10000x1) broadcasts_S10000x1_S10000x8 (ix2 p g))
      (iota .tc S10000x8 32 [1] iota_S10000x8_d1_w32 (ix2 p g))).setWidth 32) = _
  rw [shapeCast_self, Cert.Attn.Column.broadcastTo_a1_ab_apply gid broadcasts_S10000x1_S10000x8 p g,
    iota_single_apply .tc S10000x8 32 1 iota_S10000x8_d1_w32 (ix2 p g)]
  exact onehot_word _ _

/-- The dense epilogue of a block of rows, as the vector dialect spells it: a matrix product into a zero accumulator,
    the bias row broadcast down the rows, the rectifier against a broadcast zero. -/
theorem dense_stage (x : FVec Ideal S10000x64 .f32) (W : FVec Ideal S64x64 .f32) (b : FVec Ideal S1x64 .f32) :
    (maximumf (addf (matmul dot_S10000x64_S64x64_S10000x64_1_0_0_1_n_n none (shapeCast S10000x64 x shapeCasts_S10000x64_S10000x64) W
        (constant (F := Ideal) S10000x64 .f32 0x00000000#32))
        (broadcastTo S10000x64 (shapeCast S1x64 b shapeCasts_S1x64_S1x64) broadcasts_S1x64_S10000x64))
        (broadcast S10000x64 (Scalar.ofBits (F := Ideal) .f32 0x00000000#32)) : FVec Ideal S10000x64 .f32)
      = Cert.Gnn.dense (N := 10000) x W (Cert.Mlp.row b) := by
  have hd : dot_S10000x64_S64x64_S10000x64_1_0_0_1_n_n = DotDims.plain 10000 64 64 := rfl
  rw [shapeCast_self, shapeCast_self, hd]
  funext i
  obtain ⟨p, q, rfl⟩ : ∃ (p : Fin 10000) (q : Fin 64), i = ix2 p q := ⟨i 0, i 1, eq_ix2 i⟩
  show max (matmul (DotDims.plain 10000 64 64) none x W (constant (F := Ideal) S10000x64 .f32 0x00000000#32) (ix2 p q)
      + broadcastTo S10000x64 b broadcasts_S1x64_S10000x64 (ix2 p q)) (Ideal.ofBits .f32 0x00000000#32) = _
  rw [show matmul (DotDims.plain 10000 64 64) none x W (constant (F := Ideal) S10000x64 .f32 0x00000000#32) (ix2 p q) = _ from
      Ideal.matmul_constant_zero_apply (DotDims.plain 10000 64 64) none x W (ix2 p q),
    Cert.Mlp.plain_sum x W (ix2 p q), Cert.Mlp.bcast_row broadcasts_S1x64_S10000x64 b p q]
  rfl

/-- The running sum after a point: what it was plus, for graph g and column d, the one-hot factors of the block's rows
    times the dense epilogue of those rows. -/
theorem pay5_apply (x : FVec Ideal S10000x64 .f32) (W : FVec Ideal S64x64 .f32) (b : FVec Ideal S1x64 .f32)
    (gid : IVec S10000x1 32) (acc : FVec Ideal S8x64 .f32) (g : Fin 8) (d : Fin 64) :
    k1_pay5 (F := Ideal) x W b gid acc (ix2 g d)
      = acc (ix2 g d) + ∑ p : Fin 10000, oh (gid (ix2 p ⟨0, Nat.one_pos⟩)) g.val
          * Cert.Gnn.dense (N := 10000) x W (Cert.Mlp.row b) (ix2 p d) := by
  unfold k1_pay5
  rw [shapeCast_self]
  have hd : dot_S10000x8_S10000x64_S8x64_0_0_1_1_n_n = Cert.Lib.SegSum.ohDot 10000 8 64 dot_S10000x8_S10000x64_S8x64_0_0_1_1_n_n_wf := rfl
  rw [dense_stage x W b, hd]
  show acc (ix2 g d) + matmul (Cert.Lib.SegSum.ohDot 10000 8 64 dot_S10000x8_S10000x64_S8x64_0_0_1_1_n_n_wf) none (k1_pay4 (F := Ideal) gid)
      (Cert.Gnn.dense (N := 10000) x W (Cert.Mlp.row b)) (constant (F := Ideal) S8x64 .f32 0x00000000#32) (ix2 g d) = _
  rw [show matmul (Cert.Lib.SegSum.ohDot 10000 8 64 dot_S10000x8_S10000x64_S8x64_0_0_1_1_n_n_wf) none (k1_pay4 (F := Ideal) gid)
      (Cert.Gnn.dense (N := 10000) x W (Cert.Mlp.row b)) (constant (F := Ideal) S8x64 .f32 0x00000000#32) (ix2 g d) = _ from
      Ideal.matmul_constant_zero_apply _ none (k1_pay4 (F := Ideal) gid) (Cert.Gnn.dense (N := 10000) x W (Cert.Mlp.row b)) (ix2 g d),
    Cert.Lib.SegSum.ohDot_sum dot_S10000x8_S10000x64_S8x64_0_0_1_1_n_n_wf (k1_pay4 (F := Ideal) gid) _ (ix2 g d)]
  refine congrArg (acc (ix2 g d) + ·) (Finset.sum_congr rfl fun p _ => ?_)
  exact congrArg (· * Cert.Gnn.dense (N := 10000) x W (Cert.Mlp.row b) (ix2 p d)) (pay4_apply gid p g)

/-- The running count after a point: what it was plus the one-hot factors of the block's rows, each times the word of one. -/
theorem pay6_apply (gid : IVec S10000x1 32) (acc : FVec Ideal S8x1 .f32) (g : Fin 8) :
    k1_pay6 (F := Ideal) gid acc (ix2 g ⟨0, Nat.one_pos⟩)
      = acc (ix2 g ⟨0, Nat.one_pos⟩) + ∑ p : Fin 10000, oh (gid (ix2 p ⟨0, Nat.one_pos⟩)) g.val * Cert.Gnn.one := by
  unfold k1_pay6
  rw [shapeCast_self]
  have hd : dot_S10000x8_S10000x1_S8x1_0_0_1_1_n_n = Cert.Lib.SegSum.ohDot 10000 8 1 dot_S10000x8_S10000x1_S8x1_0_0_1_1_n_n_wf := rfl
  rw [hd]
  show acc (ix2 g ⟨0, Nat.one_pos⟩) + matmul (Cert.Lib.SegSum.ohDot 10000 8 1 dot_S10000x8_S10000x1_S8x1_0_0_1_1_n_n_wf) none (k1_pay4 (F := Ideal) gid)
      (broadcast S10000x1 (Scalar.ofBits (F := Ideal) .f32 0x3F800000#32)) (constant (F := Ideal) S8x1 .f32 0x00000000#32) (ix2 g ⟨0, Nat.one_pos⟩) = _
  rw [show matmul (Cert.Lib.SegSum.ohDot 10000 8 1 dot_S10000x8_S10000x1_S8x1_0_0_1_1_n_n_wf) none (k1_pay4 (F := Ideal) gid)
      (broadcast S10000x1 (Scalar.ofBits (F := Ideal) .f32 0x3F800000#32)) (constant (F := Ideal) S8x1 .f32 0x00000000#32) (ix2 g ⟨0, Nat.one_pos⟩) = _ from
      Ideal.matmul_constant_zero_apply _ none (k1_pay4 (F := Ideal) gid) (broadcast S10000x1 (Scalar.ofBits (F := Ideal) .f32 0x3F800000#32)) (ix2 g ⟨0, Nat.one_pos⟩),
    Cert.Lib.SegSum.ohDot_sum dot_S10000x8_S10000x1_S8x1_0_0_1_1_n_n_wf (k1_pay4 (F := Ideal) gid) _ (ix2 g ⟨0, Nat.one_pos⟩)]
  refine congrArg (acc (ix2 g ⟨0, Nat.one_pos⟩) + ·) (Finset.sum_congr rfl fun p _ => ?_)
  exact congrArg (· * Cert.Gnn.one) (pay4_apply gid p g)

/-- The two accumulators start at the zero word, which is zero. -/
theorem pay2_apply (i : S8x64.Idx) : k1_pay2 (F := Ideal) i = 0 := by
  unfold k1_pay2
  rw [shapeCast_self]
  exact Ideal.ofBits_zero_f32

theorem pay3_apply (i : S8x1.Idx) : k1_pay3 (F := Ideal) i = 0 := by
  unfold k1_pay3
  rw [shapeCast_self]
  exact Ideal.ofBits_zero_f32

/-- The head: each graph's sum divided by the larger of one and its count, projected, plus the bias. -/
theorem pay1_apply (cnt : FVec Ideal S8x1 .f32) (sum : FVec Ideal S8x64 .f32) (Wp : FVec Ideal S64x2 .f32) (bp : FVec Ideal S1x2 .f32)
    (g : Fin 8) (k : Fin 2) :
    k1_pay1 (F := Ideal) cnt sum Wp bp (ix2 g k)
      = (∑ d : Fin 64, Ideal.div (sum (ix2 g d)) (max Cert.Gnn.one (cnt (ix2 g ⟨0, Nat.one_pos⟩))) * Wp (ix2 d k))
        + Cert.Mlp.row bp k := by
  unfold k1_pay1
  rw [shapeCast_self]
  have hd : dot_S8x64_S64x2_S8x2_1_0_0_1_n_n = DotDims.plain 8 64 2 := rfl
  rw [hd]
  show matmul (DotDims.plain 8 64 2) none
      (divf sum (broadcastTo S8x64 (maximumf (broadcast S8x1 (Scalar.ofBits (F := Ideal) .f32 0x3F800000#32)) cnt) broadcasts_S8x1_S8x64))
      Wp (constant (F := Ideal) S8x2 .f32 0x00000000#32) (ix2 g k)
      + broadcastTo S8x2 bp broadcasts_S1x2_S8x2 (ix2 g k) = _
  rw [show matmul (DotDims.plain 8 64 2) none
      (divf sum (broadcastTo S8x64 (maximumf (broadcast S8x1 (Scalar.ofBits (F := Ideal) .f32 0x3F800000#32)) cnt) broadcasts_S8x1_S8x64))
      Wp (constant (F := Ideal) S8x2 .f32 0x00000000#32) (ix2 g k) = _ from
      Ideal.matmul_constant_zero_apply (DotDims.plain 8 64 2) none _ Wp (ix2 g k),
    Cert.Mlp.plain_sum _ Wp (ix2 g k), Cert.Mlp.bcast_row broadcasts_S1x2_S8x2 bp g k]
  refine congrArg (· + bp (ix2 0 k)) (Finset.sum_congr rfl fun d _ => ?_)
  refine congrArg (· * Wp (ix2 d k)) ?_
  show Ideal.div (sum (ix2 g d)) (broadcastTo S8x64 (maximumf (broadcast S8x1 (Scalar.ofBits (F := Ideal) .f32 0x3F800000#32)) cnt) broadcasts_S8x1_S8x64 (ix2 g d)) = _
  rw [Cert.Attn.Column.broadcastTo_a1_ab_apply _ broadcasts_S8x1_S8x64 g d]
  rfl

/-! ## The blocks a point sees, read off the arrays -/

variable (V : (c : Dev nD) → (b : Ref sig .tc) → Buf (Elt Ideal) ((c : Thread nD τ).loc b))

/-- The node array, the graph-id column, and the four parameter arrays as the region finds them. -/
abbrev xa (c : Dev nD) : FVec Ideal S100000x64 .f32 := V c main_v40
abbrev ga (c : Dev nD) : IVec S100000x1 32 := V c main_v41
abbrev Wa (c : Dev nD) : FVec Ideal S64x64 .f32 := V c main_arg3
abbrev ba (c : Dev nD) : FVec Ideal S1x64 .f32 := V c main_v42
abbrev Wpa (c : Dev nD) : FVec Ideal S64x2 .f32 := V c main_arg5
abbrev bpa (c : Dev nD) : FVec Ideal S1x2 .f32 := V c main_v43

/-- The blocks of the six input windows at a point, at their literal types. -/
abbrev xb (c : Dev nD) (t : Fin cfg1.N) : FVec Ideal S10000x64 .f32 := iblk1 V c 0 t
abbrev gb (c : Dev nD) (t : Fin cfg1.N) : IVec S10000x1 32 := iblk1 V c 1 t
abbrev Wb (c : Dev nD) (t : Fin cfg1.N) : FVec Ideal S64x64 .f32 := iblk1 V c 2 t
abbrev bb (c : Dev nD) (t : Fin cfg1.N) : FVec Ideal S1x64 .f32 := iblk1 V c 3 t
abbrev Wpb (c : Dev nD) (t : Fin cfg1.N) : FVec Ideal S64x2 .f32 := iblk1 V c 4 t
abbrev bpb (c : Dev nD) (t : Fin cfg1.N) : FVec Ideal S1x2 .f32 := iblk1 V c 5 t

/-- The printed index maps over the grid: the row windows' block index is the point on the row axis and zero on the
    column axis; the parameter windows' block index is zero on both. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

/-- Row p of the node block at point t is row t·10000 + p of the node array. -/
theorem xb_read (c : Dev nD) (t : Fin cfg1.N) (p : Fin 10000) (q : Fin 64) (h : t.val * 10000 + p.val < 100000) :
    xb V c t (ix2 p q) = xa V c (ix2 ⟨t.val * 10000 + p.val, h⟩ q) := by
  show V c main_v40 (((cfg1.win 0).blk t).view.emb (ix2 p q)) = V c main_v40 (ix2 ⟨t.val * 10000 + p.val, h⟩ q)
  obtain ⟨e0, e1, -⟩ := idx_facts1 t
  refine congrArg (V c main_v40) (funext fun a => Fin.ext ?_)
  match a with
  | ⟨0, _⟩ => show win1_0.index t (0 : Fin 2) * 10000 + 1 * p.val = t.val * 10000 + p.val; omega
  | ⟨1, _⟩ => show win1_0.index t (1 : Fin 2) * 64 + 1 * q.val = q.val; omega

/-- Row p of the id block at point t is row t·10000 + p of the id column. -/
theorem gb_read (c : Dev nD) (t : Fin cfg1.N) (p : Fin 10000) (h : t.val * 10000 + p.val < 100000) :
    gb V c t (ix2 p ⟨0, Nat.one_pos⟩) = ga V c (ix2 ⟨t.val * 10000 + p.val, h⟩ ⟨0, Nat.one_pos⟩) := by
  show V c main_v41 (((cfg1.win 1).blk t).view.emb (ix2 p ⟨0, Nat.one_pos⟩)) = V c main_v41 (ix2 ⟨t.val * 10000 + p.val, h⟩ ⟨0, Nat.one_pos⟩)
  obtain ⟨-, -, e0, e1, -⟩ := idx_facts1 t
  refine congrArg (V c main_v41) (funext fun a => Fin.ext ?_)
  match a with
  | ⟨0, _⟩ => show win1_1.index t (0 : Fin 2) * 10000 + 1 * p.val = t.val * 10000 + p.val; omega
  | ⟨1, _⟩ => show win1_1.index t (1 : Fin 2) * 1 + 1 * 0 = 0; omega

/-- The parameter windows show their whole arrays at every point. -/
theorem Wb_read (c : Dev nD) (t : Fin cfg1.N) : Wb V c t = Wa V c := by
  funext i
  obtain ⟨p, q, rfl⟩ : ∃ (p : Fin 64) (q : Fin 64), i = ix2 p q := ⟨i 0, i 1, eq_ix2 i⟩
  show V c main_arg3 (((cfg1.win 2).blk t).view.emb (ix2 p q)) = V c main_arg3 (ix2 p q)
  obtain ⟨-, -, -, -, e0, e1, -⟩ := idx_facts1 t
  refine congrArg (V c main_arg3) (funext fun a => Fin.ext ?_)
  match a with
  | ⟨0, _⟩ => show win1_2.index t (0 : Fin 2) * 64 + 1 * p.val = p.val; omega
  | ⟨1, _⟩ => show win1_2.index t (1 : Fin 2) * 64 + 1 * q.val = q.val; omega

theorem bb_read (c : Dev nD) (t : Fin cfg1.N) : bb V c t = ba V c := by
  funext i
  obtain ⟨p, q, rfl⟩ : ∃ (p : Fin 1) (q : Fin 64), i = ix2 p q := ⟨i 0, i 1, eq_ix2 i⟩
  show V c main_v42 (((cfg1.win 3).blk t).view.emb (ix2 p q)) = V c main_v42 (ix2 p q)
  obtain ⟨-, -, -, -, -, -, e0, e1, -⟩ := idx_facts1 t
  refine congrArg (V c main_v42) (funext fun a => Fin.ext ?_)
  match a with
  | ⟨0, _⟩ => show win1_3.index t (0 : Fin 2) * 1 + 1 * p.val = p.val; omega
  | ⟨1, _⟩ => show win1_3.index t (1 : Fin 2) * 64 + 1 * q.val = q.val; omega

theorem Wpb_read (c : Dev nD) (t : Fin cfg1.N) : Wpb V c t = Wpa V c := by
  funext i
  obtain ⟨p, q, rfl⟩ : ∃ (p : Fin 64) (q : Fin 2), i = ix2 p q := ⟨i 0, i 1, eq_ix2 i⟩
  show V c main_arg5 (((cfg1.win 4).blk t).view.emb (ix2 p q)) = V c main_arg5 (ix2 p q)
  obtain ⟨-, -, -, -, -, -, -, -, e0, e1, -⟩ := idx_facts1 t
  refine congrArg (V c main_arg5) (funext fun a => Fin.ext ?_)
  match a with
  | ⟨0, _⟩ => show win1_4.index t (0 : Fin 2) * 64 + 1 * p.val = p.val; omega
  | ⟨1, _⟩ => show win1_4.index t (1 : Fin 2) * 2 + 1 * q.val = q.val; omega

theorem bpb_read (c : Dev nD) (t : Fin cfg1.N) : bpb V c t = bpa V c := by
  funext i
  obtain ⟨p, q, rfl⟩ : ∃ (p : Fin 1) (q : Fin 2), i = ix2 p q := ⟨i 0, i 1, eq_ix2 i⟩
  show V c main_v43 (((cfg1.win 5).blk t).view.emb (ix2 p q)) = V c main_v43 (ix2 p q)
  obtain ⟨-, -, -, -, -, -, -, -, -, -, e0, e1⟩ := idx_facts1 t
  refine congrArg (V c main_v43) (funext fun a => Fin.ext ?_)
  match a with
  | ⟨0, _⟩ => show win1_5.index t (0 : Fin 2) * 1 + 1 * p.val = p.val; omega
  | ⟨1, _⟩ => show win1_5.index t (1 : Fin 2) * 2 + 1 * q.val = q.val; omega

/-! ## The accumulators after each point -/

/-- What row r of the array adds to the sum at (g, d): its one-hot factor times its dense entry (nothing past the array). -/
def sumTerm (c : Dev nD) (g : Fin 8) (d : Fin 64) (r : ℕ) : EReal :=
  if hr : r < 100000 then oh (ga V c (ix2 ⟨r, hr⟩ ⟨0, Nat.one_pos⟩)) g.val
      * Cert.Gnn.dense (N := 100000) (xa V c) (Wa V c) (Cert.Mlp.row (ba V c)) (ix2 ⟨r, hr⟩ d) else 0

/-- What row r adds to the count at g: its one-hot factor times the word of one. -/
def cntTerm (c : Dev nD) (g : Fin 8) (r : ℕ) : EReal :=
  if hr : r < 100000 then oh (ga V c (ix2 ⟨r, hr⟩ ⟨0, Nat.one_pos⟩)) g.val * Cert.Gnn.one else 0

theorem point_lt (t : Fin cfg1.N) (p : Fin 10000) : t.val * 10000 + p.val < 100000 := by
  have ht : t.val < 10 := lt_of_lt_of_eq t.isLt N_1
  have hp := p.isLt
  omega

/-- A point's contribution to the sum, over its block, is the contribution of rows t·10000 … t·10000 + 9999 of the array:
    the dense epilogue reads only its row, and the parameters are the whole arrays. -/
theorem point_sum (c : Dev nD) (t : Fin cfg1.N) (g : Fin 8) (d : Fin 64) :
    (∑ p : Fin 10000, oh (gb V c t (ix2 p ⟨0, Nat.one_pos⟩)) g.val
        * Cert.Gnn.dense (N := 10000) (xb V c t) (Wb V c t) (Cert.Mlp.row (bb V c t)) (ix2 p d))
      = ∑ p : Fin 10000, sumTerm V c g d (t.val * 10000 + p.val) := by
  refine Finset.sum_congr rfl fun p _ => ?_
  have hr := point_lt t p
  unfold sumTerm
  rw [dif_pos hr, gb_read V c t p hr, Wb_read V c t, bb_read V c t]
  exact congrArg (oh (ga V c (ix2 ⟨t.val * 10000 + p.val, hr⟩ ⟨0, Nat.one_pos⟩)) g.val * ·)
    (Cert.Gnn.dense_row (xb V c t) (xa V c) (Wa V c) (Cert.Mlp.row (ba V c)) p ⟨t.val * 10000 + p.val, hr⟩ d
      fun j => xb_read V c t p j hr)

theorem point_cnt (c : Dev nD) (t : Fin cfg1.N) (g : Fin 8) :
    (∑ p : Fin 10000, oh (gb V c t (ix2 p ⟨0, Nat.one_pos⟩)) g.val * Cert.Gnn.one)
      = ∑ p : Fin 10000, cntTerm V c g (t.val * 10000 + p.val) := by
  refine Finset.sum_congr rfl fun p _ => ?_
  have hr := point_lt t p
  unfold cntTerm
  rw [dif_pos hr, gb_read V c t p hr]

/-- After point n the sum holds the contributions of the rows of points 0 … n, and so does the count. -/
theorem scAt1_val (c : Dev nD) : ∀ (n : ℕ) (hn : n < cfg1.N) (g : Fin 8),
    (∀ d : Fin 64, (scAt1 (F := Ideal) V c n hn).1 (ix2 g d)
        = ∑ t ∈ Finset.range (n + 1), ∑ p : Fin 10000, sumTerm V c g d (t * 10000 + p.val))
    ∧ (scAt1 (F := Ideal) V c n hn).2 (ix2 g ⟨0, Nat.one_pos⟩)
        = ∑ t ∈ Finset.range (n + 1), ∑ p : Fin 10000, cntTerm V c g (t * 10000 + p.val) := by
  intro n
  induction n with
  | zero =>
    intro hn g
    refine ⟨fun d => ?_, ?_⟩
    · show k1_pay5 (F := Ideal) (xb V c ⟨0, hn⟩) (Wb V c ⟨0, hn⟩) (bb V c ⟨0, hn⟩) (gb V c ⟨0, hn⟩) (k1_pay2 (F := Ideal)) (ix2 g d) = _
      refine (pay5_apply (xb V c ⟨0, hn⟩) (Wb V c ⟨0, hn⟩) (bb V c ⟨0, hn⟩) (gb V c ⟨0, hn⟩) (k1_pay2 (F := Ideal)) g d).trans ?_
      rw [pay2_apply, zero_add, Finset.sum_range_one]
      exact point_sum V c ⟨0, hn⟩ g d
    · show k1_pay6 (F := Ideal) (gb V c ⟨0, hn⟩) (k1_pay3 (F := Ideal)) (ix2 g ⟨0, Nat.one_pos⟩) = _
      refine (pay6_apply (gb V c ⟨0, hn⟩) (k1_pay3 (F := Ideal)) g).trans ?_
      rw [pay3_apply, zero_add, Finset.sum_range_one]
      exact point_cnt V c ⟨0, hn⟩ g
  | succ n ih =>
    intro hn g
    have ih' := ih (Nat.lt_of_succ_lt hn) g
    refine ⟨fun d => ?_, ?_⟩
    · show k1_pay5 (F := Ideal) (xb V c ⟨n + 1, hn⟩) (Wb V c ⟨n + 1, hn⟩) (bb V c ⟨n + 1, hn⟩) (gb V c ⟨n + 1, hn⟩)
          (scAt1 (F := Ideal) V c n (Nat.lt_of_succ_lt hn)).1 (ix2 g d) = _
      refine (pay5_apply (xb V c ⟨n + 1, hn⟩) (Wb V c ⟨n + 1, hn⟩) (bb V c ⟨n + 1, hn⟩) (gb V c ⟨n + 1, hn⟩)
          (scAt1 (F := Ideal) V c n (Nat.lt_of_succ_lt hn)).1 g d).trans ?_
      rw [Finset.sum_range_succ _ (n + 1)]
      exact congrArg₂ (· + ·) (ih'.1 d) (point_sum V c ⟨n + 1, hn⟩ g d)
    · show k1_pay6 (F := Ideal) (gb V c ⟨n + 1, hn⟩) (scAt1 (F := Ideal) V c n (Nat.lt_of_succ_lt hn)).2 (ix2 g ⟨0, Nat.one_pos⟩) = _
      refine (pay6_apply (gb V c ⟨n + 1, hn⟩) (scAt1 (F := Ideal) V c n (Nat.lt_of_succ_lt hn)).2 g).trans ?_
      rw [Finset.sum_range_succ _ (n + 1)]
      exact congrArg₂ (· + ·) ih'.2 (point_cnt V c ⟨n + 1, hn⟩ g)

/-- Ten blocks of 10000 rows are the 100000 rows. -/
theorem sum_rows (f : ℕ → EReal) :
    (∑ t ∈ Finset.range 10, ∑ p : Fin 10000, f (t * 10000 + p.val)) = ∑ n : Fin 100000, f n.val := by
  rw [Finset.sum_range]
  exact (Cert.Lib.SegSum.sum_blocks 10 10000 (fun n : Fin (10 * 10000) => f n.val)).symm

/-- After the last point the sum is the segment sum of the dense epilogue of the whole array … -/
theorem sum_final (c : Dev nD) (h9 : 9 < cfg1.N) (g : Fin 8) (d : Fin 64) :
    (scAt1 (F := Ideal) V c 9 h9).1 (ix2 g d)
      = Cert.Gnn.segSum (Cert.Gnn.dense (N := 100000) (xa V c) (Wa V c) (Cert.Mlp.row (ba V c))) (ga V c) (ix2 g d) := by
  rw [((scAt1_val V c 9 h9 g).1 d), sum_rows]
  unfold Cert.Gnn.segSum
  refine Finset.sum_congr rfl fun n _ => ?_
  unfold sumTerm
  rw [dif_pos n.isLt]
  rfl

/-- … and the count the segment count. -/
theorem cnt_final (c : Dev nD) (h9 : 9 < cfg1.N) (g : Fin 8) :
    (scAt1 (F := Ideal) V c 9 h9).2 (ix2 g ⟨0, Nat.one_pos⟩) = Cert.Gnn.segCnt (ga V c) g := by
  rw [(scAt1_val V c 9 h9 g).2, sum_rows]
  unfold Cert.Gnn.segCnt
  refine Finset.sum_congr rfl fun n _ => ?_
  unfold cntTerm
  rw [dif_pos n.isLt]
  rfl

/-! ## The stored block -/

/-- WHAT THE LAST POINT STORES: the pooled head of the dense epilogue of the whole node array. -/
theorem out1_final (c : Dev nD) (h9 : 9 < cfg1.N) :
    (out1_6 (F := Ideal) V c ⟨9, h9⟩ : S8x2.Idx → EReal)
      = Cert.Gnn.head (Cert.Gnn.dense (N := 100000) (V c main_v40) (V c main_arg3) (Cert.Mlp.row (V c main_v42)))
          (V c main_v41) (V c main_arg5) (Cert.Mlp.row (V c main_v43)) := by
  funext i
  obtain ⟨g, k, rfl⟩ : ∃ (g : Fin 8) (k : Fin 2), i = ix2 g k := ⟨i 0, i 1, eq_ix2 i⟩
  show k1_pay1 (F := Ideal) (scAt1 (F := Ideal) V c 9 h9).2 (scAt1 (F := Ideal) V c 9 h9).1 (Wpb V c ⟨9, h9⟩) (bpb V c ⟨9, h9⟩) (ix2 g k)
    = Cert.Gnn.head (Cert.Gnn.dense (N := 100000) (xa V c) (Wa V c) (Cert.Mlp.row (ba V c))) (ga V c) (Wpa V c) (Cert.Mlp.row (bpa V c)) (ix2 g k)
  refine (pay1_apply (scAt1 (F := Ideal) V c 9 h9).2 (scAt1 (F := Ideal) V c 9 h9).1 (Wpb V c ⟨9, h9⟩) (bpb V c ⟨9, h9⟩) g k).trans ?_
  rw [Wpb_read V c ⟨9, h9⟩, bpb_read V c ⟨9, h9⟩, cnt_final V c h9 g]
  unfold Cert.Gnn.head
  refine congrArg (· + Cert.Mlp.row (bpa V c) k) (Finset.sum_congr rfl fun d _ => ?_)
  rw [sum_final V c h9 g d]

end Cert.KernelIdeal.R1

end
-- ==== Proof.RefDefs.lean ====
/-
  Names for three pieces of the reference program's result term, each a verbatim sub-term of it: the first layer's
  normalised aggregate (the value of %26), the source-degree norm column (the value of %10), and the chain of host
  operations that takes layer 1's scaled output to layer 2's normalised aggregate (%34 … %45 as a function of %33:
  the wrapped source ids, the row gather, the scatter-add by destination, the product with the destination norm).
-/
import proofs.«427144_j14688788152817_2_alg».proof.Proof.Gen.ReferenceIdeal.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The first layer's aggregate, scaled by the destination norm: the value of %26. -/
def agg1 (m : (ℓ : Loc nD τ sig) → Buf (Elt F) ℓ) (c : Dev nD) : FVec F S100000x64 .f32 :=
  mulf (Host.scatterAdd scatter_S100000x64_S1200000x1_S1200000x64_1_0_0_1 (broadcastInDim S100000x64 ![] bcast_S_S100000x64 (constant S_ .f32 0x00000000#32)) (broadcastInDim S1200000x1 ![0] bcast_S1200000_S1200000x1_0 (m ((c.tc : Thread nD τ).loc main_arg8))) (Host.gather gather_S100000x64_S1200000x1_S1200000x64_1_0_n_n_0_1_164 (mulf (m ((c.tc : Thread nD τ).loc main_arg0)) (broadcastInDim S100000x64 ![0, 1] bcast_S100000x1_S100000x64_0_1 (broadcastInDim S100000x1 ![0] bcast_S100000_S100000x1_0 (Host.rsqrt (maximumf (broadcastInDim S100000 ![] bcast_S_S100000 (id (constant S_ .f32 0x3F800000#32))) (Host.scatterAdd scatter_S100000_S1200000x1_S1200000_n_0_0_1 (broadcastInDim S100000 ![] bcast_S_S100000 (constant S_ .f32 0x00000000#32)) (broadcastInDim S1200000x1 ![0] bcast_S1200000_S1200000x1_0 (m ((c.tc : Thread nD τ).loc main_arg7))) (broadcastInDim S1200000 ![] bcast_S_S1200000 (constant S_ .f32 0x3F800000#32)))))))) (broadcastInDim S1200000x1 ![0] bcast_S1200000_S1200000x1_0 (select (cmpi .slt (m ((c.tc : Thread nD τ).loc main_arg7)) (broadcastInDim S1200000 ![] bcast_S_S1200000 (constantI S_ 32 0#32))) (addi (m ((c.tc : Thread nD τ).loc main_arg7)) (broadcastInDim S1200000 ![] bcast_S_S1200000 (constantI S_ 32 100000#32))) (m ((c.tc : Thread nD τ).loc main_arg7)))))) (broadcastInDim S100000x64 ![0, 1] bcast_S100000x1_S100000x64_0_1 (broadcastInDim S100000x1 ![0] bcast_S100000_S100000x1_0 (Host.rsqrt (maximumf (broadcastInDim S100000 ![] bcast_S_S100000 (id (constant S_ .f32 0x3F800000#32))) (Host.scatterAdd scatter_S100000_S1200000x1_S1200000_n_0_0_1 (broadcastInDim S100000 ![] bcast_S_S100000 (constant S_ .f32 0x00000000#32)) (broadcastInDim S1200000x1 ![0] bcast_S1200000_S1200000x1_0 (m ((c.tc : Thread nD τ).loc main_arg8))) (broadcastInDim S1200000 ![] bcast_S_S1200000 (constant S_ .f32 0x3F800000#32)))))))

/-- The source-degree norm as a column: the value of %10. -/
def norm10 (m : (ℓ : Loc nD τ sig) → Buf (Elt F) ℓ) (c : Dev nD) : FVec F S100000x1 .f32 :=
  broadcastInDim S100000x1 ![0] bcast_S100000_S100000x1_0 (Host.rsqrt (maximumf (broadcastInDim S100000 ![] bcast_S_S100000 (id (constant S_ .f32 0x3F800000#32))) (Host.scatterAdd scatter_S100000_S1200000x1_S1200000_n_0_0_1 (broadcastInDim S100000 ![] bcast_S_S100000 (constant S_ .f32 0x00000000#32)) (broadcastInDim S1200000x1 ![0] bcast_S1200000_S1200000x1_0 (m ((c.tc : Thread nD τ).loc main_arg7))) (broadcastInDim S1200000 ![] bcast_S_S1200000 (constant S_ .f32 0x3F800000#32)))))

/-- From layer 1's scaled output to layer 2's normalised aggregate: %34 … %45 as a function of %33. -/
def mid (m : (ℓ : Loc nD τ sig) → Buf (Elt F) ℓ) (c : Dev nD) (x : FVec F S100000x64 .f32) : FVec F S100000x64 .f32 :=
  mulf (Host.scatterAdd scatter_S100000x64_S1200000x1_S1200000x64_1_0_0_1 (broadcastInDim S100000x64 ![] bcast_S_S100000x64 (constant S_ .f32 0x00000000#32)) (broadcastInDim S1200000x1 ![0] bcast_S1200000_S1200000x1_0 (m ((c.tc : Thread nD τ).loc main_arg8))) (Host.gather gather_S100000x64_S1200000x1_S1200000x64_1_0_n_n_0_1_164 x (broadcastInDim S1200000x1 ![0] bcast_S1200000_S1200000x1_0 (select (cmpi .slt (m ((c.tc : Thread nD τ).loc main_arg7)) (broadcastInDim S1200000 ![] bcast_S_S1200000 (constantI S_ 32 0#32))) (addi (m ((c.tc : Thread nD τ).loc main_arg7)) (broadcastInDim S1200000 ![] bcast_S_S1200000 (constantI S_ 32 100000#32))) (m ((c.tc : Thread nD τ).loc main_arg7)))))) (broadcastInDim S100000x64 ![0, 1] bcast_S100000x1_S100000x64_0_1 (broadcastInDim S100000x1 ![0] bcast_S100000_S100000x1_0 (Host.rsqrt (maximumf (broadcastInDim S100000 ![] bcast_S_S100000 (id (constant S_ .f32 0x3F800000#32))) (Host.scatterAdd scatter_S100000_S1200000x1_S1200000_n_0_0_1 (broadcastInDim S100000 ![] bcast_S_S100000 (constant S_ .f32 0x00000000#32)) (broadcastInDim S1200000x1 ![0] bcast_S1200000_S1200000x1_0 (m ((c.tc : Thread nD τ).loc main_arg8))) (broadcastInDim S1200000 ![] bcast_S_S1200000 (constant S_ .f32 0x3F800000#32)))))))

/-- The value of %33 (layer 1's scaled output) in the result term, over the two names. -/
def h1s (m : (ℓ : Loc nD τ sig) → Buf (Elt F) ℓ) (c : Dev nD) : FVec F S100000x64 .f32 :=
  mulf (maximumf (addf (Host.dotGeneral dot_S100000x64_S64x64_S100000x64_1_0_0_1_n_n none (agg1 m c) (m ((c.tc : Thread nD τ).loc main_arg1))) (broadcastInDim S100000x64 ![0, 1] bcast_S1x64_S100000x64_0_1 (broadcastInDim S1x64 ![1] bcast_S64_S1x64_1 (m ((c.tc : Thread nD τ).loc main_arg2))))) (broadcastInDim S100000x64 ![] bcast_S_S100000x64 (constant S_ .f32 0x00000000#32))) (broadcastInDim S100000x64 ![0, 1] bcast_S100000x1_S100000x64_0_1 (norm10 m c))

/-- The result term is the head's operations applied to `mid` of `h1s`: the printed term folded along the names. -/
theorem res_outline (m : (ℓ : Loc nD τ sig) → Buf (Elt F) ℓ) (c : Dev nD) :
    Cert.ReferenceIdeal.Value.res_main_v65 (F := F) m c =
      addf (Host.dotGeneral dot_S8x64_S64x2_S8x2_1_0_0_1_n_n none (Host.divf (Host.scatterAdd scatter_S8x64_S100000x1_S100000x64_1_0_0_1 (broadcastInDim S8x64 ![] bcast_S_S8x64 (constant S_ .f32 0x00000000#32)) (broadcastInDim S100000x1 ![0] bcast_S100000_S100000x1_0 (m ((c.tc : Thread nD τ).loc main_arg9))) (maximumf (addf (Host.dotGeneral dot_S100000x64_S64x64_S100000x64_1_0_0_1_n_n none (mid m c (h1s m c)) (m ((c.tc : Thread nD τ).loc main_arg3))) (broadcastInDim S100000x64 ![0, 1] bcast_S1x64_S100000x64_0_1 (broadcastInDim S1x64 ![1] bcast_S64_S1x64_1 (m ((c.tc : Thread nD τ).loc main_arg4))))) (broadcastInDim S100000x64 ![] bcast_S_S100000x64 (constant S_ .f32 0x00000000#32)))) (broadcastInDim S8x64 ![0, 1] bcast_S8x1_S8x64_0_1 (broadcastInDim S8x1 ![0] bcast_S8_S8x1_0 (maximumf (broadcastInDim S8 ![] bcast_S_S8 (id (constant S_ .f32 0x3F800000#32))) (Host.scatterAdd scatter_S8_S100000x1_S100000_n_0_0_1 (broadcastInDim S8 ![] bcast_S_S8 (constant S_ .f32 0x00000000#32)) (broadcastInDim S100000x1 ![0] bcast_S100000_S100000x1_0 (m ((c.tc : Thread nD τ).loc main_arg9))) (broadcastInDim S100000 ![] bcast_S_S100000 (constant S_ .f32 0x3F800000#32))))))) (m ((c.tc : Thread nD τ).loc main_arg5))) (broadcastInDim S8x2 ![0, 1] bcast_S1x2_S8x2_0_1 (broadcastInDim S1x2 ![1] bcast_S2_S1x2_1 (m ((c.tc : Thread nD τ).loc main_arg6)))) := rfl

/-! The same three pieces as functions of the argument arrays they read. -/

/-- `agg1` as a function of the node features, the source ids and the destination ids. -/
def agg1F (a0 : FVec F S100000x64 .f32) (a7 a8 : IVec S1200000 32) : FVec F S100000x64 .f32 :=
  mulf (Host.scatterAdd scatter_S100000x64_S1200000x1_S1200000x64_1_0_0_1 (broadcastInDim S100000x64 ![] bcast_S_S100000x64 (constant S_ .f32 0x00000000#32)) (broadcastInDim S1200000x1 ![0] bcast_S1200000_S1200000x1_0 a8) (Host.gather gather_S100000x64_S1200000x1_S1200000x64_1_0_n_n_0_1_164 (mulf a0 (broadcastInDim S100000x64 ![0, 1] bcast_S100000x1_S100000x64_0_1 (broadcastInDim S100000x1 ![0] bcast_S100000_S100000x1_0 (Host.rsqrt (maximumf (broadcastInDim S100000 ![] bcast_S_S100000 (id (constant S_ .f32 0x3F800000#32))) (Host.scatterAdd scatter_S100000_S1200000x1_S1200000_n_0_0_1 (broadcastInDim S100000 ![] bcast_S_S100000 (constant S_ .f32 0x00000000#32)) (broadcastInDim S1200000x1 ![0] bcast_S1200000_S1200000x1_0 a7) (broadcastInDim S1200000 ![] bcast_S_S1200000 (constant S_ .f32 0x3F800000#32)))))))) (broadcastInDim S1200000x1 ![0] bcast_S1200000_S1200000x1_0 (select (cmpi .slt a7 (broadcastInDim S1200000 ![] bcast_S_S1200000 (constantI S_ 32 0#32))) (addi a7 (broadcastInDim S1200000 ![] bcast_S_S1200000 (constantI S_ 32 100000#32))) a7)))) (broadcastInDim S100000x64 ![0, 1] bcast_S100000x1_S100000x64_0_1 (broadcastInDim S100000x1 ![0] bcast_S100000_S100000x1_0 (Host.rsqrt (maximumf (broadcastInDim S100000 ![] bcast_S_S100000 (id (constant S_ .f32 0x3F800000#32))) (Host.scatterAdd scatter_S100000_S1200000x1_S1200000_n_0_0_1 (broadcastInDim S100000 ![] bcast_S_S100000 (constant S_ .f32 0x00000000#32)) (broadcastInDim S1200000x1 ![0] bcast_S1200000_S1200000x1_0 a8) (broadcastInDim S1200000 ![] bcast_S_S1200000 (constant S_ .f32 0x3F800000#32)))))))

/-- `norm10` as a function of the source ids. -/
def norm10F (a7 : IVec S1200000 32) : FVec F S100000x1 .f32 :=
  broadcastInDim S100000x1 ![0] bcast_S100000_S100000x1_0 (Host.rsqrt (maximumf (broadcastInDim S100000 ![] bcast_S_S100000 (id (constant S_ .f32 0x3F800000#32))) (Host.scatterAdd scatter_S100000_S1200000x1_S1200000_n_0_0_1 (broadcastInDim S100000 ![] bcast_S_S100000 (constant S_ .f32 0x00000000#32)) (broadcastInDim S1200000x1 ![0] bcast_S1200000_S1200000x1_0 a7) (broadcastInDim S1200000 ![] bcast_S_S1200000 (constant S_ .f32 0x3F800000#32)))))

/-- `mid` as a function of the source ids, the destination ids and layer 1's scaled output. -/
def midF (a7 a8 : IVec S1200000 32) (x : FVec F S100000x64 .f32) : FVec F S100000x64 .f32 :=
  mulf (Host.scatterAdd scatter_S100000x64_S1200000x1_S1200000x64_1_0_0_1 (broadcastInDim S100000x64 ![] bcast_S_S100000x64 (constant S_ .f32 0x00000000#32)) (broadcastInDim S1200000x1 ![0] bcast_S1200000_S1200000x1_0 a8) (Host.gather gather_S100000x64_S1200000x1_S1200000x64_1_0_n_n_0_1_164 x (broadcastInDim S1200000x1 ![0] bcast_S1200000_S1200000x1_0 (select (cmpi .slt a7 (broadcastInDim S1200000 ![] bcast_S_S1200000 (constantI S_ 32 0#32))) (addi a7 (broadcastInDim S1200000 ![] bcast_S_S1200000 (constantI S_ 32 100000#32))) a7)))) (broadcastInDim S100000x64 ![0, 1] bcast_S100000x1_S100000x64_0_1 (broadcastInDim S100000x1 ![0] bcast_S100000_S100000x1_0 (Host.rsqrt (maximumf (broadcastInDim S100000 ![] bcast_S_S100000 (id (constant S_ .f32 0x3F800000#32))) (Host.scatterAdd scatter_S100000_S1200000x1_S1200000_n_0_0_1 (broadcastInDim S100000 ![] bcast_S_S100000 (constant S_ .f32 0x00000000#32)) (broadcastInDim S1200000x1 ![0] bcast_S1200000_S1200000x1_0 a8) (broadcastInDim S1200000 ![] bcast_S_S1200000 (constant S_ .f32 0x3F800000#32)))))))

theorem agg1_eq (m : (ℓ : Loc nD τ sig) → Buf (Elt F) ℓ) (c : Dev nD) :
    agg1 m c = agg1F (m ((c.tc : Thread nD τ).loc main_arg0)) (m ((c.tc : Thread nD τ).loc main_arg7)) (m ((c.tc : Thread nD τ).loc main_arg8)) := rfl
theorem norm10_eq (m : (ℓ : Loc nD τ sig) → Buf (Elt F) ℓ) (c : Dev nD) :
    norm10 m c = norm10F (m ((c.tc : Thread nD τ).loc main_arg7)) := rfl
theorem mid_eq (m : (ℓ : Loc nD τ sig) → Buf (Elt F) ℓ) (c : Dev nD) (x : FVec F S100000x64 .f32) :
    mid m c x = midF (m ((c.tc : Thread nD τ).loc main_arg7)) (m ((c.tc : Thread nD τ).loc main_arg8)) x := rfl

end Cert.ReferenceIdeal.RefValue

end
-- ==== Proof.LibTRef.lean ====
/-
  Typed references of a module-local function: moving a value to the buffer's own type and back is the identity.

  An operation of an outlined function is stated over references that carry the type of the tensor they hold; its
  function is moved to the buffer's own contents type along the equation of the two types (`toBuf`) and each operand
  is moved back (`ofBuf`). Reading a line of such operations leaves a pair `ofBuf (toBuf v)` around every
  intermediate value; the pair is the identity, whatever the reference.
-/
import Idealize.ShloMosaic.Lib.StableHlo

namespace Idealize.ShloMosaic.StableHlo.TRef

variable {sig : RefSig} {Val : EltTy → Type} {T : BufTy}

/-- To the buffer's type and back. -/
theorem ofBuf_toBuf (x : TRef sig T) (v : T.Contents Val) : x.ofBuf (x.toBuf v) = v := by
  obtain ⟨r, rfl, h1, h2⟩ := x
  rfl

/-- Back and to the buffer's type. -/
theorem toBuf_ofBuf (x : TRef sig T) (v : x.ref.ty.Contents Val) : x.toBuf (x.ofBuf v) = v := by
  obtain ⟨r, rfl, h1, h2⟩ := x
  rfl

end Idealize.ShloMosaic.StableHlo.TRef
-- ==== Proof.KI.Host.lean ====
/-
  The host operations of the kernel program, read back as values.

  Between the launch and the first pallas_call the program applies five stretches of host operations; between the
  two pallas_calls one more. Each buffer a pallas_call reads is therefore a fixed term over the argument arrays (and,
  after the first pallas_call, over the array its write-backs leave): the degree counts by scatter-add, the clip at
  one, the reciprocal square root, the row gather by wrapped source id, the scatter-add by destination id, the
  product with the norm column, and the reshapes of the bias vectors to rows. The reference program applies the same
  operations to the same arrays, so these terms are the reference's own sub-terms, named there as functions of the
  arrays they read.
-/
import proofs.«427144_j14688788152817_2_alg».proof.Proof.KI.Run
import proofs.«427144_j14688788152817_2_alg».proof.Proof.RefDefs
import proofs.«427144_j14688788152817_2_alg».proof.Proof.LibTRef
import Idealize.ShloMosaic.Lib.StableHlo.Run

set_option maxRecDepth 16384

noncomputable section

namespace Cert.KernelIdeal.Host

open Cert.KernelIdeal Cert.KernelIdeal.Gen Cert.KernelIdeal.Run Cert.KernelIdeal.R0
open Idealize.ShloMosaic Idealize.ShloMosaic.TcCoe Idealize.SL.Sem Idealize.ShloMosaic.StableHlo

variable {F : FTy → Type} [FloatOps F]
variable (m : (ℓ : Loc nD τ sig) → Buf (Elt F) ℓ) (c : Dev nD)

/-! ## Region 0's inputs: the contents after the five stretches of the host prefix -/

/-- The first layer's aggregate scaled by the destination norm (the value of %26): gather the rows of the
    source-normalised features by wrapped source id, scatter-add them by destination id, scale by the destination
    norm. -/
theorem v26_eq : E5 m c main_v26 = Cert.ReferenceIdeal.RefValue.agg1F (m ((c.tc : Thread nD τ).loc main_arg0))
    (m ((c.tc : Thread nD τ).loc main_arg7)) (m ((c.tc : Thread nD τ).loc main_arg8)) := by
  dsimp only [E5, V5, V4, V3, V2, V1, V0]
  after_results_simp
  rfl

/-- The source-degree norm as a column (the value of %10): the reciprocal square root of the source-degree count
    clipped below at one. -/
theorem v10_eq : E5 m c main_v10 = Cert.ReferenceIdeal.RefValue.norm10F (m ((c.tc : Thread nD τ).loc main_arg7)) := by
  dsimp only [E5, V5, V4, V3, V2, V1, V0]
  after_results_simp
  rfl

/-- The first layer's bias as a row (the value of %27). -/
theorem v27_eq : E5 m c main_v27 = shapeCast S1x64 (m ((c.tc : Thread nD τ).loc main_arg2)) shapeCasts_S64_S1x64 := by
  dsimp only [E5, V5, V4, V3, V2, V1, V0]
  after_results_simp
  rfl

/-- The first layer's weights are as launched: no host operation writes an argument. -/
theorem arg1_eq : E5 m c main_arg1 = m ((c.tc : Thread nD τ).loc main_arg1) :=
  (V5_of m c main_arg1 (by decide)).trans <| (V4_of m c main_arg1 (by decide)).trans <|
  (V3_of m c main_arg1 (by decide)).trans <| (V2_of m c main_arg1 (by decide)).trans <| (V1_of m c main_arg1 (by decide)).trans rfl

/-! ## Region 1's inputs: the contents after region 0 and the stretch between the regions -/

/-- An array that no host operation of the prefix and no write-back of region 0 touches reads, at region 0's exit,
    as launched. -/
theorem W6_arg (b : Ref sig .tc) (h6 : ∀ w, Pipeline.arrRef spec0 w ≠ b) (h5 : b ∉ hostOps0_4_W) (h4 : b ∉ hostOps0_3_W)
    (h3 : b ∉ hostOps0_2_W) (h2 : b ∉ hostOps0_1_W) (h1 : b ∉ hostOps0_W) :
    W6 m c (Proc.devRef .tc b) = m ((c.tc : Thread nD τ).loc b) :=
  (W6_of_ne m c b h6).trans <| (V5_of m c b h5).trans <| (V4_of m c b h4).trans <|
  (V3_of m c b h3).trans <| (V2_of m c b h2).trans <| (V1_of m c b h1).trans rfl

/-- The second layer's aggregate scaled by the destination norm (the value of %40), over what region 0's write-backs
    leave in its output array: gather its rows by wrapped source id, scatter-add them by destination id, scale by
    the destination norm (computed in the prefix and untouched since). -/
theorem v40_eq : E7 m c main_v40 = Cert.ReferenceIdeal.RefValue.midF (m ((c.tc : Thread nD τ).loc main_arg7))
    (m ((c.tc : Thread nD τ).loc main_arg8)) ((dat0 (E5 m) c).arrAt 4 cfg0.N) := by
  have h28 : W6 m c (Proc.devRef .tc main_v28) = (dat0 (E5 m) c).arrAt 4 cfg0.N := W6_arr m c 4
  have h7 : W6 m c (Proc.devRef .tc main_arg7) = m ((c.tc : Thread nD τ).loc main_arg7) :=
    W6_arg m c main_arg7 (by decide) (by decide) (by decide) (by decide) (by decide) (by decide)
  have h8 : W6 m c (Proc.devRef .tc main_arg8) = m ((c.tc : Thread nD τ).loc main_arg8) :=
    W6_arg m c main_arg8 (by decide) (by decide) (by decide) (by decide) (by decide) (by decide)
  have h12 : W6 m c (Proc.devRef .tc main_v12) = V5 m c (Proc.devRef .tc main_v12) := W6_of_ne m c main_v12 (by decide)
  dsimp only [E7, W7]
  after_results_simp
  rw [h28, h7, h8, h12]
  dsimp only [V5, V4, V3, V2, V1, V0]
  after_results_simp
  rfl

/-- The graph ids as a column (the value of %41). -/
theorem v41_eq : E7 m c main_v41 = shapeCast S100000x1 (m ((c.tc : Thread nD τ).loc main_arg9)) shapeCasts_S100000_S100000x1 := by
  dsimp only [E7, W7]
  after_results_simp
  rw [W6_arg m c main_arg9 (by decide) (by decide) (by decide) (by decide) (by decide) (by decide)]
  rfl

/-- The second layer's bias as a row (the value of %42). -/
theorem v42_eq : E7 m c main_v42 = shapeCast S1x64 (m ((c.tc : Thread nD τ).loc main_arg4)) shapeCasts_S64_S1x64 := by
  dsimp only [E7, W7]
  after_results_simp
  rw [W6_arg m c main_arg4 (by decide) (by decide) (by decide) (by decide) (by decide) (by decide)]
  rfl

/-- The head's bias as a row (the value of %43). -/
theorem v43_eq : E7 m c main_v43 = shapeCast S1x2 (m ((c.tc : Thread nD τ).loc main_arg6)) shapeCasts_S2_S1x2 := by
  dsimp only [E7, W7]
  after_results_simp
  rw [W6_arg m c main_arg6 (by decide) (by decide) (by decide) (by decide) (by decide) (by decide)]
  rfl

/-- The second layer's weights are as launched. -/
theorem arg3_eq : E7 m c main_arg3 = m ((c.tc : Thread nD τ).loc main_arg3) :=
  (StableHlo.after_of_writes_sub hostOps1 _ hostOps1_writes (by decide : main_arg3 ∉ hostOps1_W)).trans <|
    W6_arg m c main_arg3 (by decide) (by decide) (by decide) (by decide) (by decide) (by decide)

/-- The head's weights are as launched. -/
theorem arg5_eq : E7 m c main_arg5 = m ((c.tc : Thread nD τ).loc main_arg5) :=
  (StableHlo.after_of_writes_sub hostOps1 _ hostOps1_writes (by decide : main_arg5 ∉ hostOps1_W)).trans <|
    W6_arg m c main_arg5 (by decide) (by decide) (by decide) (by decide) (by decide) (by decide)

end Cert.KernelIdeal.Host

end
-- ==== Proof.LibScatterRead.lean ====
/-
  Accumulating scatters and a gather of the shapes jnp's indexing produces, read at one index over the extended
  reals. In each the start indices come as a table with one row per update; an update lands where its row of the
  table says, read as signed integers, and is dropped when that is outside the operand:
   * a vector of updates added into a vector through an [M, 1] column of indices (a segment sum of scalars),
   * rows of updates added into the rows of a matrix through an [M, 1] column (a segment sum of rows),
   * a vector of updates added into a matrix through an [M, 2] table of (row, column) pairs,
   * a vector gathered through an [M, 1] column, the index clamped into the vector.
  Each scatter read at an index is the operand's entry plus the sum, over the updates whose index words name that
  entry, of the update.
-/
import Idealize.ShloMosaic.PureOps.Ideal
import Idealize.ShloMosaic.PureOps.Ideal.Laws
import Idealize.ShloMosaic.Lib.ValueIdx
import Idealize.ShloMosaic.Lib.StableHlo.Predicate

noncomputable section

open Idealize.ShloMosaic Idealize.ShloMosaic.ValueIdx

namespace Cert.ScatterRead

variable {φ : FTy} {w : ℕ}

/-- The dimension numbers of a vector of updates added into a vector through an [M, 1] column of indices. -/
abbrev vecScat (n M : ℕ) (wf : ScatterDims.WF ⟨1, ![n]⟩ ⟨2, ![M, 1]⟩ ⟨1, ![M]⟩ [] [0] [0] 1) :
    ScatterDims ⟨1, ![n]⟩ ⟨2, ![M, 1]⟩ ⟨1, ![M]⟩ where
  updateWindowDims := []
  insertedWindowDims := [0]
  scatterDimsToOperandDims := [0]
  indexVectorDim := 1
  wf := wf

/-- The only axis of the operand is an inserted axis: the window coordinate of every update there is 0. -/
private theorem vecScat_window {n M : ℕ} (wf : ScatterDims.WF ⟨1, ![n]⟩ ⟨2, ![M, 1]⟩ ⟨1, ![M]⟩ [] [0] [0] 1)
    (j : (⟨1, ![M]⟩ : Shape).Idx) : (vecScat n M wf).window j 0 = 0 := by
  unfold ScatterDims.window
  rw [dif_neg]
  simp [ScatterDims.sKept, Shape.kept, List.mem_filter]

/-- The start of update e on the only axis is the index word of row e, read signed. -/
private theorem vecScat_start {n M : ℕ} (wf : ScatterDims.WF ⟨1, ![n]⟩ ⟨2, ![M, 1]⟩ ⟨1, ![M]⟩ [] [0] [0] 1)
    (idx : IVec ⟨2, ![M, 1]⟩ w) (e : Fin M) :
    (vecScat n M wf).start (ix1 e) idx 0 = (idx (ix2 e 0)).toInt := by
  unfold ScatterDims.start
  rw [dif_pos (show (0 : Fin 1) ∈ (vecScat n M wf).scatterDimsToOperandDims from List.mem_singleton.mpr rfl)]
  have hsi : (vecScat n M wf).siIdx (ix1 e) ⟨List.idxOf (0 : Fin 1) (vecScat n M wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- Update e lands on entry i exactly when its index word, read signed, is i. -/
theorem vecScat_lands {n M : ℕ} (wf : ScatterDims.WF ⟨1, ![n]⟩ ⟨2, ![M, 1]⟩ ⟨1, ![M]⟩ [] [0] [0] 1)
    (idx : IVec ⟨2, ![M, 1]⟩ w) (e : Fin M) (i : Fin n) :
    (vecScat n M wf).resultIdx? (ix1 e) idx = some (ix1 i) ↔ (idx (ix2 e 0)).toInt = (i.val : ℤ) := by
  have hw := vecScat_window wf (ix1 e)
  have hs := vecScat_start wf idx e
  have hn : (⟨1, ![n]⟩ : Shape).size 0 = n := rfl
  unfold ScatterDims.resultIdx?
  split
  · -- The update lands inside the operand, at start plus window.
    rename_i hh
    have h0 := hh 0
    rw [hw, hs, hn] at h0
    constructor
    · intro h
      have hv : ((vecScat n M wf).start (ix1 e) idx 0 + ((vecScat n M wf).window (ix1 e) 0 : ℕ)).toNat = i.val :=
        congrArg Fin.val (congrFun (Option.some.inj h) 0)
      rw [hw, hs] at hv
      omega
    · intro h
      congr 1
      funext a
      refine Fin.ext ?_
      match a with
      | ⟨0, _⟩ =>
        show ((vecScat n M wf).start (ix1 e) idx 0 + ((vecScat n M wf).window (ix1 e) 0 : ℕ)).toNat = i.val
        rw [hw, hs]
        omega
  · -- The update is dropped: its index word is outside [0, n).
    rename_i hh
    constructor
    · intro h; cases h
    · intro h
      exfalso
      apply hh
      intro a
      match a with
      | ⟨0, _⟩ =>
        show 0 ≤ (vecScat n M wf).start (ix1 e) idx 0 + ((vecScat n M wf).window (ix1 e) 0 : ℕ)
          ∧ (vecScat n M wf).start (ix1 e) idx 0 + ((vecScat n M wf).window (ix1 e) 0 : ℕ) < (n : ℤ)
        rw [hw, hs, h]
        have := i.isLt
        omega

/-- Entry i of the scatter: the operand's entry plus the updates whose index word is i. -/
theorem vecScat_apply {n M : ℕ} (wf : ScatterDims.WF ⟨1, ![n]⟩ ⟨2, ![M, 1]⟩ ⟨1, ![M]⟩ [] [0] [0] 1)
    (z : FVec Ideal ⟨1, ![n]⟩ φ) (idx : IVec ⟨2, ![M, 1]⟩ w) (u : FVec Ideal ⟨1, ![M]⟩ φ) (i : Fin n) :
    Host.scatterAdd (vecScat n M wf) z idx u (ix1 i)
      = z (ix1 i) + ∑ e ∈ Finset.univ.filter (fun e : Fin M => (idx (ix2 e 0)).toInt = (i.val : ℤ)), u (ix1 e) := by
  -- Entry i is the operand's entry plus the sum of the updates that land on i.
  show z (ix1 i) + ∑ j ∈ Finset.univ.filter (fun j => (vecScat n M wf).resultIdx? j idx = some (ix1 i)), u j = _
  congr 1
  -- The updates are indexed by their only coordinate.
  refine Finset.sum_nbij' (fun j => j 0) (fun e => ix1 e) ?_ ?_ ?_ ?_ ?_
  · intro j hj
    have := (Finset.mem_filter.mp hj).2
    rw [eq_ix1 j] at this
    exact Finset.mem_filter.mpr ⟨Finset.mem_univ _, (vecScat_lands wf idx (j 0) i).mp this⟩
  · intro e he
    exact Finset.mem_filter.mpr ⟨Finset.mem_univ _, (vecScat_lands wf idx e i).mpr (Finset.mem_filter.mp he).2⟩
  · intro j _
    exact (eq_ix1 j).symm
  · intro e _
    rfl
  · intro j _
    exact congrArg u (eq_ix1 j)

/-- The dimension numbers of rows of updates [M, C] added into the rows of an [n, C] operand through an [M, 1]
    column of row indices. -/
abbrev rowsScat (n C M : ℕ) (wf : ScatterDims.WF ⟨2, ![n, C]⟩ ⟨2, ![M, 1]⟩ ⟨2, ![M, C]⟩ [1] [0] [0] 1) :
    ScatterDims ⟨2, ![n, C]⟩ ⟨2, ![M, 1]⟩ ⟨2, ![M, C]⟩ where
  updateWindowDims := [1]
  insertedWindowDims := [0]
  scatterDimsToOperandDims := [0]
  indexVectorDim := 1
  wf := wf

/-- The row axis of the operand is an inserted axis: the window coordinate of every update there is 0. -/
private theorem rowsScat_window0 {n C M : ℕ}
    (wf : ScatterDims.WF ⟨2, ![n, C]⟩ ⟨2, ![M, 1]⟩ ⟨2, ![M, C]⟩ [1] [0] [0] 1)
    (j : (⟨2, ![M, C]⟩ : Shape).Idx) : (rowsScat n C M wf).window j 0 = 0 := by
  unfold ScatterDims.window
  rw [dif_neg]
  simp [ScatterDims.sKept, Shape.kept, List.mem_filter]

/-- The column axis of the operand is the window axis: the window coordinate of an update there is its column. -/
private theorem rowsScat_window1 {n C M : ℕ}
    (wf : ScatterDims.WF ⟨2, ![n, C]⟩ ⟨2, ![M, 1]⟩ ⟨2, ![M, C]⟩ [1] [0] [0] 1)
    (e : Fin M) (k : Fin C) : (rowsScat n C M wf).window (ix2 e k) 1 = k.val := by
  unfold ScatterDims.window
  rw [dif_pos (show (1 : Fin 2) ∈ (rowsScat n C M wf).sKept by
    simp [ScatterDims.sKept, Shape.kept, List.mem_filter])]
  rfl

/-- The start of an update of row e on the row axis is the index word of row e, read signed. -/
private theorem rowsScat_start0 {n C M : ℕ}
    (wf : ScatterDims.WF ⟨2, ![n, C]⟩ ⟨2, ![M, 1]⟩ ⟨2, ![M, C]⟩ [1] [0] [0] 1)
    (idx : IVec ⟨2, ![M, 1]⟩ w) (e : Fin M) (k : Fin C) :
    (rowsScat n C M wf).start (ix2 e k) idx 0 = (idx (ix2 e 0)).toInt := by
  unfold ScatterDims.start
  rw [dif_pos (show (0 : Fin 2) ∈ (rowsScat n C M wf).scatterDimsToOperandDims from List.mem_singleton.mpr rfl)]
  have hsi : (rowsScat n C M wf).siIdx (ix2 e k) ⟨List.idxOf (0 : Fin 2) (rowsScat n C M wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- The index words name no column: the start on the column axis is 0. -/
private theorem rowsScat_start1 {n C M : ℕ}
    (wf : ScatterDims.WF ⟨2, ![n, C]⟩ ⟨2, ![M, 1]⟩ ⟨2, ![M, C]⟩ [1] [0] [0] 1)
    (idx : IVec ⟨2, ![M, 1]⟩ w) (j : (⟨2, ![M, C]⟩ : Shape).Idx) :
    (rowsScat n C M wf).start j idx 1 = 0 := by
  unfold ScatterDims.start
  have h10 : (1 : Fin 2) ∉ ([0] : List (Fin 2)) := by decide
  rw [dif_neg (show (1 : Fin 2) ∉ (rowsScat n C M wf).scatterDimsToOperandDims from h10)]

/-- Update (e, k) lands on entry (i, c) exactly when the index word of row e, read signed, is i and k is c. -/
theorem rowsScat_lands {n C M : ℕ} (wf : ScatterDims.WF ⟨2, ![n, C]⟩ ⟨2, ![M, 1]⟩ ⟨2, ![M, C]⟩ [1] [0] [0] 1)
    (idx : IVec ⟨2, ![M, 1]⟩ w) (e : Fin M) (k : Fin C) (i : Fin n) (c : Fin C) :
    (rowsScat n C M wf).resultIdx? (ix2 e k) idx = some (ix2 i c)
      ↔ (idx (ix2 e 0)).toInt = (i.val : ℤ) ∧ k = c := by
  have hw0 := rowsScat_window0 wf (ix2 e k)
  have hw1 := rowsScat_window1 wf e k
  have hs0 := rowsScat_start0 wf idx e k
  have hs1 := rowsScat_start1 wf idx (ix2 e k)
  unfold ScatterDims.resultIdx?
  split
  · -- The update lands inside the operand, at start plus window on each axis.
    rename_i hh
    constructor
    · intro h
      have hf := Option.some.inj h
      have hv0 : ((rowsScat n C M wf).start (ix2 e k) idx 0
          + ((rowsScat n C M wf).window (ix2 e k) 0 : ℕ)).toNat = i.val := congrArg Fin.val (congrFun hf 0)
      have hv1 : ((rowsScat n C M wf).start (ix2 e k) idx 1
          + ((rowsScat n C M wf).window (ix2 e k) 1 : ℕ)).toNat = c.val := congrArg Fin.val (congrFun hf 1)
      have h0 := (hh 0).1
      rw [hw0, hs0] at hv0 h0
      rw [hw1, hs1] at hv1
      refine ⟨by omega, Fin.ext (by omega)⟩
    · rintro ⟨h, rfl⟩
      congr 1
      funext a
      refine Fin.ext ?_
      match a with
      | ⟨0, _⟩ =>
        show ((rowsScat n C M wf).start (ix2 e k) idx 0
          + ((rowsScat n C M wf).window (ix2 e k) 0 : ℕ)).toNat = i.val
        rw [hw0, hs0]
        omega
      | ⟨1, _⟩ =>
        show ((rowsScat n C M wf).start (ix2 e k) idx 1
          + ((rowsScat n C M wf).window (ix2 e k) 1 : ℕ)).toNat = k.val
        rw [hw1, hs1]
        omega
  · -- The update is dropped: its index word is outside [0, n).
    rename_i hh
    constructor
    · intro h; cases h
    · rintro ⟨h, rfl⟩
      exfalso
      apply hh
      intro a
      match a with
      | ⟨0, _⟩ =>
        show 0 ≤ (rowsScat n C M wf).start (ix2 e k) idx 0 + ((rowsScat n C M wf).window (ix2 e k) 0 : ℕ)
          ∧ (rowsScat n C M wf).start (ix2 e k) idx 0 + ((rowsScat n C M wf).window (ix2 e k) 0 : ℕ) < (n : ℤ)
        rw [hw0, hs0, h]
        have := i.isLt
        omega
      | ⟨1, _⟩ =>
        show 0 ≤ (rowsScat n C M wf).start (ix2 e k) idx 1 + ((rowsScat n C M wf).window (ix2 e k) 1 : ℕ)
          ∧ (rowsScat n C M wf).start (ix2 e k) idx 1 + ((rowsScat n C M wf).window (ix2 e k) 1 : ℕ) < (C : ℤ)
        rw [hw1, hs1]
        have := k.isLt
        omega

/-- Entry (i, c) of the row scatter: the operand's entry plus column c of the update rows whose index word is i. -/
theorem rowsScat_apply {n C M : ℕ} (wf : ScatterDims.WF ⟨2, ![n, C]⟩ ⟨2, ![M, 1]⟩ ⟨2, ![M, C]⟩ [1] [0] [0] 1)
    (z : FVec Ideal ⟨2, ![n, C]⟩ φ) (idx : IVec ⟨2, ![M, 1]⟩ w) (u : FVec Ideal ⟨2, ![M, C]⟩ φ) (i : Fin n) (c : Fin C) :
    Host.scatterAdd (rowsScat n C M wf) z idx u (ix2 i c)
      = z (ix2 i c) + ∑ e ∈ Finset.univ.filter (fun e : Fin M => (idx (ix2 e 0)).toInt = (i.val : ℤ)), u (ix2 e c) := by
  -- Entry (i, c) is the operand's entry plus the sum of the updates that land on (i, c).
  show z (ix2 i c) + ∑ j ∈ Finset.univ.filter (fun j => (rowsScat n C M wf).resultIdx? j idx = some (ix2 i c)), u j = _
  congr 1
  -- Only the updates of column c land on column c: they are indexed by their row.
  refine Finset.sum_nbij' (fun j => j 0) (fun e => ix2 e c) ?_ ?_ ?_ ?_ ?_
  · intro j hj
    have := (Finset.mem_filter.mp hj).2
    rw [eq_ix2 j] at this
    exact Finset.mem_filter.mpr ⟨Finset.mem_univ _, ((rowsScat_lands wf idx (j 0) (j 1) i c).mp this).1⟩
  · intro e he
    exact Finset.mem_filter.mpr
      ⟨Finset.mem_univ _, (rowsScat_lands wf idx e c i c).mpr ⟨(Finset.mem_filter.mp he).2, rfl⟩⟩
  · intro j hj
    have := (Finset.mem_filter.mp hj).2
    rw [eq_ix2 j] at this
    have hc : j 1 = c := ((rowsScat_lands wf idx (j 0) (j 1) i c).mp this).2
    exact (congrArg (fun k => ix2 (j 0) k) hc.symm).trans (eq_ix2 j).symm
  · intro e _
    rfl
  · intro j hj
    have := (Finset.mem_filter.mp hj).2
    rw [eq_ix2 j] at this
    have hc : j 1 = c := ((rowsScat_lands wf idx (j 0) (j 1) i c).mp this).2
    exact congrArg u ((eq_ix2 j).trans (congrArg (fun k => ix2 (j 0) k) hc))

/-- The dimension numbers of a vector of updates added into an [R, C] matrix through an [M, 2] table of
    (row, column) pairs. -/
abbrev pairScat (R C M : ℕ) (wf : ScatterDims.WF ⟨2, ![R, C]⟩ ⟨2, ![M, 2]⟩ ⟨1, ![M]⟩ [] [0, 1] [0, 1] 1) :
    ScatterDims ⟨2, ![R, C]⟩ ⟨2, ![M, 2]⟩ ⟨1, ![M]⟩ where
  updateWindowDims := []
  insertedWindowDims := [0, 1]
  scatterDimsToOperandDims := [0, 1]
  indexVectorDim := 1
  wf := wf

/-- Both axes of the operand are inserted axes: the window coordinate of every update is 0 on each. -/
private theorem pairScat_window {R C M : ℕ}
    (wf : ScatterDims.WF ⟨2, ![R, C]⟩ ⟨2, ![M, 2]⟩ ⟨1, ![M]⟩ [] [0, 1] [0, 1] 1)
    (j : (⟨1, ![M]⟩ : Shape).Idx) (a : Fin 2) : (pairScat R C M wf).window j a = 0 := by
  unfold ScatterDims.window
  rw [dif_neg]
  have : a = 0 ∨ a = 1 := by omega
  rcases this with rfl | rfl <;> simp [ScatterDims.sKept, Shape.kept, List.mem_filter]

/-- The start of update e on the row axis is the first index word of row e, read signed. -/
private theorem pairScat_start0 {R C M : ℕ}
    (wf : ScatterDims.WF ⟨2, ![R, C]⟩ ⟨2, ![M, 2]⟩ ⟨1, ![M]⟩ [] [0, 1] [0, 1] 1)
    (idx : IVec ⟨2, ![M, 2]⟩ w) (e : Fin M) :
    (pairScat R C M wf).start (ix1 e) idx 0 = (idx (ix2 e 0)).toInt := by
  unfold ScatterDims.start
  have hm : (0 : Fin 2) ∈ (pairScat R C M wf).scatterDimsToOperandDims := by
    show (0 : Fin 2) ∈ ([0, 1] : List (Fin 2)); decide
  rw [dif_pos hm]
  have hsi : (pairScat R C M wf).siIdx (ix1 e) ⟨List.idxOf (0 : Fin 2) (pairScat R C M wf).scatterDimsToOperandDims,
      List.idxOf_lt_length_iff.2 hm⟩ = ix2 e 0 := by
    funext b; refine Fin.ext ?_
    match b with
    | ⟨0, _⟩ => rfl
    | ⟨1, _⟩ => rfl
  rw [hsi]

/-- The start of update e on the column axis is the second index word of row e, read signed. -/
private theorem pairScat_start1 {R C M : ℕ}
    (wf : ScatterDims.WF ⟨2, ![R, C]⟩ ⟨2, ![M, 2]⟩ ⟨1, ![M]⟩ [] [0, 1] [0, 1] 1)
    (idx : IVec ⟨2, ![M, 2]⟩ w) (e : Fin M) :
    (pairScat R C M wf).start (ix1 e) idx 1 = (idx (ix2 e 1)).toInt := by
  unfold ScatterDims.start
  have hm : (1 : Fin 2) ∈ (pairScat R C M wf).scatterDimsToOperandDims := by
    show (1 : Fin 2) ∈ ([0, 1] : List (Fin 2)); decide
  rw [dif_pos hm]
  have hsi : (pairScat R C M wf).siIdx (ix1 e) ⟨List.idxOf (1 : Fin 2) (pairScat R C M wf).scatterDimsToOperandDims,
      List.idxOf_lt_length_iff.2 hm⟩ = ix2 e 1 := by
    funext b; refine Fin.ext ?_
    match b with
    | ⟨0, _⟩ => rfl
    | ⟨1, _⟩ => rfl
  rw [hsi]

/-- Update e lands on entry (p, q) exactly when its pair of index words, read signed, is (p, q). -/
theorem pairScat_lands {R C M : ℕ} (wf : ScatterDims.WF ⟨2, ![R, C]⟩ ⟨2, ![M, 2]⟩ ⟨1, ![M]⟩ [] [0, 1] [0, 1] 1)
    (idx : IVec ⟨2, ![M, 2]⟩ w) (e : Fin M) (p : Fin R) (q : Fin C) :
    (pairScat R C M wf).resultIdx? (ix1 e) idx = some (ix2 p q)
      ↔ (idx (ix2 e 0)).toInt = (p.val : ℤ) ∧ (idx (ix2 e 1)).toInt = (q.val : ℤ) := by
  have hw0 := pairScat_window wf (ix1 e) 0
  have hw1 := pairScat_window wf (ix1 e) 1
  have hs0 := pairScat_start0 wf idx e
  have hs1 := pairScat_start1 wf idx e
  unfold ScatterDims.resultIdx?
  split
  · -- The update lands inside the operand, at its start on each axis.
    rename_i hh
    constructor
    · intro h
      have hf := Option.some.inj h
      have hv0 : ((pairScat R C M wf).start (ix1 e) idx 0
          + ((pairScat R C M wf).window (ix1 e) 0 : ℕ)).toNat = p.val := congrArg Fin.val (congrFun hf 0)
      have hv1 : ((pairScat R C M wf).start (ix1 e) idx 1
          + ((pairScat R C M wf).window (ix1 e) 1 : ℕ)).toNat = q.val := congrArg Fin.val (congrFun hf 1)
      have h0 := (hh 0).1
      have h1 := (hh 1).1
      rw [hw0, hs0] at hv0 h0
      rw [hw1, hs1] at hv1 h1
      exact ⟨by omega, by omega⟩
    · rintro ⟨h0, h1⟩
      congr 1
      funext a
      refine Fin.ext ?_
      match a with
      | ⟨0, _⟩ =>
        show ((pairScat R C M wf).start (ix1 e) idx 0
          + ((pairScat R C M wf).window (ix1 e) 0 : ℕ)).toNat = p.val
        rw [hw0, hs0]
        omega
      | ⟨1, _⟩ =>
        show ((pairScat R C M wf).start (ix1 e) idx 1
          + ((pairScat R C M wf).window (ix1 e) 1 : ℕ)).toNat = q.val
        rw [hw1, hs1]
        omega
  · -- The update is dropped: one of its index words is outside the operand.
    rename_i hh
    constructor
    · intro h; cases h
    · rintro ⟨h0, h1⟩
      exfalso
      apply hh
      intro a
      match a with
      | ⟨0, _⟩ =>
        show 0 ≤ (pairScat R C M wf).start (ix1 e) idx 0 + ((pairScat R C M wf).window (ix1 e) 0 : ℕ)
          ∧ (pairScat R C M wf).start (ix1 e) idx 0 + ((pairScat R C M wf).window (ix1 e) 0 : ℕ) < (R : ℤ)
        rw [hw0, hs0, h0]
        have := p.isLt
        omega
      | ⟨1, _⟩ =>
        show 0 ≤ (pairScat R C M wf).start (ix1 e) idx 1 + ((pairScat R C M wf).window (ix1 e) 1 : ℕ)
          ∧ (pairScat R C M wf).start (ix1 e) idx 1 + ((pairScat R C M wf).window (ix1 e) 1 : ℕ) < (C : ℤ)
        rw [hw1, hs1, h1]
        have := q.isLt
        omega

/-- Entry (p, q) of the pair scatter: the operand's entry plus the updates whose pair of index words is (p, q). -/
theorem pairScat_apply {R C M : ℕ} (wf : ScatterDims.WF ⟨2, ![R, C]⟩ ⟨2, ![M, 2]⟩ ⟨1, ![M]⟩ [] [0, 1] [0, 1] 1)
    (z : FVec Ideal ⟨2, ![R, C]⟩ φ) (idx : IVec ⟨2, ![M, 2]⟩ w) (u : FVec Ideal ⟨1, ![M]⟩ φ) (p : Fin R) (q : Fin C) :
    Host.scatterAdd (pairScat R C M wf) z idx u (ix2 p q)
      = z (ix2 p q) + ∑ e ∈ Finset.univ.filter
          (fun e : Fin M => (idx (ix2 e 0)).toInt = (p.val : ℤ) ∧ (idx (ix2 e 1)).toInt = (q.val : ℤ)), u (ix1 e) := by
  -- Entry (p, q) is the operand's entry plus the sum of the updates that land on (p, q).
  show z (ix2 p q) + ∑ j ∈ Finset.univ.filter (fun j => (pairScat R C M wf).resultIdx? j idx = some (ix2 p q)), u j = _
  congr 1
  -- The updates are indexed by their only coordinate.
  refine Finset.sum_nbij' (fun j => j 0) (fun e => ix1 e) ?_ ?_ ?_ ?_ ?_
  · intro j hj
    have := (Finset.mem_filter.mp hj).2
    rw [eq_ix1 j] at this
    exact Finset.mem_filter.mpr ⟨Finset.mem_univ _, (pairScat_lands wf idx (j 0) p q).mp this⟩
  · intro e he
    exact Finset.mem_filter.mpr ⟨Finset.mem_univ _, (pairScat_lands wf idx e p q).mpr (Finset.mem_filter.mp he).2⟩
  · intro j _
    exact (eq_ix1 j).symm
  · intro e _
    rfl
  · intro j _
    exact congrArg u (eq_ix1 j)

/-- The dimension numbers of a vector gathered through an [M, 1] column of indices. -/
abbrev vecGather (n M : ℕ) (wf : GatherDims.WF ⟨1, ![n]⟩ ⟨2, ![M, 1]⟩ ⟨1, ![M]⟩ [] [0] [] [0] [] 1 ![1]) :
    GatherDims ⟨1, ![n]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- Entry e of the gather: the vector at the index word of row e, read signed and clamped into the vector. -/
theorem vecGather_apply {α : Type} {n M : ℕ} (hn : 0 < n)
    (wf : GatherDims.WF ⟨1, ![n]⟩ ⟨2, ![M, 1]⟩ ⟨1, ![M]⟩ [] [0] [] [0] [] 1 ![1])
    (x : (⟨1, ![n]⟩ : Shape).Idx → α) (idx : IVec ⟨2, ![M, 1]⟩ w) (e : Fin M) :
    Host.gather (vecGather n M wf) x idx (ix1 e)
      = x (ix1 ⟨min (idx (ix2 e 0)).toInt.toNat (n - 1), by omega⟩) := by
  unfold Host.gather
  congr 1
  funext a
  refine Fin.ext ?_
  match a with
  | ⟨0, _⟩ =>
    -- The only axis is collapsed and indexed: no batching coordinate, no offset coordinate, and the start is the
    -- index word of row e clamped into [0, n − 1].
    show (vecGather n M wf).start (ix1 e) idx 0 + (vecGather n M wf).batchCoord (ix1 e) 0
      + (vecGather n M wf).offCoord (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecGather n M wf).startIndexMap from List.mem_singleton.mpr rfl)]
    have hsi : (vecGather n M wf).siIdx (ix1 e) ⟨List.idxOf (0 : Fin 1) (vecGather n M wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl

/-- A word below 2^31 is not negative when read signed. -/
private theorem not_slt_zero (a : BitVec 32) (ha31 : a.toNat < 2 ^ 31) : ¬ IntOp.cmpi .slt a 0#32 = 1 := by
  have h0 : (0#32).toNat < 2 ^ 31 := by decide
  intro h
  have hlt := (StableHlo.Predicate.slt_iff_toNat ha31 h0).mp h
  simp at hlt

/-- NumPy's rule for a negative index (add the extent) leaves an index word already in [0, T) alone, and its signed
    reading is its value. -/
theorem wrap_toInt (a n : BitVec 32) (T : ℕ) (ha : a.toNat < T) (hT : T ≤ 2 ^ 31) :
    (Scalar.select (IntOp.cmpi .slt a 0#32) (IntOp.addi a n) a).toInt = (a.toNat : ℤ) := by
  have ha31 : a.toNat < 2 ^ 31 := by omega
  unfold Scalar.select
  rw [if_neg (not_slt_zero a ha31), StableHlo.Predicate.toInt_eq_toNat_of_lt ha31]

/-- The same rule followed by the clamp into [0, T − 1]. -/
theorem wrap_clamp (a n : BitVec 32) (T : ℕ) (ha : a.toNat < T) (hT : T ≤ 2 ^ 31) :
    min (Scalar.select (IntOp.cmpi .slt a 0#32) (IntOp.addi a n) a).toInt.toNat (T - 1) = a.toNat := by
  rw [wrap_toInt a n T ha hT, Int.toNat_natCast]
  omega

end Cert.ScatterRead

end
-- ==== Proof.RefHead.lean ====
/-
  The pooled head of the reference, read index by index: the per-graph sums by a scatter-add of the rows, the
  per-graph counts by a scatter-add of ones floored at one, the quotient, the projection and its bias.
-/
import proofs.«427144_j14688788152817_2_alg».proof.Proof.RefDefs
import proofs.«427144_j14688788152817_2_alg».proof.Proof.Spec
import proofs.«427144_j14688788152817_2_alg».proof.Proof.LibMlp
import proofs.«427144_j14688788152817_2_alg».proof.Proof.LibSegSum
import proofs.«427144_j14688788152817_2_alg».proof.Proof.LibScatterRead
import proofs.«427144_j14688788152817_2_alg».proof.Proof.LibColumn
import Idealize.ShloMosaic.PureOps.Ideal.Laws
import Idealize.ShloMosaic.Lib.ValueIdx
import Idealize.ShloMosaic.Lib.ValueLayout
import Idealize.ShloMosaic.Lib.Pipeline.Value

noncomputable section

namespace Cert.ReferenceIdeal.RefValue

open Cert.ReferenceIdeal Cert.ReferenceIdeal.Gen Idealize.ShloMosaic Idealize.ShloMosaic.TcCoe Idealize.ShloMosaic.ValueIdx

/-! ## The layout steps -/

/-- A vector made a column and spread along the rows reads, at (p, q), its entry p. -/
theorem bcast_col {a b : ℕ} (h1 : (⟨1, ![a]⟩ : Shape).BroadcastsInDim ⟨2, ![a, 1]⟩ ![0])
    (h2 : (⟨2, ![a, 1]⟩ : Shape).BroadcastsInDim ⟨2, ![a, b]⟩ ![0, 1]) (x : (⟨1, ![a]⟩ : Shape).Idx → EReal) (p : Fin a) (q : Fin b) :
    broadcastInDim (⟨2, ![a, b]⟩ : Shape) ![0, 1] h2 (broadcastInDim (⟨2, ![a, 1]⟩ : Shape) ![0] h1 x) (ix2 p q) = x (ix1 p) := by
  refine (broadcastInDim_apply ![0, 1] h2 _ (ix2 p q) (ix2 p 0) fun ax => ?_).trans
    (broadcastInDim_apply ![0] h1 x (ix2 p 0) (ix1 p) fun ax => ?_)
  · match ax with
    | ⟨0, _⟩ =>
      show p.val = if a = 1 then 0 else p.val
      split
      · rename_i h; have := p.isLt; omega
      · rfl
    | ⟨1, _⟩ =>
      show (0 : ℕ) = if (1 : ℕ) = 1 then 0 else q.val
      rw [if_pos rfl]
  · match ax with
    | ⟨0, _⟩ =>
      show p.val = if a = 1 then 0 else p.val
      split
      · rename_i h; have := p.isLt; omega
      · rfl

/-! ## The two scatter-adds -/

/-- The rows added into zeros by graph id: entry (g, d) is the segment sum. An id read signed is g exactly when its word
    is the word of g, so the scatter's test and the one-hot factor pick the same rows. -/
theorem seg_sum_read (h : FVec Ideal S100000x64 .f32) (col : IVec S100000x1 32) (g : Fin 8) (d : Fin 64) :
    Host.scatterAdd (F := Ideal) scatter_S8x64_S100000x1_S100000x64_1_0_0_1
        (broadcastInDim S8x64 ![] bcast_S_S8x64 (constant (F := Ideal) S_ .f32 0x00000000#32)) col h (ix2 g d)
      = Cert.Gnn.segSum h col (ix2 g d) := by
  have hd : scatter_S8x64_S100000x1_S100000x64_1_0_0_1
      = Cert.Lib.SegSum.segDims 8 100000 64 scatter_S8x64_S100000x1_S100000x64_1_0_0_1_wf := rfl
  unfold Host.scatterAdd
  rw [Ideal.hostScatterAdd_def, hd, Cert.Lib.SegSum.hostScatterAdd_seg scatter_S8x64_S100000x1_S100000x64_1_0_0_1_wf _ col h (ix2 g d)]
  show Ideal.ofBits .f32 0x00000000#32 + _ = _
  rw [Ideal.ofBits_zero_f32, zero_add]
  unfold Cert.Gnn.segSum
  refine Finset.sum_congr rfl fun n _ => ?_
  have hg : g.val < 2 ^ 31 := by have := g.isLt; omega
  show (if (col (ix2 n ⟨0, Nat.one_pos⟩)).toInt = (g.val : Int) then h (ix2 n d) else 0)
    = (if col (ix2 n ⟨0, Nat.one_pos⟩) = BitVec.ofNat 32 g.val then (1 : EReal) else 0) * h (ix2 n d)
  by_cases hc : col (ix2 n ⟨0, Nat.one_pos⟩) = BitVec.ofNat 32 g.val
  · rw [if_pos ((Cert.Lib.SegSum.toInt_eq_natCast_iff _ _ hg).2 hc), if_pos hc, one_mul]
  · rw [if_neg (fun e => hc ((Cert.Lib.SegSum.toInt_eq_natCast_iff _ _ hg).1 e)), if_neg hc, zero_mul]

/-- The word of one added into zeros by graph id: entry g is the segment count. -/
theorem seg_cnt_read (col : IVec S100000x1 32) (g : Fin 8) :
    Host.scatterAdd (F := Ideal) scatter_S8_S100000x1_S100000_n_0_0_1
        (broadcastInDim S8 ![] bcast_S_S8 (constant (F := Ideal) S_ .f32 0x00000000#32)) col
        (broadcastInDim S100000 ![] bcast_S_S100000 (constant (F := Ideal) S_ .f32 0x3F800000#32)) (ix1 g)
      = Cert.Gnn.segCnt col g := by
  have hd : scatter_S8_S100000x1_S100000_n_0_0_1
      = Cert.ScatterRead.vecScat 8 100000 scatter_S8_S100000x1_S100000_n_0_0_1_wf := rfl
  rw [hd, Cert.ScatterRead.vecScat_apply]
  show Ideal.ofBits .f32 0x00000000#32
      + ∑ e ∈ Finset.univ.filter (fun e : Fin 100000 => (col (ix2 e 0)).toInt = (g.val : ℤ)), Ideal.ofBits .f32 0x3F800000#32 = _
  rw [Ideal.ofBits_zero_f32, zero_add, Finset.sum_filter]
  unfold Cert.Gnn.segCnt
  refine Finset.sum_congr rfl fun n _ => ?_
  have hg : g.val < 2 ^ 31 := by have := g.isLt; omega
  show (if (col (ix2 n ⟨0, Nat.one_pos⟩)).toInt = (g.val : Int) then Cert.Gnn.one else 0)
    = (if col (ix2 n ⟨0, Nat.one_pos⟩) = BitVec.ofNat 32 g.val then (1 : EReal) else 0) * Cert.Gnn.one
  by_cases hc : col (ix2 n ⟨0, Nat.one_pos⟩) = BitVec.ofNat 32 g.val
  · rw [if_pos ((Cert.Lib.SegSum.toInt_eq_natCast_iff _ _ hg).2 hc), if_pos hc, one_mul]
  · rw [if_neg (fun e => hc ((Cert.Lib.SegSum.toInt_eq_natCast_iff _ _ hg).1 e)), if_neg hc, zero_mul]

/-! ## The quotient and the projection -/

/-- The divisor: the counts floored at the word of one, made a column and spread along the rows. -/
theorem divisor_read (C : FVec Ideal S8 .f32) (g : Fin 8) (d : Fin 64) :
    broadcastInDim S8x64 ![0, 1] bcast_S8x1_S8x64_0_1 (broadcastInDim S8x1 ![0] bcast_S8_S8x1_0
        (maximumf (broadcastInDim S8 ![] bcast_S_S8 (id (constant (F := Ideal) S_ .f32 0x3F800000#32))) C)) (ix2 g d)
      = max Cert.Gnn.one (C (ix1 g)) := by
  rw [bcast_col bcast_S8_S8x1_0 bcast_S8x1_S8x64_0_1 _ g d]
  rfl

/-- The quotient of sums S by divisors Dv, projected through Wp with the bias bp, at (g, k). -/
theorem proj_read (S Dv : FVec Ideal S8x64 .f32) (Wp : FVec Ideal S64x2 .f32) (bp : FVec Ideal S2 .f32) (g : Fin 8) (k : Fin 2) :
    addf (Host.dotGeneral dot_S8x64_S64x2_S8x2_1_0_0_1_n_n none (Host.divf S Dv) Wp)
        (broadcastInDim S8x2 ![0, 1] bcast_S1x2_S8x2_0_1 (broadcastInDim S1x2 ![1] bcast_S2_S1x2_1 bp)) (ix2 g k)
      = (∑ d : Fin 64, Ideal.div (S (ix2 g d)) (Dv (ix2 g d)) * Wp (ix2 d k)) + Cert.Mlp.vec bp k := by
  have hd : dot_S8x64_S64x2_S8x2_1_0_0_1_n_n = DotDims.plain 8 64 2 := rfl
  rw [hd]
  show Host.dotGeneral (DotDims.plain 8 64 2) none (Host.divf S Dv) Wp (ix2 g k)
      + broadcastInDim S8x2 ![0, 1] bcast_S1x2_S8x2_0_1 (broadcastInDim S1x2 ![1] bcast_S2_S1x2_1 bp) (ix2 g k) = _
  rw [show Host.dotGeneral (DotDims.plain 8 64 2) none (Host.divf S Dv) Wp (ix2 g k) = _ from
      Ideal.dotGeneral_apply (DotDims.plain 8 64 2) none .single (Host.divf S Dv) Wp (ix2 g k),
    Cert.Mlp.plain_sum (Host.divf S Dv) Wp (ix2 g k), Cert.Mlp.bcast_two bcast_S2_S1x2_1 bcast_S1x2_S8x2_0_1 bp g k]
  rfl

/-- The reference's pooled head over any rows h, graph ids gid, projection Wp and bias bp is the specification's. -/
theorem head_eq (h : FVec Ideal S100000x64 .f32) (gid : IVec S100000 32) (Wp : FVec Ideal S64x2 .f32) (bp : FVec Ideal S2 .f32) :
    (addf (Host.dotGeneral dot_S8x64_S64x2_S8x2_1_0_0_1_n_n none (Host.divf (Host.scatterAdd scatter_S8x64_S100000x1_S100000x64_1_0_0_1 (broadcastInDim S8x64 ![] bcast_S_S8x64 (constant S_ .f32 0x00000000#32)) (broadcastInDim S100000x1 ![0] bcast_S100000_S100000x1_0 gid) h) (broadcastInDim S8x64 ![0, 1] bcast_S8x1_S8x64_0_1 (broadcastInDim S8x1 ![0] bcast_S8_S8x1_0 (maximumf (broadcastInDim S8 ![] bcast_S_S8 (id (constant S_ .f32 0x3F800000#32))) (Host.scatterAdd scatter_S8_S100000x1_S100000_n_0_0_1 (broadcastInDim S8 ![] bcast_S_S8 (constant S_ .f32 0x00000000#32)) (broadcastInDim S100000x1 ![0] bcast_S100000_S100000x1_0 gid) (broadcastInDim S100000 ![] bcast_S_S100000 (constant S_ .f32 0x3F800000#32))))))) Wp) (broadcastInDim S8x2 ![0, 1] bcast_S1x2_S8x2_0_1 (broadcastInDim S1x2 ![1] bcast_S2_S1x2_1 bp)) : S8x2.Idx → EReal)
      = Cert.Gnn.head h (broadcastInDim S100000x1 ![0] bcast_S100000_S100000x1_0 gid) Wp (Cert.Mlp.vec bp) := by
  funext i
  obtain ⟨g, k, rfl⟩ : ∃ (g : Fin 8) (k : Fin 2), i = ix2 g k := ⟨i 0, i 1, eq_ix2 i⟩
  refine (proj_read _ _ Wp bp g k).trans ?_
  unfold Cert.Gnn.head
  refine congrArg (· + Cert.Mlp.vec bp k) (Finset.sum_congr rfl fun d _ => congrArg (· * Wp (ix2 d k)) ?_)
  rw [divisor_read _ g d, seg_cnt_read _ g, seg_sum_read h _ g d]

end Cert.ReferenceIdeal.RefValue

end
-- ==== Proof.RefVal.lean ====
/-
  The reference's result as a function of its inputs, on the extended reals.

  The reference is a two-layer graph convolution with mean pooling.  Each layer aggregates neighbour rows (a gather
  along the edges' source ids, a scatter-add along their destination ids, both scaled by degree norms) and then applies
  a dense epilogue  max (a · W + b) 0 ; layer 1's output is scaled row by row by the source norm before layer 2
  gathers it.  The head pools the rows of each graph and projects them.

  The aggregation chains stay opaque (`agg1`, `norm10`, `mid`): nothing here reads them at an index.  What is
  read index by index is the dense epilogue (a plain product's contraction is a sum over the middle coordinate, the
  bias is a vector broadcast in two steps, the rectifier a maximum with the zero word) and the row scaling (a column
  broadcast along its rows).  With the pooled head read off separately, the result is the head of layer 2's dense
  epilogue of the aggregate of layer 1's scaled dense epilogue.
-/
import proofs.«427144_j14688788152817_2_alg».proof.Proof.Gen.ReferenceIdeal.Run
import proofs.«427144_j14688788152817_2_alg».proof.Proof.RefDefs
import proofs.«427144_j14688788152817_2_alg».proof.Proof.RefHead
import proofs.«427144_j14688788152817_2_alg».proof.Proof.Spec
import proofs.«427144_j14688788152817_2_alg».proof.Proof.LibMlp
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.ReferenceIdeal.RefValue

open Cert.ReferenceIdeal Cert.ReferenceIdeal.Gen Cert.ReferenceIdeal.Value Idealize.ShloMosaic Idealize.ShloMosaic.TcCoe Idealize.SL.Sem Idealize.ShloMosaic.StableHlo Idealize.ShloMosaic.ValueIdx

namespace Layer

/-! ## A layer's dense epilogue and row scaling read at an index, over variables -/

/-- An [N, 1] column spread along its rows to [N, H] reads, at (p, q), the column's entry p. -/
theorem col_read {α : Type} {N H : ℕ} (h : (⟨2, ![N, 1]⟩ : Shape).BroadcastsInDim ⟨2, ![N, H]⟩ ![0, 1])
    (n : (⟨2, ![N, 1]⟩ : Shape).Idx → α) (p : Fin N) (q : Fin H) :
    broadcastInDim (⟨2, ![N, H]⟩ : Shape) ![0, 1] h n (ix2 p q) = n (ix2 p ⟨0, Nat.one_pos⟩) := by
  refine broadcastInDim_apply ![0, 1] h n (ix2 p q) (ix2 p ⟨0, Nat.one_pos⟩) fun a => ?_
  match a with
  | ⟨0, _⟩ =>
    show p.val = if N = 1 then 0 else p.val
    split
    · have := p.isLt; omega
    · rfl
  | ⟨1, _⟩ =>
    show 0 = if (1 : ℕ) = 1 then 0 else q.val
    rw [if_pos rfl]

/-- A plain product plus a bias vector broadcast in two steps, at (p, q): the row of a against the column of W, plus
    entry q of the bias. -/
theorem lin_read {N K H : ℕ} (d : DotDims ⟨2, ![N, K]⟩ ⟨2, ![K, H]⟩ ⟨2, ![N, H]⟩) (hd : d = DotDims.plain N K H)
    (h1 : (⟨1, ![H]⟩ : Shape).BroadcastsInDim ⟨2, ![1, H]⟩ ![1])
    (h2 : (⟨2, ![1, H]⟩ : Shape).BroadcastsInDim ⟨2, ![N, H]⟩ ![0, 1])
    (a : FVec Ideal ⟨2, ![N, K]⟩ .f32) (W : FVec Ideal ⟨2, ![K, H]⟩ .f32) (b : FVec Ideal ⟨1, ![H]⟩ .f32)
    (p : Fin N) (q : Fin H) :
    addf (Host.dotGeneral d none a W)
        (broadcastInDim (⟨2, ![N, H]⟩ : Shape) ![0, 1] h2 (broadcastInDim (⟨2, ![1, H]⟩ : Shape) ![1] h1 b)) (ix2 p q)
      = (∑ k : Fin K, a (ix2 p k) * W (ix2 k q)) + b (ix1 q) := by
  subst hd
  rw [addf_apply]
  have hm : Host.dotGeneral (DotDims.plain N K H) none a W (ix2 p q) = ∑ k : Fin K, a (ix2 p k) * W (ix2 k q) := by
    rw [show Host.dotGeneral (DotDims.plain N K H) none a W (ix2 p q) = _ from
      Ideal.dotGeneral_apply (DotDims.plain N K H) none .single a W (ix2 p q)]
    exact Cert.Mlp.plain_sum a W (ix2 p q)
  rw [Cert.Mlp.bcast_two h1 h2 b p q, hm]

/-- The dense epilogue as the host spells it (a product, a bias broadcast in two steps, a maximum with zeros) is the
    dense epilogue. -/
theorem dense_read {N : ℕ} (d : DotDims ⟨2, ![N, 64]⟩ ⟨2, ![64, 64]⟩ ⟨2, ![N, 64]⟩) (hd : d = DotDims.plain N 64 64)
    (h0 : (⟨0, ![]⟩ : Shape).BroadcastsInDim ⟨2, ![N, 64]⟩ ![])
    (h1 : (⟨1, ![64]⟩ : Shape).BroadcastsInDim ⟨2, ![1, 64]⟩ ![1])
    (h2 : (⟨2, ![1, 64]⟩ : Shape).BroadcastsInDim ⟨2, ![N, 64]⟩ ![0, 1])
    (a : FVec Ideal ⟨2, ![N, 64]⟩ .f32) (W : FVec Ideal ⟨2, ![64, 64]⟩ .f32) (b : FVec Ideal ⟨1, ![64]⟩ .f32) :
    maximumf (addf (Host.dotGeneral d none a W)
          (broadcastInDim (⟨2, ![N, 64]⟩ : Shape) ![0, 1] h2 (broadcastInDim (⟨2, ![1, 64]⟩ : Shape) ![1] h1 b)))
        (broadcastInDim (⟨2, ![N, 64]⟩ : Shape) ![] h0 (constant (⟨0, ![]⟩ : Shape) .f32 0x00000000#32))
      = Cert.Gnn.dense a W (Cert.Mlp.vec b) := by
  funext i
  obtain ⟨p, q, rfl⟩ : ∃ (p : Fin N) (q : Fin 64), i = ix2 p q := ⟨i 0, i 1, eq_ix2 i⟩
  rw [maximumf_apply, lin_read d hd h1 h2 a W b p q]
  rfl

/-- Rows multiplied by a column spread along them are the rows scaled by the column. -/
theorem scale_read {N : ℕ} (h : (⟨2, ![N, 1]⟩ : Shape).BroadcastsInDim ⟨2, ![N, 64]⟩ ![0, 1])
    (x : FVec Ideal ⟨2, ![N, 64]⟩ .f32) (n : FVec Ideal ⟨2, ![N, 1]⟩ .f32) :
    mulf x (broadcastInDim (⟨2, ![N, 64]⟩ : Shape) ![0, 1] h n) = Cert.Gnn.scaleRows x n := by
  funext i
  obtain ⟨p, q, rfl⟩ : ∃ (p : Fin N) (q : Fin 64), i = ix2 p q := ⟨i 0, i 1, eq_ix2 i⟩
  rw [mulf_apply, col_read h n p q]
  rfl

end Layer

/-! ## The two layers of the reference -/

/-- The reference's dense epilogue, over any rows, weights and bias, is the dense epilogue. -/
theorem dense_host (a : FVec Ideal S100000x64 .f32) (W : FVec Ideal S64x64 .f32) (b : FVec Ideal S64 .f32) :
    maximumf (addf (Host.dotGeneral dot_S100000x64_S64x64_S100000x64_1_0_0_1_n_n none a W) (broadcastInDim S100000x64 ![0, 1] bcast_S1x64_S100000x64_0_1 (broadcastInDim S1x64 ![1] bcast_S64_S1x64_1 b))) (broadcastInDim S100000x64 ![] bcast_S_S100000x64 (constant S_ .f32 0x00000000#32))
      = Cert.Gnn.dense (N := 100000) a W (Cert.Mlp.vec b) :=
  Layer.dense_read dot_S100000x64_S64x64_S100000x64_1_0_0_1_n_n rfl bcast_S_S100000x64 bcast_S64_S1x64_1
    bcast_S1x64_S100000x64_0_1 a W b

/-- The reference's row scaling, over any rows and column, is the row scaling. -/
theorem scale_host (x : FVec Ideal S100000x64 .f32) (n : FVec Ideal S100000x1 .f32) :
    mulf x (broadcastInDim S100000x64 ![0, 1] bcast_S100000x1_S100000x64_0_1 n) = Cert.Gnn.scaleRows (N := 100000) x n :=
  Layer.scale_read bcast_S100000x1_S100000x64_0_1 x n

/-- Layer 1's scaled output is the dense epilogue of its aggregate, scaled by the source norm. -/
theorem h1s_eq (m : (ℓ : Loc nD τ sig) → Buf (Elt Ideal) ℓ) (c : Dev nD) :
    h1s m c = Cert.Gnn.hidden1 (N := 100000) (agg1 m c) (norm10 m c) (m ((c.tc : Thread nD τ).loc main_arg1))
      (Cert.Mlp.vec (m ((c.tc : Thread nD τ).loc main_arg2))) := by
  unfold h1s Cert.Gnn.hidden1
  rw [dense_host (agg1 m c) (m ((c.tc : Thread nD τ).loc main_arg1)) (m ((c.tc : Thread nD τ).loc main_arg2)), scale_host]

/-- THE REFERENCE'S VALUE: the pooled head of layer 2's dense epilogue of the aggregate of layer 1's scaled output. -/
theorem ref_value (m : (ℓ : Loc nD τ sig) → Buf (Elt Ideal) ℓ) (c : Dev nD) :
    (res_main_v65 (F := Ideal) m c : S8x2.Idx → EReal)
      = Cert.Gnn.head
          (Cert.Gnn.dense (N := 100000)
            (mid m c (Cert.Gnn.hidden1 (N := 100000) (agg1 m c) (norm10 m c) (m ((c.tc : Thread nD τ).loc main_arg1))
              (Cert.Mlp.vec (m ((c.tc : Thread nD τ).loc main_arg2)))))
            (m ((c.tc : Thread nD τ).loc main_arg3)) (Cert.Mlp.vec (m ((c.tc : Thread nD τ).loc main_arg4))))
          (broadcastInDim S100000x1 ![0] bcast_S100000_S100000x1_0 (m ((c.tc : Thread nD τ).loc main_arg9)))
          (m ((c.tc : Thread nD τ).loc main_arg5)) (Cert.Mlp.vec (m ((c.tc : Thread nD τ).loc main_arg6))) := by
  refine (res_outline m c).trans ?_
  rw [dense_host, h1s_eq m c]
  exact head_eq _ (m ((c.tc : Thread nD τ).loc main_arg9)) (m ((c.tc : Thread nD τ).loc main_arg5)) (m ((c.tc : Thread nD τ).loc main_arg6))

end Cert.ReferenceIdeal.RefValue

end
-- ==== Proof.Bridge.lean ====
/-
  The two idealized programs end with equal results.

  The kernel program's result is what its second pallas_call writes back at its last grid point: the pooled head of
  layer 2's dense epilogue over the aggregate that the host operations between the calls compute from the first
  call's output, which is layer 1's dense epilogue scaled by the source norm. The reference computes the same head
  of the same dense epilogue of the same aggregate. The host operations the two programs share (degree norms,
  gathers, scatter-adds) are carried as the same functions of the argument arrays and never opened; a bias read as a
  one-row matrix is the bias read as a vector; the graph ids made a column by a reshape are the ids made a column by
  a broadcast.
-/
import proofs.«427144_j14688788152817_2_alg».proof.Proof.KI.Run
import proofs.«427144_j14688788152817_2_alg».proof.Proof.KI.Val0
import proofs.«427144_j14688788152817_2_alg».proof.Proof.KI.Val1
import proofs.«427144_j14688788152817_2_alg».proof.Proof.KI.Host
import proofs.«427144_j14688788152817_2_alg».proof.Proof.RefVal
import proofs.«427144_j14688788152817_2_alg».proof.Proof.LibColumn
import proofs.«427144_j14688788152817_2_alg».proof.Proof.LibMlp
import proofs.«427144_j14688788152817_2_alg».proof.Proof.Gen.Pre_finite_inputs
import proofs.«427144_j14688788152817_2_alg».proof.Defs

noncomputable section

namespace Cert.Proof.Bridge

open Idealize.ShloMosaic Idealize.ShloMosaic.TcCoe Idealize.SL.Sem Idealize.ShloMosaic.ValueIdx
open Cert.ReferenceIdeal.RefValue

/-- A vector reshaped to a column and the vector broadcast to a column are the same column: entry (p, 0) of either
    is entry p of the vector. -/
theorem col_reshape_eq_bcast {α : Type} (x : (⟨1, ![100000]⟩ : Shape).Idx → α)
    (hs : (⟨1, ![100000]⟩ : Shape).ShapeCasts ⟨2, ![100000, 1]⟩)
    (hb : (⟨1, ![100000]⟩ : Shape).BroadcastsInDim ⟨2, ![100000, 1]⟩ ![0]) :
    shapeCast (⟨2, ![100000, 1]⟩ : Shape) x hs = broadcastInDim (⟨2, ![100000, 1]⟩ : Shape) ![0] hb x := by
  funext i
  obtain ⟨p, u, rfl⟩ : ∃ (p : Fin 100000) (u : Fin 1), i = ix2 p u := ⟨i 0, i 1, eq_ix2 i⟩
  rw [Cert.Attn.Column.shapeCast_a_a1_apply]
  refine (broadcastInDim_apply ![0] hb x (ix2 p u) (ix1 p) fun a => ?_).symm
  match a with
  | ⟨0, _⟩ =>
    show p.val = if (100000 : ℕ) = 1 then 0 else p.val
    rw [if_neg (by decide)]

/-- The common value of the two results, as one function of the kernel program's argument arrays. -/
def result (m : (ℓ : Loc Cert.KernelIdeal.nD Cert.KernelIdeal.τ Cert.KernelIdeal.sig) → Buf (Elt Ideal) ℓ) (c : Dev Cert.KernelIdeal.nD) :
    (⟨2, ![8, 2]⟩ : Shape).Idx → EReal :=
  Cert.Gnn.head
    (Cert.Gnn.dense (N := 100000)
      (midF (F := Ideal) (m ((c.tc : Thread Cert.KernelIdeal.nD Cert.KernelIdeal.τ).loc Cert.KernelIdeal.main_arg7)) (m ((c.tc : Thread Cert.KernelIdeal.nD Cert.KernelIdeal.τ).loc Cert.KernelIdeal.main_arg8))
        (Cert.Gnn.hidden1 (N := 100000) (agg1F (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)))
          (norm10F (F := Ideal) (m ((c.tc : Thread Cert.KernelIdeal.nD Cert.KernelIdeal.τ).loc Cert.KernelIdeal.main_arg7))) (m ((c.tc : Thread Cert.KernelIdeal.nD Cert.KernelIdeal.τ).loc Cert.KernelIdeal.main_arg1)) (Cert.Mlp.vec (m ((c.tc : Thread Cert.KernelIdeal.nD Cert.KernelIdeal.τ).loc Cert.KernelIdeal.main_arg2)))))
      (m ((c.tc : Thread Cert.KernelIdeal.nD Cert.KernelIdeal.τ).loc Cert.KernelIdeal.main_arg3)) (Cert.Mlp.vec (m ((c.tc : Thread Cert.KernelIdeal.nD Cert.KernelIdeal.τ).loc Cert.KernelIdeal.main_arg4))))
    (broadcastInDim Cert.ReferenceIdeal.S100000x1 ![0] Cert.ReferenceIdeal.Facts₀.bcast_S100000_S100000x1_0 (m ((c.tc : Thread Cert.KernelIdeal.nD Cert.KernelIdeal.τ).loc Cert.KernelIdeal.main_arg9)))
    (m ((c.tc : Thread Cert.KernelIdeal.nD Cert.KernelIdeal.τ).loc Cert.KernelIdeal.main_arg5)) (Cert.Mlp.vec (m ((c.tc : Thread Cert.KernelIdeal.nD Cert.KernelIdeal.τ).loc Cert.KernelIdeal.main_arg6)))

section Kernel
open Cert.KernelIdeal Cert.KernelIdeal.Gen Cert.KernelIdeal.Run Cert.KernelIdeal.R0 Cert.KernelIdeal.R1 Cert.KernelIdeal.Val Cert.KernelIdeal.Host

/-- What the kernel program leaves in its result array is `result`. -/
theorem kernel_value (m : (ℓ : Loc nD τ sig) → Buf (Elt Ideal) ℓ) (c : Dev nD) :
    ((dat1 (F := Ideal) (E7 m) c).arrAt 6 cfg1.N : (⟨2, ![8, 2]⟩ : Shape).Idx → EReal) = result m c := by
  have h9 : 9 < cfg1.N := by rw [show cfg1.N = 10 from N_1]; decide
  refine (arr1_final (E7 m) c h9).trans ((out1_final (E7 m) c h9).trans ?_)
  rw [v40_eq, arg3_eq, v42_eq, v41_eq, arg5_eq, v43_eq, arr0_final (E5 m) c, v26_eq, v10_eq, arg1_eq, v27_eq,
    Cert.Mlp.row_shapeCast, Cert.Mlp.row_shapeCast, Cert.Mlp.row_shapeCast]
  unfold result
  rw [col_reshape_eq_bcast]

end Kernel

/-- The reference's result, from a memory agreeing with the kernel program's on the arguments, is `result`. -/
theorem reference_value (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.ReferenceIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    (Cert.ReferenceIdeal.Value.res_main_v65 (F := Ideal) m' c : (⟨2, ![8, 2]⟩ : Shape).Idx → EReal) = result m c := by
  rw [ref_value m' c, mid_eq, agg1_eq, norm10_eq, h0, h1, h2, h3, h4, h5, h6, h7, h8, h9]
  rfl

theorem algebraic : Cert.algebraic_KernelIdeal_ReferenceIdeal := by
  intro m ρ m' ρ' _ hagree
  refine ⟨fun c => result m c, ?_, ?_⟩
  · exact (θ_run Cert.KernelIdeal.defs _ _).mono (fun _ h c => ⟨(h c).1.trans (kernel_value m c), (h c).2⟩)
      (Cert.KernelIdeal.Run.run_result (F := Ideal) m ρ)
  · refine (θ_run Cert.ReferenceIdeal.defs _ _).mono (fun _ h c => ⟨(h c).1.trans ?_, (h c).2⟩)
      (Cert.ReferenceIdeal.Value.run (F := Ideal) m' ρ')
    exact reference_value m m' c (hagree c).1 (hagree c).2.1 (hagree c).2.2.1 (hagree c).2.2.2.1 (hagree c).2.2.2.2.1 (hagree c).2.2.2.2.2.1 (hagree c).2.2.2.2.2.2.1 (hagree c).2.2.2.2.2.2.2.1 (hagree c).2.2.2.2.2.2.2.2.1 (hagree c).2.2.2.2.2.2.2.2.2

end Cert.Proof.Bridge

end
-- ==== Proof.lean ====
/-
  The certificate. Both programs are a two-layer GraphConv network with mean pooling and a linear head: per layer the
  node rows are scaled by the source-degree norm, gathered along the edges, summed into their destination nodes,
  scaled by the destination-degree norm, and passed through a rectified affine map; the rows of each of the 8 graphs
  are then averaged and projected. The kernel program runs the two affine maps a block of 10000 rows at a time,
  scales layer 1's output inside its first call, and inside its second call pools by a one-hot product accumulated over
  the ten blocks; the reference does each step on the whole arrays and pools by a scatter-add. Over the extended
  reals the two agree entry by entry with no finiteness needed: a one-hot factor keeps or kills its term at the
  infinities too, and sums may be regrouped freely.

  The frames of the two kernel programs (word-level and idealized) are one text read at two instances: @main as a
  list of host stretches and two kernel regions, the first a pointwise block kernel, the second carrying its two
  accumulators from grid point to grid point. The reference's frame is its run. Nothing was rewritten by the ideal
  pass, so the idealization claim is trivial.
-/
import proofs.«427144_j14688788152817_2_alg».proof.Defs
import proofs.«427144_j14688788152817_2_alg».proof.Proof.Gen.Kernel
import proofs.«427144_j14688788152817_2_alg».proof.Proof.Gen.KernelIdeal
import proofs.«427144_j14688788152817_2_alg».proof.Proof.Gen.ReferenceIdeal
import proofs.«427144_j14688788152817_2_alg».proof.Proof.Gen.Pre_finite_inputs
import proofs.«427144_j14688788152817_2_alg».proof.Proof.K.Run
import proofs.«427144_j14688788152817_2_alg».proof.Proof.KI.Run
import proofs.«427144_j14688788152817_2_alg».proof.Proof.Bridge
import Idealize.ShloMosaic.Adequacy
import Idealize.ShloMosaic.Init

noncomputable section

namespace Cert.Proof

open Idealize.ShloMosaic Idealize.SL.Sem

theorem frame_k : @Cert.frame_Kernel Cert.Kernel.Gen.facts Cert.Pre_finite_inputs.Gen.facts :=
  fun m ρ _ => Cert.Kernel.Run.frame (F := Bits) m ρ

theorem frame_ki : @Cert.frame_KernelIdeal Cert.KernelIdeal.Gen.facts Cert.Pre_finite_inputs.Gen.facts :=
  fun m ρ _ => Cert.KernelIdeal.Run.frame (F := Ideal) m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

theorem claim : Cert.Claim := ⟨Cert.Kernel.Gen.facts, Cert.KernelIdeal.Gen.facts, Cert.ReferenceIdeal.Gen.facts, Cert.Pre_finite_inputs.Gen.facts,
  frame_k, frame_ki, frame_ri, trivial, Cert.Proof.Bridge.algebraic⟩

end Cert.Proof

end
